-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S30000x128 : Shape := ⟨2, ![30000, 128]⟩
abbrev S1600000 : Shape := ⟨1, ![1600000]⟩
abbrev S1000000 : Shape := ⟨1, ![1000000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S30000x128 : S_.BroadcastsInDim S30000x128 (![] : Fin 0 → Fin S30000x128.rank)
  reducesTo_S30000x128_S_d0_1 : S30000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_
  bcast_S_S1000000 : S_.BroadcastsInDim S1000000 (![] : Fin 0 → Fin S1000000.rank)
  reducesTo_S1000000_S_d0 : S1000000.ReducesTo [0] S_

variable [Facts]

def fn_part7 {F : FTy → Type} [FloatOps F] (main_arg6 : IVec S1000000 32) (main_v114 : IVec S_ 1) (main_v117 : IVec S_ 1) : IVec S_ 1 :=
  let main_v118 : IVec S_ 1 := andi main_v114 main_v117
  let main_c_48 : IVec S_ 32 := constantI S_ 32 30000#32
  let main_v119 : IVec S1000000 32 := broadcastInDim S1000000 ![] bcast_S_S1000000 main_c_48
  let main_v120 : IVec S1000000 1 := cmpi .slt main_arg6 main_v119
  let main_c_49 : IVec S_ 1 := constantI S_ 1 1#1
  let main_v121 : IVec S_ 1 := (fun x v => Host.reduce IntOp.andi x v reducesTo_S1000000_S_d0 h_S_) main_v120 main_c_49
  let main_v122 : IVec S_ 1 := andi main_v118 main_v121
  main_v122

def fn_part6 {F : FTy → Type} [FloatOps F] (main_arg2 : IVec S1600000 32) (main_arg4 : IVec S1000000 32) (main_arg6 : IVec S1000000 32) (main_v98 : IVec S_ 1) (main_v101 : IVec S_ 1) : IVec S_ 1 :=
  let main_v102 : IVec S_ 1 := andi main_v98 main_v101
  let main_c_40 : IVec S_ 32 := constantI S_ 32 100000#32
  let main_v103 : IVec S1600000 32 := broadcastInDim S1600000 ![] bcast_S_S1600000 main_c_40
  let main_v104 : IVec S1600000 1 := cmpi .slt main_arg2 main_v103
  let main_c_41 : IVec S_ 1 := constantI S_ 1 1#1
  let main_v105 : IVec S_ 1 := (fun x v => Host.reduce IntOp.andi x v reducesTo_S1600000_S_d0 h_S_) main_v104 main_c_41
  let main_v106 : IVec S_ 1 := andi main_v102 main_v105
  let main_c_42 : IVec S_ 32 := constantI S_ 32 0#32
  let main_v107 : IVec S1000000 32 := broadcastInDim S1000000 ![] bcast_S_S1000000 main_c_42
  let main_v108 : IVec S1000000 1 := cmpi .sge main_arg4 main_v107
  let main_c_43 : IVec S_ 1 := constantI S_ 1 1#1
  let main_v109 : IVec S_ 1 := (fun x v => Host.reduce IntOp.andi x v reducesTo_S1000000_S_d0 h_S_) main_v108 main_c_43
  let main_v110 : IVec S_ 1 := andi main_v106 main_v109
  let main_c_44 : IVec S_ 32 := constantI S_ 32 100000#32
  let main_v111 : IVec S1000000 32 := broadcastInDim S1000000 ![] bcast_S_S1000000 main_c_44
  let main_v112 : IVec S1000000 1 := cmpi .slt main_arg4 main_v111
  let main_c_45 : IVec S_ 1 := constantI S_ 1 1#1
  let main_v113 : IVec S_ 1 := (fun x v => Host.reduce IntOp.andi x v reducesTo_S1000000_S_d0 h_S_) main_v112 main_c_45
  let main_v114 : IVec S_ 1 := andi main_v110 main_v113
  let main_c_46 : IVec S_ 32 := constantI S_ 32 0#32
  let main_v115 : IVec S1000000 32 := broadcastInDim S1000000 ![] bcast_S_S1000000 main_c_46
  let main_v116 : IVec S1000000 1 := cmpi .sge main_arg6 main_v115
  let main_c_47 : IVec S_ 1 := constantI S_ 1 1#1
  let main_v117 : IVec S_ 1 := (fun x v => Host.reduce IntOp.andi x v reducesTo_S1000000_S_d0 h_S_) main_v116 main_c_47
  fn_part7 (F := F) main_arg6 main_v114 main_v117

def fn_part5 {F : FTy → Type} [FloatOps F] (main_arg2 : IVec S1600000 32) (main_arg4 : IVec S1000000 32) (main_arg6 : IVec S1000000 32) (main_arg24 : FVec F S128 .f32) (main_arg25 : FVec F S128x128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg24
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg25
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_c_38 : IVec S_ 32 := constantI S_ 32 0#32
  let main_v99 : IVec S1600000 32 := broadcastInDim S1600000 ![] bcast_S_S1600000 main_c_38
  let main_v100 : IVec S1600000 1 := cmpi .sge main_arg2 main_v99
  let main_c_39 : IVec S_ 1 := constantI S_ 1 1#1
  let main_v101 : IVec S_ 1 := (fun x v => Host.reduce IntOp.andi x v reducesTo_S1600000_S_d0 h_S_) main_v100 main_c_39
  fn_part6 (F := F) main_arg2 main_arg4 main_arg6 main_v98 main_v101

def fn_part4 {F : FTy → Type} [FloatOps F] (main_arg2 : IVec S1600000 32) (main_arg4 : IVec S1000000 32) (main_arg6 : IVec S1000000 32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_v63 : IVec S_ 1) (main_v67 : IVec S_ 1) : IVec S_ 1 :=
  let main_v68 : IVec S_ 1 := andi main_v63 main_v67
  let main_v69 : FVec F S128x128 .f32 := Host.absf main_arg20
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg21
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg22
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128x128 .f32 := Host.absf main_arg23
  let main_cst_32 : FVec F S_ .f32 := constant S_ .f32 0x7F800000#32
  fn_part5 (F := F) main_arg2 main_arg4 main_arg6 main_arg24 main_arg25 main_v83 main_v84 main_cst_32

def fn_part3 {F : FTy → Type} [FloatOps F] (main_arg2 : IVec S1600000 32) (main_arg4 : IVec S1000000 32) (main_arg6 : IVec S1000000 32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg17
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg18
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg19
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg2 main_arg4 main_arg6 main_arg20 main_arg21 main_arg22 main_arg23 main_arg24 main_arg25 main_v63 main_v67

def fn_part2 {F : FTy → Type} [FloatOps F] (main_arg2 : IVec S1600000 32) (main_arg4 : IVec S1000000 32) (main_arg6 : IVec S1000000 32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg16
  let main_cst_18 : FVec F S_ .f32 := constant S_ .f32 0x7F800000#32
  let main_v50 : FVec F S128x128 .f32 := broadcastInDim S128x128 ![] bcast_S_S128x128 main_cst_18
  fn_part3 (F := F) main_arg2 main_arg4 main_arg6 main_arg17 main_arg18 main_arg19 main_arg20 main_arg21 main_arg22 main_arg23 main_arg24 main_arg25 main_v48 main_v49 main_v50

def fn_part1 {F : FTy → Type} [FloatOps F] (main_arg2 : IVec S1600000 32) (main_arg4 : IVec S1000000 32) (main_arg6 : IVec S1000000 32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg4 main_arg6 main_arg13 main_arg14 main_arg15 main_arg16 main_arg17 main_arg18 main_arg19 main_arg20 main_arg21 main_arg22 main_arg23 main_arg24 main_arg25 main_v33

def fn {F : FTy → Type} [FloatOps F] (main_arg0 : FVec F S100000x128 .f32) (main_arg1 : FVec F S30000x128 .f32) (main_arg2 : IVec S1600000 32) (main_arg3 : IVec S1600000 32) (main_arg4 : IVec S1000000 32) (main_arg5 : IVec S1000000 32) (main_arg6 : IVec S1000000 32) (main_arg7 : IVec S1000000 32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S30000x128 .f32 := Host.absf main_arg1
  let main_cst_0 : FVec F S_ .f32 := constant S_ .f32 0x7F800000#32
  let main_v5 : FVec F S30000x128 .f32 := broadcastInDim S30000x128 ![] bcast_S_S30000x128 main_cst_0
  let main_v6 : IVec S30000x128 1 := cmpf .olt main_v4 main_v5
  let main_c_1 : IVec S_ 1 := constantI S_ 1 1#1
  let main_v7 : IVec S_ 1 := (fun x v => Host.reduce IntOp.andi x v reducesTo_S30000x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg4 main_arg6 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S100000x128 : Shape := ⟨2, ![100000, 128]⟩
abbrev S30000x128 : Shape := ⟨2, ![30000, 128]⟩
abbrev S1600000 : Shape := ⟨1, ![1600000]⟩
abbrev S1000000 : Shape := ⟨1, ![1000000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S100000x1 : Shape := ⟨2, ![100000, 1]⟩
abbrev S1000000x1 : Shape := ⟨2, ![1000000, 1]⟩
abbrev S30000x1 : Shape := ⟨2, ![30000, 1]⟩
abbrev S1 : Shape := ⟨1, ![1]⟩
abbrev S1x1 : Shape := ⟨2, ![1, 1]⟩
abbrev S1600000x128 : Shape := ⟨2, ![1600000, 128]⟩
abbrev S1000000x128 : Shape := ⟨2, ![1000000, 128]⟩
abbrev S1x128 : Shape := ⟨2, ![1, 128]⟩
abbrev S5000x128 : Shape := ⟨2, ![5000, 128]⟩

abbrev nBuf : Space → Nat
  | .hbm => 248
  | .vmem => 42
  | .smem => 0
  | _ => 0

abbrev hbmTy0_0 (i : Nat) : BufTy := match i % 128 with
  | 0 => ⟨S100000x128, .f32⟩
  | 1 => ⟨S30000x128, .f32⟩
  | 2 => ⟨S1600000, .i32⟩
  | 3 => ⟨S1600000, .i32⟩
  | 4 => ⟨S1000000, .i32⟩
  | 5 => ⟨S1000000, .i32⟩
  | 6 => ⟨S1000000, .i32⟩
  | 7 => ⟨S1000000, .i32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128x128, .f32⟩
  | 21 => ⟨S128, .f32⟩
  | 22 => ⟨S128x128, .f32⟩
  | 23 => ⟨S128x128, .f32⟩
  | 24 => ⟨S128, .f32⟩
  | 25 => ⟨S128x128, .f32⟩
  | 26 => ⟨S_, .f32⟩
  | 27 => ⟨S1600000x1, .f32⟩
  | 28 => ⟨S_, .f32⟩
  | 29 => ⟨S100000x1, .f32⟩
  | 30 => ⟨S1600000x1, .i32⟩
  | 31 => ⟨S100000x1, .f32⟩
  | 32 => ⟨S_, .f32⟩
  | 33 => ⟨S100000x1, .f32⟩
  | 34 => ⟨S100000x1, .f32⟩
  | 35 => ⟨S_, .f32⟩
  | 36 => ⟨S100000x1, .f32⟩
  | 37 => ⟨S100000x1, .f32⟩
  | 38 => ⟨S_, .f32⟩
  | 39 => ⟨S1000000x1, .f32⟩
  | 40 => ⟨S_, .f32⟩
  | 41 => ⟨S30000x1, .f32⟩
  | 42 => ⟨S1000000x1, .i32⟩
  | 43 => ⟨S30000x1, .f32⟩
  | 44 => ⟨S_, .f32⟩
  | 45 => ⟨S30000x1, .f32⟩
  | 46 => ⟨S30000x1, .f32⟩
  | 47 => ⟨S_, .f32⟩
  | 48 => ⟨S30000x1, .f32⟩
  | 49 => ⟨S30000x1, .f32⟩
  | 50 => ⟨S_, .f32⟩
  | 51 => ⟨S1000000x1, .f32⟩
  | 52 => ⟨S_, .f32⟩
  | 53 => ⟨S100000x1, .f32⟩
  | 54 => ⟨S1000000x1, .i32⟩
  | 55 => ⟨S100000x1, .f32⟩
  | 56 => ⟨S_, .f32⟩
  | 57 => ⟨S100000x1, .f32⟩
  | 58 => ⟨S100000x1, .f32⟩
  | 59 => ⟨S_, .f32⟩
  | 60 => ⟨S100000x1, .f32⟩
  | 61 => ⟨S100000x1, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1, .i32⟩
  | 71 => ⟨S_, .i32⟩
  | 72 => ⟨S1600000x1, .i32⟩
  | 73 => ⟨S1600000x1, .i1⟩
  | 74 => ⟨S1x1, .i32⟩
  | 75 => ⟨S1600000x1, .i32⟩
  | 76 => ⟨S1600000x1, .i1⟩
  | 77 => ⟨S1600000x1, .i1⟩
  | 78 => ⟨S_, .i1⟩
  | 79 => ⟨S1600000, .i1⟩
  | 80 => ⟨S1600000x128, .f32⟩
  | 81 => ⟨S1600000x128, .i1⟩
  | 82 => ⟨S_, .f32⟩
  | 83 => ⟨S1600000x128, .f32⟩
  | 84 => ⟨S1600000x128, .f32⟩
  | 85 => ⟨S_, .f32⟩
  | 86 => ⟨S100000x128, .f32⟩
  | 87 => ⟨S1600000x1, .i32⟩
  | 88 => ⟨S100000x128, .f32⟩
  | 89 => ⟨S100000x128, .f32⟩
  | 90 => ⟨S100000x128, .f32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1, .i32⟩
  | 100 => ⟨S_, .i32⟩
  | 101 => ⟨S1000000x1, .i32⟩
  | 102 => ⟨S1000000x1, .i1⟩
  | 103 => ⟨S1x1, .i32⟩
  | 104 => ⟨S1000000x1, .i32⟩
  | 105 => ⟨S1000000x1, .i1⟩
  | 106 => ⟨S1000000x1, .i1⟩
  | 107 => ⟨S_, .i1⟩
  | 108 => ⟨S1000000, .i1⟩
  | 109 => ⟨S1000000x128, .f32⟩
  | 110 => ⟨S1000000x128, .i1⟩
  | 111 => ⟨S_, .f32⟩
  | 112 => ⟨S1000000x128, .f32⟩
  | 113 => ⟨S1000000x128, .f32⟩
  | 114 => ⟨S_, .f32⟩
  | 115 => ⟨S100000x128, .f32⟩
  | 116 => ⟨S1000000x1, .i32⟩
  | 117 => ⟨S100000x128, .f32⟩
  | 118 => ⟨S100000x128, .f32⟩
  | 119 => ⟨S100000x128, .f32⟩
  | 120 => ⟨S_, .i32⟩
  | 121 => ⟨S1000000, .i32⟩
  | 122 => ⟨S1000000, .i1⟩
  | 123 => ⟨S_, .i32⟩
  | 124 => ⟨S1000000, .i32⟩
  | 125 => ⟨S1000000, .i32⟩
  | 126 => ⟨S1000000, .i32⟩
  | 127 => ⟨S1000000x1, .i32⟩
  | _ => ⟨S100000x128, .f32⟩

abbrev hbmTy0_1 (i : Nat) : BufTy := match i % 128 with
  | 0 => ⟨S1, .i32⟩
  | 1 => ⟨S_, .i32⟩
  | 2 => ⟨S1000000x1, .i32⟩
  | 3 => ⟨S1000000x1, .i1⟩
  | 4 => ⟨S1x1, .i32⟩
  | 5 => ⟨S1000000x1, .i32⟩
  | 6 => ⟨S1000000x1, .i1⟩
  | 7 => ⟨S1000000x1, .i1⟩
  | 8 => ⟨S_, .i1⟩
  | 9 => ⟨S1000000, .i1⟩
  | 10 => ⟨S1000000x128, .f32⟩
  | 11 => ⟨S1000000x128, .i1⟩
  | 12 => ⟨S_, .f32⟩
  | 13 => ⟨S1000000x128, .f32⟩
  | 14 => ⟨S1000000x128, .f32⟩
  | 15 => ⟨S_, .f32⟩
  | 16 => ⟨S30000x128, .f32⟩
  | 17 => ⟨S1000000x1, .i32⟩
  | 18 => ⟨S30000x128, .f32⟩
  | 19 => ⟨S30000x128, .f32⟩
  | 20 => ⟨S30000x128, .f32⟩
  | 21 => ⟨S128x128, .f32⟩
  | 22 => ⟨S128, .f32⟩
  | 23 => ⟨S1x128, .f32⟩
  | 24 => ⟨S100000x128, .f32⟩
  | 25 => ⟨S1x128, .f32⟩
  | 26 => ⟨S30000x128, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1, .i32⟩
  | 36 => ⟨S_, .i32⟩
  | 37 => ⟨S1600000x1, .i32⟩
  | 38 => ⟨S1600000x1, .i1⟩
  | 39 => ⟨S1x1, .i32⟩
  | 40 => ⟨S1600000x1, .i32⟩
  | 41 => ⟨S1600000x1, .i1⟩
  | 42 => ⟨S1600000x1, .i1⟩
  | 43 => ⟨S_, .i1⟩
  | 44 => ⟨S1600000, .i1⟩
  | 45 => ⟨S1600000x128, .f32⟩
  | 46 => ⟨S1600000x128, .i1⟩
  | 47 => ⟨S_, .f32⟩
  | 48 => ⟨S1600000x128, .f32⟩
  | 49 => ⟨S1600000x128, .f32⟩
  | 50 => ⟨S_, .f32⟩
  | 51 => ⟨S100000x128, .f32⟩
  | 52 => ⟨S1600000x1, .i32⟩
  | 53 => ⟨S100000x128, .f32⟩
  | 54 => ⟨S100000x128, .f32⟩
  | 55 => ⟨S100000x128, .f32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1, .i32⟩
  | 65 => ⟨S_, .i32⟩
  | 66 => ⟨S1000000x1, .i32⟩
  | 67 => ⟨S1000000x1, .i1⟩
  | 68 => ⟨S1x1, .i32⟩
  | 69 => ⟨S1000000x1, .i32⟩
  | 70 => ⟨S1000000x1, .i1⟩
  | 71 => ⟨S1000000x1, .i1⟩
  | 72 => ⟨S_, .i1⟩
  | 73 => ⟨S1000000, .i1⟩
  | 74 => ⟨S1000000x128, .f32⟩
  | 75 => ⟨S1000000x128, .i1⟩
  | 76 => ⟨S_, .f32⟩
  | 77 => ⟨S1000000x128, .f32⟩
  | 78 => ⟨S1000000x128, .f32⟩
  | 79 => ⟨S_, .f32⟩
  | 80 => ⟨S100000x128, .f32⟩
  | 81 => ⟨S1000000x1, .i32⟩
  | 82 => ⟨S100000x128, .f32⟩
  | 83 => ⟨S100000x128, .f32⟩
  | 84 => ⟨S100000x128, .f32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i32⟩
  | 91 => ⟨S1000000, .i32⟩
  | 92 => ⟨S1000000x1, .i32⟩
  | 93 => ⟨S1, .i32⟩
  | 94 => ⟨S_, .i32⟩
  | 95 => ⟨S1000000x1, .i32⟩
  | 96 => ⟨S1000000x1, .i1⟩
  | 97 => ⟨S1x1, .i32⟩
  | 98 => ⟨S1000000x1, .i32⟩
  | 99 => ⟨S1000000x1, .i1⟩
  | 100 => ⟨S1000000x1, .i1⟩
  | 101 => ⟨S_, .i1⟩
  | 102 => ⟨S1000000, .i1⟩
  | 103 => ⟨S1000000x128, .f32⟩
  | 104 => ⟨S1000000x128, .i1⟩
  | 105 => ⟨S_, .f32⟩
  | 106 => ⟨S1000000x128, .f32⟩
  | 107 => ⟨S1000000x128, .f32⟩
  | 108 => ⟨S_, .f32⟩
  | 109 => ⟨S30000x128, .f32⟩
  | 110 => ⟨S1000000x1, .i32⟩
  | 111 => ⟨S30000x128, .f32⟩
  | 112 => ⟨S30000x128, .f32⟩
  | 113 => ⟨S30000x128, .f32⟩
  | 114 => ⟨S128x128, .f32⟩
  | 115 => ⟨S128, .f32⟩
  | 116 => ⟨S1x128, .f32⟩
  | 117 => ⟨S100000x128, .f32⟩
  | 118 => ⟨S1x128, .f32⟩
  | 119 => ⟨S30000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S128x128, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_cst_0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_v4 : Ref sig .tc := ⟨.hbm, 33, rfl⟩
abbrev main_v5 : Ref sig .tc := ⟨.hbm, 34, rfl⟩
abbrev main_cst_2 : Ref sig .tc := ⟨.hbm, 35, rfl⟩
abbrev main_v6 : Ref sig .tc := ⟨.hbm, 36, rfl⟩
abbrev main_v7 : Ref sig .tc := ⟨.hbm, 37, rfl⟩
abbrev main_cst_3 : Ref sig .tc := ⟨.hbm, 38, rfl⟩
abbrev main_v8 : Ref sig .tc := ⟨.hbm, 39, rfl⟩
abbrev main_cst_4 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_5 : Ref sig .tc := ⟨.hbm, 44, rfl⟩
abbrev main_v12 : Ref sig .tc := ⟨.hbm, 45, rfl⟩
abbrev main_v13 : Ref sig .tc := ⟨.hbm, 46, rfl⟩
abbrev main_cst_6 : Ref sig .tc := ⟨.hbm, 47, rfl⟩
abbrev main_v14 : Ref sig .tc := ⟨.hbm, 48, rfl⟩
abbrev main_v15 : Ref sig .tc := ⟨.hbm, 49, rfl⟩
abbrev main_cst_7 : Ref sig .tc := ⟨.hbm, 50, rfl⟩
abbrev main_v16 : Ref sig .tc := ⟨.hbm, 51, rfl⟩
abbrev main_cst_8 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_9 : Ref sig .tc := ⟨.hbm, 56, rfl⟩
abbrev main_v20 : Ref sig .tc := ⟨.hbm, 57, rfl⟩
abbrev main_v21 : Ref sig .tc := ⟨.hbm, 58, rfl⟩
abbrev main_cst_10 : Ref sig .tc := ⟨.hbm, 59, rfl⟩
abbrev main_v22 : Ref sig .tc := ⟨.hbm, 60, rfl⟩
abbrev main_v23 : Ref sig .tc := ⟨.hbm, 61, rfl⟩
abbrev main_call0_c : Ref sig .tc := ⟨.hbm, 62, rfl⟩
abbrev main_call0_v0 : Ref sig .tc := ⟨.hbm, 63, rfl⟩
abbrev main_call0_v1 : Ref sig .tc := ⟨.hbm, 64, rfl⟩
abbrev main_call0_c_0 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_c_1 : Ref sig .tc := ⟨.hbm, 70, rfl⟩
abbrev main_call0_c_2 : Ref sig .tc := ⟨.hbm, 71, rfl⟩
abbrev main_call0_v6 : Ref sig .tc := ⟨.hbm, 72, rfl⟩
abbrev main_call0_v7 : Ref sig .tc := ⟨.hbm, 73, rfl⟩
abbrev main_call0_v8 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_c_3 : Ref sig .tc := ⟨.hbm, 78, rfl⟩
abbrev main_call0_v12 : Ref sig .tc := ⟨.hbm, 79, rfl⟩
abbrev main_call0_v13 : Ref sig .tc := ⟨.hbm, 80, rfl⟩
abbrev main_call0_v14 : Ref sig .tc := ⟨.hbm, 81, rfl⟩
abbrev main_call0_cst : Ref sig .tc := ⟨.hbm, 82, rfl⟩
abbrev main_call0_v15 : Ref sig .tc := ⟨.hbm, 83, rfl⟩
abbrev main_v24 : Ref sig .tc := ⟨.hbm, 84, rfl⟩
abbrev main_cst_11 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_call1_c : Ref sig .tc := ⟨.hbm, 91, rfl⟩
abbrev main_call1_v0 : Ref sig .tc := ⟨.hbm, 92, rfl⟩
abbrev main_call1_v1 : Ref sig .tc := ⟨.hbm, 93, rfl⟩
abbrev main_call1_c_0 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_c_1 : Ref sig .tc := ⟨.hbm, 99, rfl⟩
abbrev main_call1_c_2 : Ref sig .tc := ⟨.hbm, 100, rfl⟩
abbrev main_call1_v6 : Ref sig .tc := ⟨.hbm, 101, rfl⟩
abbrev main_call1_v7 : Ref sig .tc := ⟨.hbm, 102, rfl⟩
abbrev main_call1_v8 : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_call1_c_3 : Ref sig .tc := ⟨.hbm, 107, rfl⟩
abbrev main_call1_v12 : Ref sig .tc := ⟨.hbm, 108, rfl⟩
abbrev main_call1_v13 : Ref sig .tc := ⟨.hbm, 109, rfl⟩
abbrev main_call1_v14 : Ref sig .tc := ⟨.hbm, 110, rfl⟩
abbrev main_call1_cst : Ref sig .tc := ⟨.hbm, 111, rfl⟩
abbrev main_call1_v15 : Ref sig .tc := ⟨.hbm, 112, rfl⟩
abbrev main_v30 : Ref sig .tc := ⟨.hbm, 113, rfl⟩
abbrev main_cst_12 : Ref sig .tc := ⟨.hbm, 114, rfl⟩
abbrev main_v31 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_call2_c : Ref sig .tc := ⟨.hbm, 120, rfl⟩
abbrev main_call2_v0 : Ref sig .tc := ⟨.hbm, 121, rfl⟩
abbrev main_call2_v1 : Ref sig .tc := ⟨.hbm, 122, rfl⟩
abbrev main_call2_c_0 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_c_1 : Ref sig .tc := ⟨.hbm, 128, rfl⟩
abbrev main_call2_c_2 : Ref sig .tc := ⟨.hbm, 129, rfl⟩
abbrev main_call2_v6 : Ref sig .tc := ⟨.hbm, 130, rfl⟩
abbrev main_call2_v7 : Ref sig .tc := ⟨.hbm, 131, rfl⟩
abbrev main_call2_v8 : Ref sig .tc := ⟨.hbm, 132, rfl⟩
abbrev main_call2_v9 : Ref sig .tc := ⟨.hbm, 133, rfl⟩
abbrev main_call2_v10 : Ref sig .tc := ⟨.hbm, 134, rfl⟩
abbrev main_call2_v11 : Ref sig .tc := ⟨.hbm, 135, rfl⟩
abbrev main_call2_c_3 : Ref sig .tc := ⟨.hbm, 136, rfl⟩
abbrev main_call2_v12 : Ref sig .tc := ⟨.hbm, 137, rfl⟩
abbrev main_call2_v13 : Ref sig .tc := ⟨.hbm, 138, rfl⟩
abbrev main_call2_v14 : Ref sig .tc := ⟨.hbm, 139, rfl⟩
abbrev main_call2_cst : Ref sig .tc := ⟨.hbm, 140, rfl⟩
abbrev main_call2_v15 : Ref sig .tc := ⟨.hbm, 141, rfl⟩
abbrev main_v36 : Ref sig .tc := ⟨.hbm, 142, rfl⟩
abbrev main_cst_13 : Ref sig .tc := ⟨.hbm, 143, rfl⟩
abbrev main_v37 : Ref sig .tc := ⟨.hbm, 144, rfl⟩
abbrev main_v38 : Ref sig .tc := ⟨.hbm, 145, rfl⟩
abbrev main_v39 : Ref sig .tc := ⟨.hbm, 146, rfl⟩
abbrev main_v40 : Ref sig .tc := ⟨.hbm, 147, rfl⟩
abbrev main_v41 : Ref sig .tc := ⟨.hbm, 148, rfl⟩
abbrev main_v42 : Ref sig .tc := ⟨.hbm, 149, rfl⟩
abbrev main_v43 : Ref sig .tc := ⟨.hbm, 150, rfl⟩
abbrev main_v44 : Ref sig .tc := ⟨.hbm, 151, rfl⟩
abbrev main_v45 : Ref sig .tc := ⟨.hbm, 152, rfl⟩
abbrev main_v46 : Ref sig .tc := ⟨.hbm, 153, rfl⟩
abbrev main_v47 : Ref sig .tc := ⟨.hbm, 154, rfl⟩
abbrev main_call3_c : Ref sig .tc := ⟨.hbm, 155, rfl⟩
abbrev main_call3_v0 : Ref sig .tc := ⟨.hbm, 156, rfl⟩
abbrev main_call3_v1 : Ref sig .tc := ⟨.hbm, 157, rfl⟩
abbrev main_call3_c_0 : Ref sig .tc := ⟨.hbm, 158, rfl⟩
abbrev main_call3_v2 : Ref sig .tc := ⟨.hbm, 159, rfl⟩
abbrev main_call3_v3 : Ref sig .tc := ⟨.hbm, 160, rfl⟩
abbrev main_call3_v4 : Ref sig .tc := ⟨.hbm, 161, rfl⟩
abbrev main_call3_v5 : Ref sig .tc := ⟨.hbm, 162, rfl⟩
abbrev main_call3_c_1 : Ref sig .tc := ⟨.hbm, 163, rfl⟩
abbrev main_call3_c_2 : Ref sig .tc := ⟨.hbm, 164, rfl⟩
abbrev main_call3_v6 : Ref sig .tc := ⟨.hbm, 165, rfl⟩
abbrev main_call3_v7 : Ref sig .tc := ⟨.hbm, 166, rfl⟩
abbrev main_call3_v8 : Ref sig .tc := ⟨.hbm, 167, rfl⟩
abbrev main_call3_v9 : Ref sig .tc := ⟨.hbm, 168, rfl⟩
abbrev main_call3_v10 : Ref sig .tc := ⟨.hbm, 169, rfl⟩
abbrev main_call3_v11 : Ref sig .tc := ⟨.hbm, 170, rfl⟩
abbrev main_call3_c_3 : Ref sig .tc := ⟨.hbm, 171, rfl⟩
abbrev main_call3_v12 : Ref sig .tc := ⟨.hbm, 172, rfl⟩
abbrev main_call3_v13 : Ref sig .tc := ⟨.hbm, 173, rfl⟩
abbrev main_call3_v14 : Ref sig .tc := ⟨.hbm, 174, rfl⟩
abbrev main_call3_cst : Ref sig .tc := ⟨.hbm, 175, rfl⟩
abbrev main_call3_v15 : Ref sig .tc := ⟨.hbm, 176, rfl⟩
abbrev main_v48 : Ref sig .tc := ⟨.hbm, 177, rfl⟩
abbrev main_cst_14 : Ref sig .tc := ⟨.hbm, 178, rfl⟩
abbrev main_v49 : Ref sig .tc := ⟨.hbm, 179, rfl⟩
abbrev main_v50 : Ref sig .tc := ⟨.hbm, 180, rfl⟩
abbrev main_v51 : Ref sig .tc := ⟨.hbm, 181, rfl⟩
abbrev main_v52 : Ref sig .tc := ⟨.hbm, 182, rfl⟩
abbrev main_v53 : Ref sig .tc := ⟨.hbm, 183, rfl⟩
abbrev main_call4_c : Ref sig .tc := ⟨.hbm, 184, rfl⟩
abbrev main_call4_v0 : Ref sig .tc := ⟨.hbm, 185, rfl⟩
abbrev main_call4_v1 : Ref sig .tc := ⟨.hbm, 186, rfl⟩
abbrev main_call4_c_0 : Ref sig .tc := ⟨.hbm, 187, rfl⟩
abbrev main_call4_v2 : Ref sig .tc := ⟨.hbm, 188, rfl⟩
abbrev main_call4_v3 : Ref sig .tc := ⟨.hbm, 189, rfl⟩
abbrev main_call4_v4 : Ref sig .tc := ⟨.hbm, 190, rfl⟩
abbrev main_call4_v5 : Ref sig .tc := ⟨.hbm, 191, rfl⟩
abbrev main_call4_c_1 : Ref sig .tc := ⟨.hbm, 192, rfl⟩
abbrev main_call4_c_2 : Ref sig .tc := ⟨.hbm, 193, rfl⟩
abbrev main_call4_v6 : Ref sig .tc := ⟨.hbm, 194, rfl⟩
abbrev main_call4_v7 : Ref sig .tc := ⟨.hbm, 195, rfl⟩
abbrev main_call4_v8 : Ref sig .tc := ⟨.hbm, 196, rfl⟩
abbrev main_call4_v9 : Ref sig .tc := ⟨.hbm, 197, rfl⟩
abbrev main_call4_v10 : Ref sig .tc := ⟨.hbm, 198, rfl⟩
abbrev main_call4_v11 : Ref sig .tc := ⟨.hbm, 199, rfl⟩
abbrev main_call4_c_3 : Ref sig .tc := ⟨.hbm, 200, rfl⟩
abbrev main_call4_v12 : Ref sig .tc := ⟨.hbm, 201, rfl⟩
abbrev main_call4_v13 : Ref sig .tc := ⟨.hbm, 202, rfl⟩
abbrev main_call4_v14 : Ref sig .tc := ⟨.hbm, 203, rfl⟩
abbrev main_call4_cst : Ref sig .tc := ⟨.hbm, 204, rfl⟩
abbrev main_call4_v15 : Ref sig .tc := ⟨.hbm, 205, rfl⟩
abbrev main_v54 : Ref sig .tc := ⟨.hbm, 206, rfl⟩
abbrev main_cst_15 : Ref sig .tc := ⟨.hbm, 207, rfl⟩
abbrev main_v55 : Ref sig .tc := ⟨.hbm, 208, rfl⟩
abbrev main_v56 : Ref sig .tc := ⟨.hbm, 209, rfl⟩
abbrev main_v57 : Ref sig .tc := ⟨.hbm, 210, rfl⟩
abbrev main_v58 : Ref sig .tc := ⟨.hbm, 211, rfl⟩
abbrev main_v59 : Ref sig .tc := ⟨.hbm, 212, rfl⟩
abbrev main_call5_c : Ref sig .tc := ⟨.hbm, 213, rfl⟩
abbrev main_call5_v0 : Ref sig .tc := ⟨.hbm, 214, rfl⟩
abbrev main_call5_v1 : Ref sig .tc := ⟨.hbm, 215, rfl⟩
abbrev main_call5_c_0 : Ref sig .tc := ⟨.hbm, 216, rfl⟩
abbrev main_call5_v2 : Ref sig .tc := ⟨.hbm, 217, rfl⟩
abbrev main_call5_v3 : Ref sig .tc := ⟨.hbm, 218, rfl⟩
abbrev main_call5_v4 : Ref sig .tc := ⟨.hbm, 219, rfl⟩
abbrev main_call5_v5 : Ref sig .tc := ⟨.hbm, 220, rfl⟩
abbrev main_call5_c_1 : Ref sig .tc := ⟨.hbm, 221, rfl⟩
abbrev main_call5_c_2 : Ref sig .tc := ⟨.hbm, 222, rfl⟩
abbrev main_call5_v6 : Ref sig .tc := ⟨.hbm, 223, rfl⟩
abbrev main_call5_v7 : Ref sig .tc := ⟨.hbm, 224, rfl⟩
abbrev main_call5_v8 : Ref sig .tc := ⟨.hbm, 225, rfl⟩
abbrev main_call5_v9 : Ref sig .tc := ⟨.hbm, 226, rfl⟩
abbrev main_call5_v10 : Ref sig .tc := ⟨.hbm, 227, rfl⟩
abbrev main_call5_v11 : Ref sig .tc := ⟨.hbm, 228, rfl⟩
abbrev main_call5_c_3 : Ref sig .tc := ⟨.hbm, 229, rfl⟩
abbrev main_call5_v12 : Ref sig .tc := ⟨.hbm, 230, rfl⟩
abbrev main_call5_v13 : Ref sig .tc := ⟨.hbm, 231, rfl⟩
abbrev main_call5_v14 : Ref sig .tc := ⟨.hbm, 232, rfl⟩
abbrev main_call5_cst : Ref sig .tc := ⟨.hbm, 233, rfl⟩
abbrev main_call5_v15 : Ref sig .tc := ⟨.hbm, 234, rfl⟩
abbrev main_v60 : Ref sig .tc := ⟨.hbm, 235, rfl⟩
abbrev main_cst_16 : Ref sig .tc := ⟨.hbm, 236, rfl⟩
abbrev main_v61 : Ref sig .tc := ⟨.hbm, 237, rfl⟩
abbrev main_v62 : Ref sig .tc := ⟨.hbm, 238, rfl⟩
abbrev main_v63 : Ref sig .tc := ⟨.hbm, 239, rfl⟩
abbrev main_v64 : Ref sig .tc := ⟨.hbm, 240, rfl⟩
abbrev main_v65 : Ref sig .tc := ⟨.hbm, 241, rfl⟩
abbrev main_v66 : Ref sig .tc := ⟨.hbm, 242, rfl⟩
abbrev main_v67 : Ref sig .tc := ⟨.hbm, 243, rfl⟩
abbrev main_v68 : Ref sig .tc := ⟨.hbm, 244, rfl⟩
abbrev main_v69 : Ref sig .tc := ⟨.hbm, 245, rfl⟩
abbrev main_v70 : Ref sig .tc := ⟨.hbm, 246, rfl⟩
abbrev main_v71 : Ref sig .tc := ⟨.hbm, 247, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![6], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1000000x1 : S_.BroadcastsInDim S1000000x1 (![] : Fin 0 → Fin S1000000x1.rank)
  bcast_S_S30000x1 : S_.BroadcastsInDim S30000x1 (![] : Fin 0 → Fin S30000x1.rank)
  bcast_S1000000_S1000000x1_0 : S1000000.BroadcastsInDim S1000000x1 (![0] : Fin 1 → Fin S1000000x1.rank)
  bcast_S_S1600000 : S_.BroadcastsInDim S1600000 (![] : Fin 0 → Fin S1600000.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S1000000 : S_.BroadcastsInDim S1000000 (![] : Fin 0 → Fin S1000000.rank)
  bcast_S1x1_S1000000x1_0_1 : S1x1.BroadcastsInDim S1000000x1 (![0, 1] : Fin 2 → Fin S1000000x1.rank)
  reducesTo_S1000000x1_S1000000_d1 : S1000000x1.ReducesTo [1] S1000000
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  bcast_S_S30000x128 : S_.BroadcastsInDim S30000x128 (![] : Fin 0 → Fin S30000x128.rank)
  bcast_S30000x1_S30000x128_0_1 : S30000x1.BroadcastsInDim S30000x128 (![0, 1] : Fin 2 → Fin S30000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000x1_S1600000x1_S1600000x1_1_0_0_1_wf : ScatterDims.WF S100000x1 S1600000x1 S1600000x1 [1] [0] [0] 1
  scatter_S30000x1_S1000000x1_S1000000x1_1_0_0_1_wf : ScatterDims.WF S30000x1 S1000000x1 S1000000x1 [1] [0] [0] 1
  scatter_S100000x1_S1000000x1_S1000000x1_1_0_0_1_wf : ScatterDims.WF S100000x1 S1000000x1 S1000000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S30000x128_S1000000x1_S1000000x128_1_0_n_n_0_1_1128_wf : GatherDims.WF S30000x128 S1000000x1 S1000000x128 [1] [0] [] [0] [] 1 ![1, 128]
  scatter_S100000x128_S1000000x1_S1000000x128_1_0_0_1_wf : ScatterDims.WF S100000x128 S1000000x1 S1000000x128 [1] [0] [0] 1
  gather_S100000x128_S1000000x1_S1000000x128_1_0_n_n_0_1_1128_wf : GatherDims.WF S100000x128 S1000000x1 S1000000x128 [1] [0] [] [0] [] 1 ![1, 128]
  scatter_S30000x128_S1000000x1_S1000000x128_1_0_0_1_wf : ScatterDims.WF S30000x128 S1000000x1 S1000000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S30000x128.size a
  hwx1_0 : ∀ i : grid1.Coords, EltTy.bits .f32 = 32 ∨ (Rect.block (s := S30000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S30000x128.size a
  hwx1_1 : ∀ i : grid1.Coords, EltTy.bits .f32 = 32 ∨ (Rect.block (s := S30000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S30000x128.size a
  hwx1_5 : ∀ i : grid1.Coords, EltTy.bits .f32 = 32 ∨ (Rect.block (s := S30000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S30000x128.size a
  hwx3_0 : ∀ i : grid3.Coords, EltTy.bits .f32 = 32 ∨ (Rect.block (s := S30000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S30000x128.size a
  hwx3_1 : ∀ i : grid3.Coords, EltTy.bits .f32 = 32 ∨ (Rect.block (s := S30000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S30000x128.size a
  hwx3_5 : ∀ i : grid3.Coords, EltTy.bits .f32 = 32 ∨ (Rect.block (s := S30000x128) S5000x128.size (cc3_transform_5 i) (hinb3_5 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def scatter_S30000x1_S1000000x1_S1000000x1_1_0_0_1 : ScatterDims S30000x1 S1000000x1 S1000000x1 where
  updateWindowDims := [1]
  insertedWindowDims := [0]
  scatterDimsToOperandDims := [0]
  indexVectorDim := 1
  wf := scatter_S30000x1_S1000000x1_S1000000x1_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S30000x128_S1000000x1_S1000000x128_1_0_n_n_0_1_1128 : GatherDims S30000x128 S1000000x1 S1000000x128 where
  offsetDims := [1]
  collapsedSliceDims := [0]
  operandBatchingDims := []
  startIndicesBatchingDims := []
  startIndexMap := [0]
  indexVectorDim := 1
  sliceSizes := ![1, 128]
  wf := gather_S30000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S30000x128_S1000000x1_S1000000x128_1_0_0_1 : ScatterDims S30000x128 S1000000x1 S1000000x128 where
  updateWindowDims := [1]
  insertedWindowDims := [0]
  scatterDimsToOperandDims := [0]
  indexVectorDim := 1
  wf := scatter_S30000x128_S1000000x1_S1000000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v29) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg14) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg17) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg23) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v69) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v65) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg20) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg22) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S30000x128 : Shape := ⟨2, ![30000, 128]⟩
abbrev S1600000 : Shape := ⟨1, ![1600000]⟩
abbrev S1000000 : Shape := ⟨1, ![1000000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1000000x1 : Shape := ⟨2, ![1000000, 1]⟩
abbrev S1000000x128 : Shape := ⟨2, ![1000000, 128]⟩
abbrev S30000x1 : Shape := ⟨2, ![30000, 1]⟩

abbrev nBuf : Space → Nat
  | .hbm => 214
  | .vmem => 0
  | .smem => 0
  | _ => 0

abbrev hbmTy0_0 (i : Nat) : BufTy := match i % 128 with
  | 0 => ⟨S100000x128, .f32⟩
  | 1 => ⟨S30000x128, .f32⟩
  | 2 => ⟨S1600000, .i32⟩
  | 3 => ⟨S1600000, .i32⟩
  | 4 => ⟨S1000000, .i32⟩
  | 5 => ⟨S1000000, .i32⟩
  | 6 => ⟨S1000000, .i32⟩
  | 7 => ⟨S1000000, .i32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128x128, .f32⟩
  | 21 => ⟨S128, .f32⟩
  | 22 => ⟨S128x128, .f32⟩
  | 23 => ⟨S128x128, .f32⟩
  | 24 => ⟨S128, .f32⟩
  | 25 => ⟨S128x128, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x128, .f32⟩
  | 35 => ⟨S_, .f32⟩
  | 36 => ⟨S100000x128, .f32⟩
  | 37 => ⟨S1600000x1, .i32⟩
  | 38 => ⟨S100000x128, .f32⟩
  | 39 => ⟨S_, .f32⟩
  | 40 => ⟨S1600000x1, .f32⟩
  | 41 => ⟨S_, .f32⟩
  | 42 => ⟨S100000x1, .f32⟩
  | 43 => ⟨S1600000x1, .i32⟩
  | 44 => ⟨S100000x1, .f32⟩
  | 45 => ⟨S_, .f32⟩
  | 46 => ⟨S100000x1, .f32⟩
  | 47 => ⟨S100000x1, .f32⟩
  | 48 => ⟨S100000x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S100000x128, .f32⟩
  | 55 => ⟨S100000x128, .f32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1000000x128, .f32⟩
  | 65 => ⟨S_, .f32⟩
  | 66 => ⟨S100000x128, .f32⟩
  | 67 => ⟨S1000000x1, .i32⟩
  | 68 => ⟨S100000x128, .f32⟩
  | 69 => ⟨S_, .f32⟩
  | 70 => ⟨S1000000x1, .f32⟩
  | 71 => ⟨S_, .f32⟩
  | 72 => ⟨S100000x1, .f32⟩
  | 73 => ⟨S1000000x1, .i32⟩
  | 74 => ⟨S100000x1, .f32⟩
  | 75 => ⟨S_, .f32⟩
  | 76 => ⟨S100000x1, .f32⟩
  | 77 => ⟨S100000x1, .f32⟩
  | 78 => ⟨S100000x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S100000x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S1000000x128, .f32⟩
  | 99 => ⟨S_, .f32⟩
  | 100 => ⟨S30000x128, .f32⟩
  | 101 => ⟨S1000000x1, .i32⟩
  | 102 => ⟨S30000x128, .f32⟩
  | 103 => ⟨S_, .f32⟩
  | 104 => ⟨S1000000x1, .f32⟩
  | 105 => ⟨S_, .f32⟩
  | 106 => ⟨S30000x1, .f32⟩
  | 107 => ⟨S1000000x1, .i32⟩
  | 108 => ⟨S30000x1, .f32⟩
  | 109 => ⟨S_, .f32⟩
  | 110 => ⟨S30000x1, .f32⟩
  | 111 => ⟨S30000x1, .f32⟩
  | 112 => ⟨S30000x128, .f32⟩
  | 113 => ⟨S30000x128, .f32⟩
  | 114 => ⟨S30000x128, .f32⟩
  | 115 => ⟨S1x128, .f32⟩
  | 116 => ⟨S30000x128, .f32⟩
  | 117 => ⟨S30000x128, .f32⟩
  | 118 => ⟨S30000x128, .f32⟩
  | 119 => ⟨S30000x128, .f32⟩
  | 120 => ⟨S_, .f32⟩
  | 121 => ⟨S30000x128, .f32⟩
  | 122 => ⟨S30000x128, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x128, .f32⟩
  | 4 => ⟨S_, .f32⟩
  | 5 => ⟨S100000x128, .f32⟩
  | 6 => ⟨S1600000x1, .i32⟩
  | 7 => ⟨S100000x128, .f32⟩
  | 8 => ⟨S_, .f32⟩
  | 9 => ⟨S1600000x1, .f32⟩
  | 10 => ⟨S_, .f32⟩
  | 11 => ⟨S100000x1, .f32⟩
  | 12 => ⟨S1600000x1, .i32⟩
  | 13 => ⟨S100000x1, .f32⟩
  | 14 => ⟨S_, .f32⟩
  | 15 => ⟨S100000x1, .f32⟩
  | 16 => ⟨S100000x1, .f32⟩
  | 17 => ⟨S100000x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S100000x128, .f32⟩
  | 24 => ⟨S100000x128, .f32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S1000000x1, .i32⟩
  | 33 => ⟨S1000000x128, .f32⟩
  | 34 => ⟨S_, .f32⟩
  | 35 => ⟨S100000x128, .f32⟩
  | 36 => ⟨S1000000x1, .i32⟩
  | 37 => ⟨S100000x128, .f32⟩
  | 38 => ⟨S_, .f32⟩
  | 39 => ⟨S1000000x1, .f32⟩
  | 40 => ⟨S_, .f32⟩
  | 41 => ⟨S100000x1, .f32⟩
  | 42 => ⟨S1000000x1, .i32⟩
  | 43 => ⟨S100000x1, .f32⟩
  | 44 => ⟨S_, .f32⟩
  | 45 => ⟨S100000x1, .f32⟩
  | 46 => ⟨S100000x1, .f32⟩
  | 47 => ⟨S100000x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S100000x128, .f32⟩
  | 54 => ⟨S100000x128, .f32⟩
  | 55 => ⟨S100000x128, .f32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1000000x128, .f32⟩
  | 65 => ⟨S_, .f32⟩
  | 66 => ⟨S30000x128, .f32⟩
  | 67 => ⟨S1000000x1, .i32⟩
  | 68 => ⟨S30000x128, .f32⟩
  | 69 => ⟨S_, .f32⟩
  | 70 => ⟨S1000000x1, .f32⟩
  | 71 => ⟨S_, .f32⟩
  | 72 => ⟨S30000x1, .f32⟩
  | 73 => ⟨S1000000x1, .i32⟩
  | 74 => ⟨S30000x1, .f32⟩
  | 75 => ⟨S_, .f32⟩
  | 76 => ⟨S30000x1, .f32⟩
  | 77 => ⟨S30000x1, .f32⟩
  | 78 => ⟨S30000x128, .f32⟩
  | 79 => ⟨S30000x128, .f32⟩
  | 80 => ⟨S30000x128, .f32⟩
  | 81 => ⟨S1x128, .f32⟩
  | 82 => ⟨S30000x128, .f32⟩
  | 83 => ⟨S30000x128, .f32⟩
  | 84 => ⟨S30000x128, .f32⟩
  | 85 => ⟨S30000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c_4 : Ref sig .tc := ⟨.hbm, 56, rfl⟩
abbrev main_v24 : Ref sig .tc := ⟨.hbm, 57, rfl⟩
abbrev main_v25 : Ref sig .tc := ⟨.hbm, 58, rfl⟩
abbrev main_c_5 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_6 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_7 : Ref sig .tc := ⟨.hbm, 69, rfl⟩
abbrev main_v34 : Ref sig .tc := ⟨.hbm, 70, rfl⟩
abbrev main_cst_8 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_9 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_call0_cst : Ref sig .tc := ⟨.hbm, 87, rfl⟩
abbrev main_call0_v0 : Ref sig .tc := ⟨.hbm, 88, rfl⟩
abbrev main_v49 : Ref sig .tc := ⟨.hbm, 89, rfl⟩
abbrev main_c_10 : Ref sig .tc := ⟨.hbm, 90, rfl⟩
abbrev main_v50 : Ref sig .tc := ⟨.hbm, 91, rfl⟩
abbrev main_v51 : Ref sig .tc := ⟨.hbm, 92, rfl⟩
abbrev main_c_11 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_12 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_13 : Ref sig .tc := ⟨.hbm, 103, rfl⟩
abbrev main_v60 : Ref sig .tc := ⟨.hbm, 104, rfl⟩
abbrev main_cst_14 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_15 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_call1_cst : Ref sig .tc := ⟨.hbm, 120, rfl⟩
abbrev main_call1_v0 : Ref sig .tc := ⟨.hbm, 121, rfl⟩
abbrev main_v74 : Ref sig .tc := ⟨.hbm, 122, rfl⟩
abbrev main_c_16 : Ref sig .tc := ⟨.hbm, 123, rfl⟩
abbrev main_v75 : Ref sig .tc := ⟨.hbm, 124, rfl⟩
abbrev main_v76 : Ref sig .tc := ⟨.hbm, 125, rfl⟩
abbrev main_c_17 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_18 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_cst_19 : Ref sig .tc := ⟨.hbm, 136, rfl⟩
abbrev main_v85 : Ref sig .tc := ⟨.hbm, 137, rfl⟩
abbrev main_cst_20 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_cst_21 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_c_22 : Ref sig .tc := ⟨.hbm, 153, rfl⟩
abbrev main_v99 : Ref sig .tc := ⟨.hbm, 154, rfl⟩
abbrev main_v100 : Ref sig .tc := ⟨.hbm, 155, rfl⟩
abbrev main_c_23 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_cst_24 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_cst_25 : Ref sig .tc := ⟨.hbm, 166, rfl⟩
abbrev main_v109 : Ref sig .tc := ⟨.hbm, 167, rfl⟩
abbrev main_cst_26 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_cst_27 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_c_28 : Ref sig .tc := ⟨.hbm, 184, rfl⟩
abbrev main_v124 : Ref sig .tc := ⟨.hbm, 185, rfl⟩
abbrev main_v125 : Ref sig .tc := ⟨.hbm, 186, rfl⟩
abbrev main_c_29 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_cst_30 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_cst_31 : Ref sig .tc := ⟨.hbm, 197, rfl⟩
abbrev main_v134 : Ref sig .tc := ⟨.hbm, 198, rfl⟩
abbrev main_cst_32 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_cst_33 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S_S30000x128 : S_.BroadcastsInDim S30000x128 (![] : Fin 0 → Fin S30000x128.rank)
  bcast_S_S30000x1 : S_.BroadcastsInDim S30000x1 (![] : Fin 0 → Fin S30000x1.rank)
  bcast_S30000x1_S30000x128_0_1 : S30000x1.BroadcastsInDim S30000x128 (![0, 1] : Fin 2 → Fin S30000x128.rank)
  bcast_S1x128_S30000x128_0_1 : S1x128.BroadcastsInDim S30000x128 (![0, 1] : Fin 2 → Fin S30000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  gather_S30000x128_S1000000x1_S1000000x128_1_0_n_n_0_1_1128_wf : GatherDims.WF S30000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000x1_S1000000x1_S1000000x1_1_0_0_1_wf : ScatterDims.WF S100000x1 S1000000x1 S1000000x1 [1] [0] [0] 1
  gather_S100000x128_S1000000x1_S1000000x128_1_0_n_n_0_1_1128_wf : GatherDims.WF S100000x128 S1000000x1 S1000000x128 [1] [0] [] [0] [] 1 ![1, 128]
  scatter_S30000x128_S1000000x1_S1000000x128_1_0_0_1_wf : ScatterDims.WF S30000x128 S1000000x1 S1000000x128 [1] [0] [0] 1
  scatter_S30000x1_S1000000x1_S1000000x1_1_0_0_1_wf : ScatterDims.WF S30000x1 S1000000x1 S1000000x1 [1] [0] [0] 1
  dot_S30000x128_S128x128_S30000x128_1_0_0_1_n_n_wf : DotDims.WF S30000x128 S128x128 S30000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S30000x128_S1000000x1_S1000000x128_1_0_n_n_0_1_1128 : GatherDims S30000x128 S1000000x1 S1000000x128 where
  offsetDims := [1]
  collapsedSliceDims := [0]
  operandBatchingDims := []
  startIndicesBatchingDims := []
  startIndexMap := [0]
  indexVectorDim := 1
  sliceSizes := ![1, 128]
  wf := gather_S30000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S30000x128_S1000000x1_S1000000x128_1_0_0_1 : ScatterDims S30000x128 S1000000x1 S1000000x128 where
  updateWindowDims := [1]
  insertedWindowDims := [0]
  scatterDimsToOperandDims := [0]
  indexVectorDim := 1
  wf := scatter_S30000x128_S1000000x1_S1000000x128_1_0_0_1_wf
def scatter_S30000x1_S1000000x1_S1000000x1_1_0_0_1 : ScatterDims S30000x1 S1000000x1 S1000000x1 where
  updateWindowDims := [1]
  insertedWindowDims := [0]
  scatterDimsToOperandDims := [0]
  indexVectorDim := 1
  wf := scatter_S30000x1_S1000000x1_S1000000x1_1_0_0_1_wf
def dot_S30000x128_S128x128_S30000x128_1_0_0_1_n_n : DotDims S30000x128 S128x128 S30000x128 where
  lhsContracting := [1]
  rhsContracting := [0]
  lhsNonContracting := [0]
  rhsNonContracting := [1]
  lhsBatch := []
  rhsBatch := []
  wf := dot_S30000x128_S128x128_S30000x128_1_0_0_1_n_n_wf

class Facts : Prop extends Facts₀ where

variable [Facts]
-- ==== Proof.KDefs.lean ====
/-
  Names for the kernel program's host-side neighbour aggregation, one relation at a time, as the program composes it:
  the wrapped source index (a negative index counts from the end), the row lookup that yields a not-a-number row
  when the wrapped index falls outside the table, the sum of the looked-up rows over the edges that share a
  destination, the reciprocal of the destination's edge count (a count below one taken as one), and their product.
-/
import proofs.«402871_j61864708931626_1_alg».proof.KernelIdeal
import proofs.«402871_j61864708931626_1_alg».proof.Proof.Gen.KernelIdeal

noncomputable section

namespace Cert.KernelIdeal.KV

open Idealize.ShloMosaic Cert.KernelIdeal Cert.KernelIdeal.Gen

variable {F : FTy → Type} [FloatOps F]

/-! ## Relation gg: a [100000 × 128] table, 1600000 edges, into 100000 destination rows -/

/-- The edges' source indices as a column, a negative index wrapped by the table's height. -/
def idx_gg (src : IVec S1600000 32) : IVec S1600000x1 32 :=
  broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)

/-- The row lookup: row `idx` of the table where the wrapped index lies in the table, the not-a-number word elsewhere. -/
def take_gg (x : FVec F S100000x128 .f32) (src : IVec S1600000 32) : FVec F S1600000x128 .f32 :=
  select (broadcastInDim S1600000x128 ![0] bcast_S1600000_S1600000x128_0
      (Host.reduce IntOp.andi (andi (cmpi .sge (idx_gg src) (broadcastInDim S1600000x1 ![] bcast_S_S1600000x1 (constantI S_ 32 0#32)))
          (cmpi .sle (idx_gg src) (broadcastInDim S1600000x1 ![0, 1] bcast_S1x1_S1600000x1_0_1 (broadcastInDim S1x1 ![1] bcast_S1_S1x1_1 (constantI S1 32 99999#32)))))
        (constantI S_ 1 1#1) reducesTo_S1600000x1_S1600000_d1 h_S_))
    (Host.gather gather_S100000x128_S1600000x1_S1600000x128_1_0_n_n_0_1_1128 x (idx_gg src))
    (broadcastInDim S1600000x128 ![] bcast_S_S1600000x128 (constant S_ .f32 0x7FC00000#32))

/-- The reciprocal of each destination's edge count, a count below one taken as one. -/
def cinv_gg (dst : IVec S1600000 32) : FVec F S100000x1 .f32 :=
  Host.divf (broadcastInDim S100000x1 ![] bcast_S_S100000x1 (constant S_ .f32 0x3F800000#32)) (maximumf (Host.scatterAdd scatter_S100000x1_S1600000x1_S1600000x1_1_0_0_1 (broadcastInDim S100000x1 ![] bcast_S_S100000x1 (constant S_ .f32 0x00000000#32)) (broadcastInDim S1600000x1 ![0] bcast_S1600000_S1600000x1_0 dst) (broadcastInDim S1600000x1 ![] bcast_S_S1600000x1 (constant S_ .f32 0x3F800000#32))) (broadcastInDim S100000x1 ![] bcast_S_S100000x1 (constant S_ .f32 0x3F800000#32)))

/-- The neighbour mean as the kernel program forms it: the sum of looked-up rows times the reciprocal count. -/
def mean_gg (x : FVec F S100000x128 .f32) (src dst : IVec S1600000 32) : FVec F S100000x128 .f32 :=
  mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (take_gg x src))
    (broadcastInDim S100000x128 ![0, 1] bcast_S100000x1_S100000x128_0_1 (cinv_gg dst))

/-! ## Relation dg: a [30000 × 128] table, 1000000 edges, into 100000 destination rows -/

/-- The edges' source indices as a column, a negative index wrapped by the table's height. -/
def idx_dg (src : IVec S1000000 32) : IVec S1000000x1 32 :=
  broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 30000#32))) src)

/-- The row lookup: row `idx` of the table where the wrapped index lies in the table, the not-a-number word elsewhere. -/
def take_dg (x : FVec F S30000x128 .f32) (src : IVec S1000000 32) : FVec F S1000000x128 .f32 :=
  select (broadcastInDim S1000000x128 ![0] bcast_S1000000_S1000000x128_0
      (Host.reduce IntOp.andi (andi (cmpi .sge (idx_dg src) (broadcastInDim S1000000x1 ![] bcast_S_S1000000x1 (constantI S_ 32 0#32)))
          (cmpi .sle (idx_dg src) (broadcastInDim S1000000x1 ![0, 1] bcast_S1x1_S1000000x1_0_1 (broadcastInDim S1x1 ![1] bcast_S1_S1x1_1 (constantI S1 32 29999#32)))))
        (constantI S_ 1 1#1) reducesTo_S1000000x1_S1000000_d1 h_S_))
    (Host.gather gather_S30000x128_S1000000x1_S1000000x128_1_0_n_n_0_1_1128 x (idx_dg src))
    (broadcastInDim S1000000x128 ![] bcast_S_S1000000x128 (constant S_ .f32 0x7FC00000#32))

/-- The reciprocal of each destination's edge count, a count below one taken as one. -/
def cinv_dg (dst : IVec S1000000 32) : FVec F S100000x1 .f32 :=
  Host.divf (broadcastInDim S100000x1 ![] bcast_S_S100000x1 (constant S_ .f32 0x3F800000#32)) (maximumf (Host.scatterAdd scatter_S100000x1_S1000000x1_S1000000x1_1_0_0_1 (broadcastInDim S100000x1 ![] bcast_S_S100000x1 (constant S_ .f32 0x00000000#32)) (broadcastInDim S1000000x1 ![0] bcast_S1000000_S1000000x1_0 dst) (broadcastInDim S1000000x1 ![] bcast_S_S1000000x1 (constant S_ .f32 0x3F800000#32))) (broadcastInDim S100000x1 ![] bcast_S_S100000x1 (constant S_ .f32 0x3F800000#32)))

/-- The neighbour mean as the kernel program forms it: the sum of looked-up rows times the reciprocal count. -/
def mean_dg (x : FVec F S30000x128 .f32) (src dst : IVec S1000000 32) : FVec F S100000x128 .f32 :=
  mulf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 dst) (take_dg x src))
    (broadcastInDim S100000x128 ![0, 1] bcast_S100000x1_S100000x128_0_1 (cinv_dg dst))

/-! ## Relation gd: a [100000 × 128] table, 1000000 edges, into 30000 destination rows -/

/-- The edges' source indices as a column, a negative index wrapped by the table's height. -/
def idx_gd (src : IVec S1000000 32) : IVec S1000000x1 32 :=
  broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 100000#32))) src)

/-- The row lookup: row `idx` of the table where the wrapped index lies in the table, the not-a-number word elsewhere. -/
def take_gd (x : FVec F S100000x128 .f32) (src : IVec S1000000 32) : FVec F S1000000x128 .f32 :=
  select (broadcastInDim S1000000x128 ![0] bcast_S1000000_S1000000x128_0
      (Host.reduce IntOp.andi (andi (cmpi .sge (idx_gd src) (broadcastInDim S1000000x1 ![] bcast_S_S1000000x1 (constantI S_ 32 0#32)))
          (cmpi .sle (idx_gd src) (broadcastInDim S1000000x1 ![0, 1] bcast_S1x1_S1000000x1_0_1 (broadcastInDim S1x1 ![1] bcast_S1_S1x1_1 (constantI S1 32 99999#32)))))
        (constantI S_ 1 1#1) reducesTo_S1000000x1_S1000000_d1 h_S_))
    (Host.gather gather_S100000x128_S1000000x1_S1000000x128_1_0_n_n_0_1_1128 x (idx_gd src))
    (broadcastInDim S1000000x128 ![] bcast_S_S1000000x128 (constant S_ .f32 0x7FC00000#32))

/-- The reciprocal of each destination's edge count, a count below one taken as one. -/
def cinv_gd (dst : IVec S1000000 32) : FVec F S30000x1 .f32 :=
  Host.divf (broadcastInDim S30000x1 ![] bcast_S_S30000x1 (constant S_ .f32 0x3F800000#32)) (maximumf (Host.scatterAdd scatter_S30000x1_S1000000x1_S1000000x1_1_0_0_1 (broadcastInDim S30000x1 ![] bcast_S_S30000x1 (constant S_ .f32 0x00000000#32)) (broadcastInDim S1000000x1 ![0] bcast_S1000000_S1000000x1_0 dst) (broadcastInDim S1000000x1 ![] bcast_S_S1000000x1 (constant S_ .f32 0x3F800000#32))) (broadcastInDim S30000x1 ![] bcast_S_S30000x1 (constant S_ .f32 0x3F800000#32)))

/-- The neighbour mean as the kernel program forms it: the sum of looked-up rows times the reciprocal count. -/
def mean_gd (x : FVec F S100000x128 .f32) (src dst : IVec S1000000 32) : FVec F S30000x128 .f32 :=
  mulf (Host.scatterAdd scatter_S30000x128_S1000000x1_S1000000x128_1_0_0_1 (broadcastInDim S30000x128 ![] bcast_S_S30000x128 (constant S_ .f32 0x00000000#32)) (broadcastInDim S1000000x1 ![0] bcast_S1000000_S1000000x1_0 dst) (take_gd x src))
    (broadcastInDim S30000x128 ![0, 1] bcast_S30000x1_S30000x128_0_1 (cinv_gd dst))

end Cert.KernelIdeal.KV

end
-- ==== Proof.Spec.lean ====
/-
  Two layers of mean-aggregating graph convolution over two node types, as functions of arrays of extended reals.
  One dense step at an element (p, q) of an [N × 128] result: a row of neighbour means times a weight column, summed
  over the 128 features, for each relation that reaches the node type; the node's own row times the root weight's
  column; and the bias at column q. What is fixed here: the row-times-column sum, the two shapes of a dense step
  (two relations, one relation), the clamp at zero, and what it means for an entry to be a real number.
-/
import Idealize.ShloMosaic.PureOps.Ideal
import Idealize.ShloMosaic.Lib.ValueIdx

open scoped BigOperators

noncomputable section

namespace Cert.Sage

open Idealize.ShloMosaic Idealize.ShloMosaic.ValueIdx

/-- An extended real that is a real number: neither infinity. -/
def IsFin (x : EReal) : Prop := ∃ r : ℝ, x = (r : EReal)

/-- Every entry of an array is a real number. -/
def AllFin {s : Shape} (x : s.Idx → EReal) : Prop := ∀ i, IsFin (x i)

/-- An [N × 128] array, a [128 × 128] weight, a [1 × 128] bias row and a [128] bias, of extended reals. -/
abbrev Rows (N : ℕ) := (⟨2, ![N, 128]⟩ : Shape).Idx → EReal
abbrev Wt := (⟨2, ![128, 128]⟩ : Shape).Idx → EReal
abbrev BiasRow := (⟨2, ![1, 128]⟩ : Shape).Idx → EReal
abbrev Bias := (⟨1, ![128]⟩ : Shape).Idx → EReal

/-- Row `p` of `x` times column `q` of `w`: the sum over the 128 features. -/
def dot {N : ℕ} (x : Rows N) (w : Wt) (p : Fin N) (q : Fin 128) : EReal :=
  ∑ k : Fin 128, x (ix2 p k) * w (ix2 k q)

/-- The dense step of a node type reached by TWO relations, at (p, q), as the fused kernel adds it up:
    ((mean₁·Wl₁ + mean₂·Wl₂) + self·Wr) + bias. -/
def comb2At {N : ℕ} (a1 a2 s : Rows N) (wl1 wl2 wr : Wt) (b : BiasRow) (p : Fin N) (q : Fin 128) : EReal :=
  ((dot a1 wl1 p q + dot a2 wl2 p q) + dot s wr p q) + b (ix2 0 q)

/-- The same as an array. -/
def comb2 {N : ℕ} (a1 a2 s : Rows N) (wl1 wl2 wr : Wt) (b : BiasRow) : Rows N :=
  fun i => comb2At a1 a2 s wl1 wl2 wr b (i 0) (i 1)

/-- The dense step of a node type reached by ONE relation, at (p, q): (mean·Wl + self·Wr) + bias. -/
def comb1At {N : ℕ} (a s : Rows N) (wl wr : Wt) (b : BiasRow) (p : Fin N) (q : Fin 128) : EReal :=
  (dot a wl p q + dot s wr p q) + b (ix2 0 q)

/-- The same as an array. -/
def comb1 {N : ℕ} (a s : Rows N) (wl wr : Wt) (b : BiasRow) : Rows N :=
  fun i => comb1At a s wl wr b (i 0) (i 1)

/-- One relation's term as the reference adds it up, at (p, q): (mean·Wl + bias) + self·Wr. -/
def sageAt {N : ℕ} (a s : Rows N) (wl : Wt) (bl : Bias) (wr : Wt) (p : Fin N) (q : Fin 128) : EReal :=
  (dot a wl p q + bl (ix1 q)) + dot s wr p q

/-- The clamp at zero, entry by entry. -/
def relu {s : Shape} (x : s.Idx → EReal) : s.Idx → EReal := fun i => max (x i) 0

end Cert.Sage

end
-- ==== Proof.KSpec.lean ====
/-
  The kernel program's two layers as compositions of its named pieces: each dense step is the fused row-times-column
  step of the region that computes it, applied to the kernel's own neighbour means; the root weights and biases of the
  first node type's two relations enter already added up.
-/
import proofs.«402871_j61864708931626_1_alg».proof.Proof.KDefs
import proofs.«402871_j61864708931626_1_alg».proof.Proof.Spec

noncomputable section

namespace Cert.KernelIdeal.KV

open Idealize.ShloMosaic Cert.KernelIdeal Cert.KernelIdeal.Gen

/-- Hidden features of the first node type: the clamp of the fused two-relation step. -/
def hGene (a0 : FVec Ideal S100000x128 .f32) (a1 : FVec Ideal S30000x128 .f32) (a2 a3 : IVec S1600000 32) (a6 a7 : IVec S1000000 32)
    (a8 a14 wr : FVec Ideal S128x128 .f32) (b : FVec Ideal S1x128 .f32) : FVec Ideal S100000x128 .f32 :=
  Cert.Sage.relu (Cert.Sage.comb2 (mean_gg (F := Ideal) a0 a2 a3) (mean_dg (F := Ideal) a1 a6 a7) a0 a8 a14 wr b)

/-- Hidden features of the second node type: the clamp of the fused one-relation step. -/
def hDis (a0 : FVec Ideal S100000x128 .f32) (a1 : FVec Ideal S30000x128 .f32) (a4 a5 : IVec S1000000 32)
    (a11 a13 : FVec Ideal S128x128 .f32) (b : FVec Ideal S1x128 .f32) : FVec Ideal S30000x128 .f32 :=
  Cert.Sage.relu (Cert.Sage.comb1 (mean_gd (F := Ideal) a0 a4 a5) a1 a11 a13 b)

/-- Output of the first node type from the hidden features. -/
def oGene (H : FVec Ideal S100000x128 .f32) (Hd : FVec Ideal S30000x128 .f32) (a2 a3 : IVec S1600000 32) (a6 a7 : IVec S1000000 32)
    (a17 a23 wr : FVec Ideal S128x128 .f32) (b : FVec Ideal S1x128 .f32) : FVec Ideal S100000x128 .f32 :=
  Cert.Sage.comb2 (mean_gg (F := Ideal) H a2 a3) (mean_dg (F := Ideal) Hd a6 a7) H a17 a23 wr b

/-- Output of the second node type. -/
def oDis (H : FVec Ideal S100000x128 .f32) (Hd : FVec Ideal S30000x128 .f32) (a4 a5 : IVec S1000000 32)
    (a20 a22 : FVec Ideal S128x128 .f32) (b : FVec Ideal S1x128 .f32) : FVec Ideal S30000x128 .f32 :=
  Cert.Sage.comb1 (mean_gd (F := Ideal) H a4 a5) Hd a20 a22 b

end Cert.KernelIdeal.KV

end
-- ==== Proof.KReg0.lean ====
/-
  The first fused dense step of the network, as the value of its whole output array.
  The step runs over 20 blocks of 5000 rows. At block t the body reads rows 5000 t … 5000 t + 4999 of the two
  arrays of neighbour means and of the array of the nodes' own features, the three whole [128 × 128] weights and
  the [1 × 128] bias row, and leaves in the same rows of the output
      max (((mean₁ · Wl₁ + mean₂ · Wl₂) + self · Wr) + bias) 0.
  Read at an element (p, q) each product is the sum over the 128 features of a row entry times a column entry.
  Every row of the output lies in exactly the block r / 5000, so the output array is that function of the whole
  input arrays: the clamp at zero of the two-relation dense step of the shared specification.
-/
import proofs.«402871_j61864708931626_1_alg».proof.Proof.Gen.KernelIdeal.Frame
import proofs.«402871_j61864708931626_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Reg0

open Idealize.ShloMosaic Idealize.ShloMosaic.TcCoe Idealize.ShloMosaic.ValueIdx
open Idealize.ShloMosaic.Pipeline (Dat)
open Cert.KernelIdeal Cert.KernelIdeal.Gen

/-! ## A product of a row block with a weight, read at an element -/

/-- The row-block operand of the product at output element `i` and feature `k`: row `i 0`. -/
theorem lhs_axis0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and column `k`. -/
theorem lhs_axis1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- The weight operand at output element `i` and feature `k`: row `k` … -/
theorem rhs_axis0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- … and column `i 1`. -/
theorem rhs_axis1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000 × 128] block times a [128 × 128] weight into a zero accumulator, at (p, q): the sum over the 128
    features of the block's row p times the weight's column q. -/
theorem prod_apply {φ₁ φ₂ : FTy} (x : FVec Ideal S5000x128 φ₁) (w : FVec Ideal S128x128 φ₂) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  show FloatOps.matmul dot_S5000x128_S128x128_S5000x128_1_0_0_1_n_n none x w (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's payload at an element -/

/-- What the body stores at (p, q) of its block, from the blocks it loaded. -/
theorem pay_apply (x0 x1 x2 : Vec Ideal S5000x128 .f32) (w0 w1 w2 : Vec Ideal S128x128 .f32) (b : Vec Ideal S1x128 .f32)
    (p : Fin 5000) (q : Fin 128) :
    k0_pay1 (F := Ideal) x0 x1 x2 w0 w1 w2 b (ix2 p q)
      = max ((((∑ k : Fin 128, x0 (ix2 p k) * w0 (ix2 k q)) + (∑ k : Fin 128, x1 (ix2 p k) * w1 (ix2 k q)))
          + (∑ k : Fin 128, x2 (ix2 p k) * w2 (ix2 k q))) + b (ix2 (0 : Fin 1) q)) 0 := by
  unfold k0_pay1
  simp only [shapeCast_self]
  rw [maximumf_apply, addf_apply, addf_apply, addf_apply, prod_apply, prod_apply, prod_apply, broadcastTo_1b_ab_apply, broadcast_apply]
  simp only [truncf_apply]
  show max _ (Ideal.ofBits .f32 0x00000000#32) = _
  rw [Ideal.ofBits_zero_f32]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The arrays the step finds at its entry, each at its literal type. -/
abbrev mean1 (c : Dev nD) : Cert.Sage.Rows 100000 := V c main_v29
abbrev mean2 (c : Dev nD) : Cert.Sage.Rows 100000 := V c main_v35
abbrev self0 (c : Dev nD) : Cert.Sage.Rows 100000 := V c main_arg0
abbrev wl1 (c : Dev nD) : Cert.Sage.Wt := V c main_arg8
abbrev wl2 (c : Dev nD) : Cert.Sage.Wt := V c main_arg14
abbrev wr (c : Dev nD) : Cert.Sage.Wt := V c main_v42
abbrev bias (c : Dev nD) : Cert.Sage.BiasRow := V c main_v44

/-- The value of the step's output array: the clamp at zero of the two-relation dense step of those arrays. -/
abbrev G (c : Dev nD) : Cert.Sage.Rows 100000 :=
  Cert.Sage.relu (Cert.Sage.comb2 (mean1 V c) (mean2 V c) (self0 V c) (wl1 V c) (wl2 V c) (wr V c) (bias V c))

/-- The block indices over the grid: the three row-block inputs and the output are at block (t, 0) at point t, the
    weights and the bias row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- WHAT POINT t WRITES BACK is block t of `G`. -/
theorem flushed_eq (c : Dev nD) (t : Fin cfg0.N) :
    (dat0 (F := Ideal) V c).flushed 7 t = ((cfg0.win 7).blk t).view.read (Elt Ideal) (G V c) := by
  show (cfg0.win 7).cut (grid0.coords t) ((dat0 (F := Ideal) V c).after 7 t) = _
  rw [after0_7]
  unfold out0_7
  rw [View.canon_unit_zero zero_offsets]
  simp only [View.ld_unit_zero (S := S5000x128) zero_offsets, View.ld_unit_zero (S := S128x128) zero_offsets, View.ld_unit_zero (S := S1x128) zero_offsets]
  obtain ⟨e00, e01, e10, e11, e20, e21, e30, e31, e40, e41, e50, e51, e60, e61, e70, e71⟩ := idx_facts t
  have hN : t.val < 20 := lt_of_lt_of_eq t.isLt (N_0 : cfg0.N = 20)
  funext j
  obtain ⟨p, q, rfl⟩ : ∃ (p : Fin 5000) (q : Fin 128), j = ix2 p q := ⟨j 0, j 1, eq_ix2 j⟩
  obtain ⟨r, hr⟩ : ∃ r : Fin 100000, r.val = t.val * 5000 + p.val := ⟨⟨t.val * 5000 + p.val, by have := p.isLt; omega⟩, rfl⟩
  show k0_pay1 (F := Ideal) (iblk0 V c 0 t) (iblk0 V c 1 t) (iblk0 V c 2 t) (iblk0 V c 3 t) (iblk0 V c 4 t) (iblk0 V c 5 t) (iblk0 V c 6 t) (ix2 p q)
    = G V c (((cfg0.win 7).blk t).view.emb (ix2 p q))
  rw [pay_apply]
  have hout : ((cfg0.win 7).blk t).view.emb (ix2 p q) = (ix2 r q : S100000x128.Idx) := by
    funext a; apply Fin.ext
    match a with
    | ⟨0, _⟩ => show win0_7.index t (0 : Fin 2) * 5000 + 1 * p.val = r.val; omega
    | ⟨1, _⟩ => show win0_7.index t (1 : Fin 2) * 128 + 1 * q.val = q.val; omega
  have h0 : ∀ k : Fin 128, (iblk0 V c 0 t : Vec Ideal S5000x128 .f32) (ix2 p k) = mean1 V c (ix2 r k) := fun k => by
    show V c main_v29 (((cfg0.win 0).blk t).view.emb (ix2 p k)) = V c main_v29 (ix2 r k)
    refine congrArg _ (funext fun a => Fin.ext ?_)
    match a with
    | ⟨0, _⟩ => show win0_0.index t (0 : Fin 2) * 5000 + 1 * p.val = r.val; omega
    | ⟨1, _⟩ => show win0_0.index t (1 : Fin 2) * 128 + 1 * k.val = k.val; omega
  have h1 : ∀ k : Fin 128, (iblk0 V c 1 t : Vec Ideal S5000x128 .f32) (ix2 p k) = mean2 V c (ix2 r k) := fun k => by
    show V c main_v35 (((cfg0.win 1).blk t).view.emb (ix2 p k)) = V c main_v35 (ix2 r k)
    refine congrArg _ (funext fun a => Fin.ext ?_)
    match a with
    | ⟨0, _⟩ => show win0_1.index t (0 : Fin 2) * 5000 + 1 * p.val = r.val; omega
    | ⟨1, _⟩ => show win0_1.index t (1 : Fin 2) * 128 + 1 * k.val = k.val; omega
  have h2 : ∀ k : Fin 128, (iblk0 V c 2 t : Vec Ideal S5000x128 .f32) (ix2 p k) = self0 V c (ix2 r k) := fun k => by
    show V c main_arg0 (((cfg0.win 2).blk t).view.emb (ix2 p k)) = V c main_arg0 (ix2 r k)
    refine congrArg _ (funext fun a => Fin.ext ?_)
    match a with
    | ⟨0, _⟩ => show win0_2.index t (0 : Fin 2) * 5000 + 1 * p.val = r.val; omega
    | ⟨1, _⟩ => show win0_2.index t (1 : Fin 2) * 128 + 1 * k.val = k.val; omega
  have h3 : ∀ k : Fin 128, (iblk0 V c 3 t : Vec Ideal S128x128 .f32) (ix2 k q) = wl1 V c (ix2 k q) := fun k => by
    show V c main_arg8 (((cfg0.win 3).blk t).view.emb (ix2 k q)) = V c main_arg8 (ix2 k q)
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  have h4 : ∀ k : Fin 128, (iblk0 V c 4 t : Vec Ideal S128x128 .f32) (ix2 k q) = wl2 V c (ix2 k q) := fun k => by
    show V c main_arg14 (((cfg0.win 4).blk t).view.emb (ix2 k q)) = V c main_arg14 (ix2 k q)
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * q.val = q.val; omega
  have h5 : ∀ k : Fin 128, (iblk0 V c 5 t : Vec Ideal S128x128 .f32) (ix2 k q) = wr V c (ix2 k q) := fun k => by
    show V c main_v42 (((cfg0.win 5).blk t).view.emb (ix2 k q)) = V c main_v42 (ix2 k q)
    refine congrArg _ (funext fun a => Fin.ext ?_)
    match a with
    | ⟨0, _⟩ => show win0_5.index t (0 : Fin 2) * 128 + 1 * k.val = k.val; omega
    | ⟨1, _⟩ => show win0_5.index t (1 : Fin 2) * 128 + 1 * q.val = q.val; omega
  have h6 : (iblk0 V c 6 t : Vec Ideal S1x128 .f32) (ix2 (0 : Fin 1) q) = bias V c (ix2 (0 : Fin 1) q) := by
    show V c main_v44 (((cfg0.win 6).blk t).view.emb (ix2 (0 : Fin 1) q)) = V c main_v44 (ix2 (0 : Fin 1) q)
    refine congrArg _ (funext fun a => Fin.ext ?_)
    match a with
    | ⟨0, _⟩ => show win0_6.index t (0 : Fin 2) * 1 + 1 * (0 : Fin 1).val = (0 : Fin 1).val; omega
    | ⟨1, _⟩ => show win0_6.index t (1 : Fin 2) * 128 + 1 * q.val = q.val; omega
  rw [hout]
  show _ = max (((Cert.Sage.dot (mean1 V c) (wl1 V c) r q + Cert.Sage.dot (mean2 V c) (wl2 V c) r q) + Cert.Sage.dot (self0 V c) (wr V c) r q) + bias V c (ix2 (0 : Fin 1) q)) 0
  unfold Cert.Sage.dot
  simp only [h0, h1, h2, h3, h4, h5, h6]

/-- An index of the output array is in point t's block iff each coordinate is in the block's range on its axis. -/
theorem mem_blk (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v45).slice (win0_7.rect t)).set ↔ _
  rw [View.set_slice_whole, Rect.mem_set_unit]
  exact Iff.rfl

/-- Row r of the output is in the block of point r / 5000, which writes back. -/
theorem covered (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨e00, e01, e10, e11, e20, e21, e30, e31, e40, e41, e50, e51, e60, e61, e70, e71⟩ := idx_facts t
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- THE OUTPUT ARRAY after the step: the clamp at zero of the two-relation dense step of the arrays at entry. -/
theorem final (c : Dev nD) : (dat0 (F := Ideal) V c).arrAt 7 cfg0.N
    = Cert.Sage.relu (Cert.Sage.comb2 (V c main_v29) (V c main_v35) (V c main_arg0) (V c main_arg8) (V c main_arg14) (V c main_v42) (V c main_v44)) :=
  (dat0 (F := Ideal) V c).arrAt_eq_of_cover 7 (G V c) (fun t _ => flushed_eq V c t) covered

end Cert.KernelIdeal.Reg0

end
-- ==== Proof.KReg1.lean ====
/-
  The value of the second dense step of layer one (the node type reached by one relation), as one function of the
  arrays the step finds: on every row block the body adds two row-times-column sums and the bias row and clamps at
  zero; the row blocks tile the 30000 rows, so the whole output is the clamped dense step of the whole inputs.
-/
import proofs.«402871_j61864708931626_1_alg».proof.Proof.Gen.KernelIdeal.Frame
import proofs.«402871_j61864708931626_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Reg1

open Cert.KernelIdeal Cert.KernelIdeal.Gen

/-- The contraction's left operand index keeps the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column is the summed feature. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the summed feature. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Its column is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of rows times a weight, into a zero accumulator, at (p, q): row p times column q. -/
theorem matmul_at (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The body's arithmetic at (p, q) of a block: the two row-times-column sums, the bias at column q, the clamp at zero. -/
theorem pay_at (x0 x1 : Vec Ideal S5000x128 .f32) (w0 w1 : Vec Ideal S128x128 .f32) (b : Vec Ideal S1x128 .f32) (p : Fin 5000) (q : Fin 128) :
    k1_pay1 (F := Ideal) x0 x1 w0 w1 b (ix2 p q)
      = max (((∑ k : Fin 128, x0 (ix2 p k) * w0 (ix2 k q)) + ∑ k : Fin 128, x1 (ix2 p k) * w1 (ix2 k q)) + b (ix2 0 q)) 0 := by
  unfold k1_pay1
  simp only [shapeCast_self]
  refine (maximumf_apply _ _ (ix2 p q)).trans ?_
  refine congrArg₂ max ?_ ?_
  · refine (addf_apply _ _ (ix2 p q)).trans ?_
    refine congrArg₂ (· + ·) ?_ ?_
    · refine (addf_apply _ _ (ix2 p q)).trans ?_
      exact congrArg₂ (· + ·) (matmul_at _ _ p q) (matmul_at _ _ p q)
    · exact broadcastTo_1b_ab_apply b broadcasts_S1x128_S5000x128 p q
  · show Ideal.ofBits .f32 0x00000000#32 = 0
    exact Ideal.ofBits_zero_f32

/-! ## From row blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The arrays the step reads: the neighbour means, the nodes' own rows, the two weights, the bias row. -/
abbrev aggr (c : Dev nD) : Cert.Sage.Rows 30000 := V c main_v41
abbrev own (c : Dev nD) : Cert.Sage.Rows 30000 := V c main_arg1
abbrev wl (c : Dev nD) : Cert.Sage.Wt := V c main_arg11
abbrev wr (c : Dev nD) : Cert.Sage.Wt := V c main_arg13
abbrev bias (c : Dev nD) : Cert.Sage.BiasRow := V c main_v46

/-- The clamped dense step of the whole arrays. -/
abbrev G (c : Dev nD) : Cert.Sage.Rows 30000 :=
  Cert.Sage.relu (Cert.Sage.comb1 (aggr V c) (own V c) (wl V c) (wr V c) (bias V c))

/-- The index maps over the grid: the row-block windows sit at block (t, 0), the weights and the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of block t of the neighbour means is row 5000 t + p of the array. -/
theorem blk_aggr (c : Dev nD) (t : Fin cfg1.N) (p : Fin 5000) (k : Fin 128) (r : Fin 30000) (hr : r.val = 5000 * t.val + p.val) :
    (iblk1 V c 0 t : Vec Ideal S5000x128 .f32) (ix2 p k) = aggr V c (ix2 r k) := by
  obtain ⟨e0, e1, -⟩ := idx_facts t
  unfold iblk1
  rw [View.read_apply]
  show V c main_v41 _ = V c main_v41 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The same for the nodes' own rows. -/
theorem blk_own (c : Dev nD) (t : Fin cfg1.N) (p : Fin 5000) (k : Fin 128) (r : Fin 30000) (hr : r.val = 5000 * t.val + p.val) :
    (iblk1 V c 1 t : Vec Ideal S5000x128 .f32) (ix2 p k) = own V c (ix2 r k) := by
  obtain ⟨-, -, e0, e1, -⟩ := idx_facts t
  unfold iblk1
  rw [View.read_apply]
  show V c main_arg1 _ = V c main_arg1 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- Each weight's one block is the weight. -/
theorem blk_wl (c : Dev nD) (t : Fin cfg1.N) (k q : Fin 128) :
    (iblk1 V c 2 t : Vec Ideal S128x128 .f32) (ix2 k q) = wl V c (ix2 k q) := by
  obtain ⟨-, -, -, -, e0, e1, -⟩ := idx_facts t
  unfold iblk1
  rw [View.read_apply]
  show V c main_arg11 _ = V c main_arg11 _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

theorem blk_wr (c : Dev nD) (t : Fin cfg1.N) (k q : Fin 128) :
    (iblk1 V c 3 t : Vec Ideal S128x128 .f32) (ix2 k q) = wr V c (ix2 k q) := by
  obtain ⟨-, -, -, -, -, -, e0, e1, -⟩ := idx_facts t
  unfold iblk1
  rw [View.read_apply]
  show V c main_arg13 _ = V c main_arg13 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The bias row's one block is the bias row. -/
theorem blk_bias (c : Dev nD) (t : Fin cfg1.N) (q : Fin 128) :
    (iblk1 V c 4 t : Vec Ideal S1x128 .f32) (ix2 0 q) = bias V c (ix2 0 q) := by
  obtain ⟨-, -, -, -, -, -, -, -, e0, e1, -⟩ := idx_facts t
  unfold iblk1
  rw [View.read_apply]
  show V c main_v46 _ = V c main_v46 _
  congr 1
  funext a
  apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

/-- What grid point t writes back is block t of the clamped dense step of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts t
  have hN : cfg1.N = 6 := N_1
  funext j
  obtain ⟨p, q, rfl⟩ : ∃ (p : Fin 5000) (q : Fin 128), j = ix2 p q := ⟨j 0, j 1, eq_ix2 j⟩
  have hr : 5000 * t.val + p.val < 30000 := by have := t.isLt; have := p.isLt; omega
  have he : ((cfg1.win 5).blk t).view.emb (ix2 p q) = ix2 (⟨5000 * t.val + p.val, hr⟩ : Fin 30000) q := by
    funext a
    apply Fin.ext
    match a with
    | ⟨0, _⟩ => show win1_5.index t (0 : Fin 2) * 5000 + 1 * p.val = 5000 * t.val + p.val; rw [e0]; omega
    | ⟨1, _⟩ => show win1_5.index t (1 : Fin 2) * 128 + 1 * q.val = q.val; rw [e1]; omega
  refine (pay_at _ _ _ _ _ p q).trans ?_
  rw [View.read_apply]
  show _ = G V c (((cfg1.win 5).blk t).view.emb (ix2 p q))
  rw [he]
  show _ = max (((∑ k : Fin 128, aggr V c (ix2 ⟨5000 * t.val + p.val, hr⟩ k) * wl V c (ix2 k q))
      + ∑ k : Fin 128, own V c (ix2 ⟨5000 * t.val + p.val, hr⟩ k) * wr V c (ix2 k q)) + bias V c (ix2 0 q)) 0
  rw [blk_bias V c t q]
  refine congrArg (fun z => max z 0) (congrArg (· + bias V c (ix2 0 q)) (congrArg₂ (· + ·) (Finset.sum_congr rfl fun k _ => ?_) (Finset.sum_congr rfl fun k _ => ?_)))
  · rw [blk_aggr V c t p k ⟨5000 * t.val + p.val, hr⟩ rfl, blk_wl V c t k q]
  · rw [blk_own V c t p k ⟨5000 * t.val + p.val, hr⟩ rfl, blk_wr V c t k q]

/-- An index of the output array is in point t's block iff each coordinate is in the block's range. -/
theorem mem_blk (t : Fin cfg1.N) (i : S30000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v47).slice (win1_5.rect t)).set ↔ _
  rw [View.set_slice_whole, Rect.mem_set_unit]
  exact Iff.rfl

/-- Row r of the output is written back by grid point r / 5000. -/
theorem covered (i : S30000x128.Idx) :
    ∃ t : Fin cfg1.N, (cfg1.win 5).flush t = true ∧ i ∈ ((cfg1.win 5).blk t).view.set := by
  have hi0 : (i 0).val < 30000 := (i 0).isLt
  have hi1 : (i 1).val < 128 := (i 1).isLt
  have hN : cfg1.N = 6 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 128 ≤ (i 1).val ∧ (i 1).val < win1_5.index t (1 : Fin 2) * 128 + 128; rw [e1]; omega

/-- The output array after the region: the clamped dense step of the arrays the region found. -/
theorem final (c : Dev nD) : (Gen.dat1 (F := Ideal) V c).arrAt 5 cfg1.N
    = Cert.Sage.relu (Cert.Sage.comb1 (V c main_v41) (V c main_arg1) (V c main_arg11) (V c main_arg13) (V c main_v46)) :=
  (dat1 V c).arrAt_eq_of_cover 5 (G V c) (fun t _ => flushed_eq V c t) (covered)

end Cert.KernelIdeal.Reg1

end
-- ==== Proof.KReg2.lean ====
/-
  The second layer's fused dense step of the doubly reached node type, as the value of its whole output array.
  The step runs over 20 blocks of 5000 rows. At block t the body reads rows 5000 t … 5000 t + 4999 of the two
  arrays of neighbour means and of the array of the nodes' own hidden features, the three whole [128 × 128] weights
  and the [1 × 128] bias row, and leaves in the same rows of the output
      ((mean₁ · Wl₁ + mean₂ · Wl₂) + self · Wr) + bias      (the last layer: no clamp).
  Read at an element (p, q) each product is the sum over the 128 features of a row entry times a column entry.
  Every row of the output lies in exactly the block r / 5000, so the output array is that function of the whole
  input arrays: the two-relation dense step of the shared specification.
-/
import proofs.«402871_j61864708931626_1_alg».proof.Proof.Gen.KernelIdeal.Frame
import proofs.«402871_j61864708931626_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Reg2

open Idealize.ShloMosaic Idealize.ShloMosaic.TcCoe Idealize.ShloMosaic.ValueIdx
open Idealize.ShloMosaic.Pipeline (Dat)
open Cert.KernelIdeal Cert.KernelIdeal.Gen

/-! ## A product of a row block with a weight, read at an element -/

/-- The row-block operand of the product at output element `i` and feature `k`: row `i 0`. -/
theorem lhs_axis0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and column `k`. -/
theorem lhs_axis1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- The weight operand at output element `i` and feature `k`: row `k` … -/
theorem rhs_axis0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- … and column `i 1`. -/
theorem rhs_axis1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000 × 128] block times a [128 × 128] weight into a zero accumulator, at (p, q): the sum over the 128
    features of the block's row p times the weight's column q. -/
theorem prod_apply {φ₁ φ₂ : FTy} (x : FVec Ideal S5000x128 φ₁) (w : FVec Ideal S128x128 φ₂) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  show FloatOps.matmul dot_S5000x128_S128x128_S5000x128_1_0_0_1_n_n none x w (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's payload at an element -/

/-- What the body stores at (p, q) of its block, from the blocks it loaded. -/
theorem pay_apply (x0 x1 x2 : Vec Ideal S5000x128 .f32) (w0 w1 w2 : Vec Ideal S128x128 .f32) (b : Vec Ideal S1x128 .f32)
    (p : Fin 5000) (q : Fin 128) :
    k2_pay1 (F := Ideal) x0 x1 x2 w0 w1 w2 b (ix2 p q)
      = (((∑ k : Fin 128, x0 (ix2 p k) * w0 (ix2 k q)) + (∑ k : Fin 128, x1 (ix2 p k) * w1 (ix2 k q)))
          + (∑ k : Fin 128, x2 (ix2 p k) * w2 (ix2 k q))) + b (ix2 (0 : Fin 1) q) := by
  unfold k2_pay1
  simp only [shapeCast_self]
  rw [addf_apply, addf_apply, addf_apply, prod_apply, prod_apply, prod_apply, broadcastTo_1b_ab_apply]
  simp only [truncf_apply]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The arrays the step finds at its entry, each at its literal type. -/
abbrev mean1 (c : Dev nD) : Cert.Sage.Rows 100000 := V c main_v53
abbrev mean2 (c : Dev nD) : Cert.Sage.Rows 100000 := V c main_v59
abbrev self0 (c : Dev nD) : Cert.Sage.Rows 100000 := V c main_v45
abbrev wl1 (c : Dev nD) : Cert.Sage.Wt := V c main_arg17
abbrev wl2 (c : Dev nD) : Cert.Sage.Wt := V c main_arg23
abbrev wr (c : Dev nD) : Cert.Sage.Wt := V c main_v66
abbrev bias (c : Dev nD) : Cert.Sage.BiasRow := V c main_v68

/-- The value of the step's output array: the two-relation dense step of those arrays. -/
abbrev G (c : Dev nD) : Cert.Sage.Rows 100000 :=
  Cert.Sage.comb2 (mean1 V c) (mean2 V c) (self0 V c) (wl1 V c) (wl2 V c) (wr V c) (bias V c)

/-- The block indices over the grid: the three row-block inputs and the output are at block (t, 0) at point t, the
    weights and the bias row at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- WHAT POINT t WRITES BACK is block t of `G`. -/
theorem flushed_eq (c : Dev nD) (t : Fin cfg2.N) :
    (dat2 (F := Ideal) V c).flushed 7 t = ((cfg2.win 7).blk t).view.read (Elt Ideal) (G V c) := by
  show (cfg2.win 7).cut (grid2.coords t) ((dat2 (F := Ideal) V c).after 7 t) = _
  rw [after2_7]
  unfold out2_7
  rw [View.canon_unit_zero zero_offsets]
  simp only [View.ld_unit_zero (S := S5000x128) zero_offsets, View.ld_unit_zero (S := S128x128) zero_offsets, View.ld_unit_zero (S := S1x128) zero_offsets]
  obtain ⟨e00, e01, e10, e11, e20, e21, e30, e31, e40, e41, e50, e51, e60, e61, e70, e71⟩ := idx_facts t
  have hN : t.val < 20 := lt_of_lt_of_eq t.isLt (N_2 : cfg2.N = 20)
  funext j
  obtain ⟨p, q, rfl⟩ : ∃ (p : Fin 5000) (q : Fin 128), j = ix2 p q := ⟨j 0, j 1, eq_ix2 j⟩
  obtain ⟨r, hr⟩ : ∃ r : Fin 100000, r.val = t.val * 5000 + p.val := ⟨⟨t.val * 5000 + p.val, by have := p.isLt; omega⟩, rfl⟩
  show k2_pay1 (F := Ideal) (iblk2 V c 0 t) (iblk2 V c 1 t) (iblk2 V c 2 t) (iblk2 V c 3 t) (iblk2 V c 4 t) (iblk2 V c 5 t) (iblk2 V c 6 t) (ix2 p q)
    = G V c (((cfg2.win 7).blk t).view.emb (ix2 p q))
  rw [pay_apply]
  have hout : ((cfg2.win 7).blk t).view.emb (ix2 p q) = (ix2 r q : S100000x128.Idx) := by
    funext a; apply Fin.ext
    match a with
    | ⟨0, _⟩ => show win2_7.index t (0 : Fin 2) * 5000 + 1 * p.val = r.val; omega
    | ⟨1, _⟩ => show win2_7.index t (1 : Fin 2) * 128 + 1 * q.val = q.val; omega
  have h0 : ∀ k : Fin 128, (iblk2 V c 0 t : Vec Ideal S5000x128 .f32) (ix2 p k) = mean1 V c (ix2 r k) := fun k => by
    show V c main_v53 (((cfg2.win 0).blk t).view.emb (ix2 p k)) = V c main_v53 (ix2 r k)
    refine congrArg _ (funext fun a => Fin.ext ?_)
    match a with
    | ⟨0, _⟩ => show win2_0.index t (0 : Fin 2) * 5000 + 1 * p.val = r.val; omega
    | ⟨1, _⟩ => show win2_0.index t (1 : Fin 2) * 128 + 1 * k.val = k.val; omega
  have h1 : ∀ k : Fin 128, (iblk2 V c 1 t : Vec Ideal S5000x128 .f32) (ix2 p k) = mean2 V c (ix2 r k) := fun k => by
    show V c main_v59 (((cfg2.win 1).blk t).view.emb (ix2 p k)) = V c main_v59 (ix2 r k)
    refine congrArg _ (funext fun a => Fin.ext ?_)
    match a with
    | ⟨0, _⟩ => show win2_1.index t (0 : Fin 2) * 5000 + 1 * p.val = r.val; omega
    | ⟨1, _⟩ => show win2_1.index t (1 : Fin 2) * 128 + 1 * k.val = k.val; omega
  have h2 : ∀ k : Fin 128, (iblk2 V c 2 t : Vec Ideal S5000x128 .f32) (ix2 p k) = self0 V c (ix2 r k) := fun k => by
    show V c main_v45 (((cfg2.win 2).blk t).view.emb (ix2 p k)) = V c main_v45 (ix2 r k)
    refine congrArg _ (funext fun a => Fin.ext ?_)
    match a with
    | ⟨0, _⟩ => show win2_2.index t (0 : Fin 2) * 5000 + 1 * p.val = r.val; omega
    | ⟨1, _⟩ => show win2_2.index t (1 : Fin 2) * 128 + 1 * k.val = k.val; omega
  have h3 : ∀ k : Fin 128, (iblk2 V c 3 t : Vec Ideal S128x128 .f32) (ix2 k q) = wl1 V c (ix2 k q) := fun k => by
    show V c main_arg17 (((cfg2.win 3).blk t).view.emb (ix2 k q)) = V c main_arg17 (ix2 k q)
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * q.val = q.val; omega
  have h4 : ∀ k : Fin 128, (iblk2 V c 4 t : Vec Ideal S128x128 .f32) (ix2 k q) = wl2 V c (ix2 k q) := fun k => by
    show V c main_arg23 (((cfg2.win 4).blk t).view.emb (ix2 k q)) = V c main_arg23 (ix2 k q)
    refine congrArg _ (funext fun a => Fin.ext ?_)
    match a with
    | ⟨0, _⟩ => show win2_4.index t (0 : Fin 2) * 128 + 1 * k.val = k.val; omega
    | ⟨1, _⟩ => show win2_4.index t (1 : Fin 2) * 128 + 1 * q.val = q.val; omega
  have h5 : ∀ k : Fin 128, (iblk2 V c 5 t : Vec Ideal S128x128 .f32) (ix2 k q) = wr V c (ix2 k q) := fun k => by
    show V c main_v66 (((cfg2.win 5).blk t).view.emb (ix2 k q)) = V c main_v66 (ix2 k q)
    refine congrArg _ (funext fun a => Fin.ext ?_)
    match a with
    | ⟨0, _⟩ => show win2_5.index t (0 : Fin 2) * 128 + 1 * k.val = k.val; omega
    | ⟨1, _⟩ => show win2_5.index t (1 : Fin 2) * 128 + 1 * q.val = q.val; omega
  have h6 : (iblk2 V c 6 t : Vec Ideal S1x128 .f32) (ix2 (0 : Fin 1) q) = bias V c (ix2 (0 : Fin 1) q) := by
    show V c main_v68 (((cfg2.win 6).blk t).view.emb (ix2 (0 : Fin 1) q)) = V c main_v68 (ix2 (0 : Fin 1) q)
    refine congrArg _ (funext fun a => Fin.ext ?_)
    match a with
    | ⟨0, _⟩ => show win2_6.index t (0 : Fin 2) * 1 + 1 * (0 : Fin 1).val = (0 : Fin 1).val; omega
    | ⟨1, _⟩ => show win2_6.index t (1 : Fin 2) * 128 + 1 * q.val = q.val; omega
  rw [hout]
  show _ = ((Cert.Sage.dot (mean1 V c) (wl1 V c) r q + Cert.Sage.dot (mean2 V c) (wl2 V c) r q) + Cert.Sage.dot (self0 V c) (wr V c) r q) + bias V c (ix2 (0 : Fin 1) q)
  unfold Cert.Sage.dot
  simp only [h0, h1, h2, h3, h4, h5, h6]

/-- An index of the output array is in point t's block iff each coordinate is in the block's range on its axis. -/
theorem mem_blk (t : Fin cfg2.N) (i : S100000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v69).slice (win2_7.rect t)).set ↔ _
  rw [View.set_slice_whole, Rect.mem_set_unit]
  exact Iff.rfl

/-- Row r of the output is in the block of point r / 5000, which writes back. -/
theorem covered (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by rw [show cfg2.N = 20 from N_2]; omega⟩, rfl⟩
  obtain ⟨e00, e01, e10, e11, e20, e21, e30, e31, e40, e41, e50, e51, e60, e61, e70, e71⟩ := idx_facts t
  refine ⟨t, flush2_7 t, ?_⟩
  rw [mem_blk]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega

/-- THE OUTPUT ARRAY after the step: the two-relation dense step of the arrays at entry. -/
theorem final (c : Dev nD) : (dat2 (F := Ideal) V c).arrAt 7 cfg2.N
    = Cert.Sage.comb2 (V c main_v53) (V c main_v59) (V c main_v45) (V c main_arg17) (V c main_arg23) (V c main_v66) (V c main_v68) :=
  (dat2 (F := Ideal) V c).arrAt_eq_of_cover 7 (G V c) (fun t _ => flushed_eq V c t) covered

end Cert.KernelIdeal.Reg2

end
-- ==== Proof.KReg3.lean ====
/-
  The value of the second dense step of layer two (the node type reached by one relation), as one function of the
  arrays the step finds: on every row block the body adds two row-times-column sums and the bias row, with no clamp;
  the row blocks tile the 30000 rows, so the whole output is the dense step of the whole inputs.
-/
import proofs.«402871_j61864708931626_1_alg».proof.Proof.Gen.KernelIdeal.Frame
import proofs.«402871_j61864708931626_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Reg3

open Cert.KernelIdeal Cert.KernelIdeal.Gen

/-- The contraction's left operand index keeps the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column is the summed feature. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the summed feature. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Its column is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of rows times a weight, into a zero accumulator, at (p, q): row p times column q. -/
theorem matmul_at (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The body's arithmetic at (p, q) of a block: the two row-times-column sums and the bias at column q. -/
theorem pay_at (x0 x1 : Vec Ideal S5000x128 .f32) (w0 w1 : Vec Ideal S128x128 .f32) (b : Vec Ideal S1x128 .f32) (p : Fin 5000) (q : Fin 128) :
    k3_pay1 (F := Ideal) x0 x1 w0 w1 b (ix2 p q)
      = ((∑ k : Fin 128, x0 (ix2 p k) * w0 (ix2 k q)) + ∑ k : Fin 128, x1 (ix2 p k) * w1 (ix2 k q)) + b (ix2 0 q) := by
  unfold k3_pay1
  simp only [shapeCast_self]
  refine (addf_apply _ _ (ix2 p q)).trans ?_
  refine congrArg₂ (· + ·) ?_ ?_
  · refine (addf_apply _ _ (ix2 p q)).trans ?_
    exact congrArg₂ (· + ·) (matmul_at _ _ p q) (matmul_at _ _ p q)
  · exact broadcastTo_1b_ab_apply b broadcasts_S1x128_S5000x128 p q

/-! ## From row blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The arrays the step reads: the neighbour means, the nodes' own rows, the two weights, the bias row. -/
abbrev aggr (c : Dev nD) : Cert.Sage.Rows 30000 := V c main_v65
abbrev own (c : Dev nD) : Cert.Sage.Rows 30000 := V c main_v47
abbrev wl (c : Dev nD) : Cert.Sage.Wt := V c main_arg20
abbrev wr (c : Dev nD) : Cert.Sage.Wt := V c main_arg22
abbrev bias (c : Dev nD) : Cert.Sage.BiasRow := V c main_v70

/-- The dense step of the whole arrays. -/
abbrev G (c : Dev nD) : Cert.Sage.Rows 30000 :=
  Cert.Sage.comb1 (aggr V c) (own V c) (wl V c) (wr V c) (bias V c)

/-- The index maps over the grid: the row-block windows sit at block (t, 0), the weights and the bias row at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of block t of the neighbour means is row 5000 t + p of the array. -/
theorem blk_aggr (c : Dev nD) (t : Fin cfg3.N) (p : Fin 5000) (k : Fin 128) (r : Fin 30000) (hr : r.val = 5000 * t.val + p.val) :
    (iblk3 V c 0 t : Vec Ideal S5000x128 .f32) (ix2 p k) = aggr V c (ix2 r k) := by
  obtain ⟨e0, e1, -⟩ := idx_facts t
  unfold iblk3
  rw [View.read_apply]
  show V c main_v65 _ = V c main_v65 _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 128 + 1 * k.val = k.val; rw [e1]; omega

/-- The same for the nodes' own rows. -/
theorem blk_own (c : Dev nD) (t : Fin cfg3.N) (p : Fin 5000) (k : Fin 128) (r : Fin 30000) (hr : r.val = 5000 * t.val + p.val) :
    (iblk3 V c 1 t : Vec Ideal S5000x128 .f32) (ix2 p k) = own V c (ix2 r k) := by
  obtain ⟨-, -, e0, e1, -⟩ := idx_facts t
  unfold iblk3
  rw [View.read_apply]
  show V c main_v47 _ = V c main_v47 _
  congr 1
  funext a
  apply Fin.ext
  match a with
  | ⟨0, _⟩ => show win3_1.index t (0 : Fin 2) * 5000 + 1 * p.val = r.val; rw [e0, hr]; omega
  | ⟨1, _⟩ => show win3_1.index t (1 : Fin 2) * 128 + 1 * k.val = k.val; rw [e1]; omega

/-- Each weight's one block is the weight. -/
theorem blk_wl (c : Dev nD) (t : Fin cfg3.N) (k q : Fin 128) :
    (iblk3 V c 2 t : Vec Ideal S128x128 .f32) (ix2 k q) = wl V c (ix2 k q) := by
  obtain ⟨-, -, -, -, e0, e1, -⟩ := idx_facts t
  unfold iblk3
  rw [View.read_apply]
  show V c main_arg20 _ = V c main_arg20 _
  congr 1
  funext a
  apply Fin.ext
  match a with
  | ⟨0, _⟩ => show win3_2.index t (0 : Fin 2) * 128 + 1 * k.val = k.val; rw [e0]; omega
  | ⟨1, _⟩ => show win3_2.index t (1 : Fin 2) * 128 + 1 * q.val = q.val; rw [e1]; omega

theorem blk_wr (c : Dev nD) (t : Fin cfg3.N) (k q : Fin 128) :
    (iblk3 V c 3 t : Vec Ideal S128x128 .f32) (ix2 k q) = wr V c (ix2 k q) := by
  obtain ⟨-, -, -, -, -, -, e0, e1, -⟩ := idx_facts t
  unfold iblk3
  rw [View.read_apply]
  show V c main_arg22 _ = V c main_arg22 _
  congr 1
  funext a
  apply Fin.ext
  match a with
  | ⟨0, _⟩ => show win3_3.index t (0 : Fin 2) * 128 + 1 * k.val = k.val; rw [e0]; omega
  | ⟨1, _⟩ => show win3_3.index t (1 : Fin 2) * 128 + 1 * q.val = q.val; rw [e1]; omega

/-- The bias row's one block is the bias row. -/
theorem blk_bias (c : Dev nD) (t : Fin cfg3.N) (q : Fin 128) :
    (iblk3 V c 4 t : Vec Ideal S1x128 .f32) (ix2 0 q) = bias V c (ix2 0 q) := by
  obtain ⟨-, -, -, -, -, -, -, -, e0, e1, -⟩ := idx_facts t
  unfold iblk3
  rw [View.read_apply]
  show V c main_v70 _ = V c main_v70 _
  congr 1
  funext a
  apply Fin.ext
  match a with
  | ⟨0, _⟩ => show win3_4.index t (0 : Fin 2) * 1 + 1 * 0 = 0; rw [e0]
  | ⟨1, _⟩ => show win3_4.index t (1 : Fin 2) * 128 + 1 * q.val = q.val; rw [e1]; omega

/-- What grid point t writes back is block t of the dense step of the whole arrays. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts t
  have hN : cfg3.N = 6 := N_3
  funext j
  obtain ⟨p, q, rfl⟩ : ∃ (p : Fin 5000) (q : Fin 128), j = ix2 p q := ⟨j 0, j 1, eq_ix2 j⟩
  have hr : 5000 * t.val + p.val < 30000 := by have := t.isLt; have := p.isLt; omega
  have he : ((cfg3.win 5).blk t).view.emb (ix2 p q) = ix2 (⟨5000 * t.val + p.val, hr⟩ : Fin 30000) q := by
    funext a
    apply Fin.ext
    match a with
    | ⟨0, _⟩ => show win3_5.index t (0 : Fin 2) * 5000 + 1 * p.val = 5000 * t.val + p.val; rw [e0]; omega
    | ⟨1, _⟩ => show win3_5.index t (1 : Fin 2) * 128 + 1 * q.val = q.val; rw [e1]; omega
  refine (pay_at _ _ _ _ _ p q).trans ?_
  rw [View.read_apply]
  show _ = G V c (((cfg3.win 5).blk t).view.emb (ix2 p q))
  rw [he]
  show _ = ((∑ k : Fin 128, aggr V c (ix2 ⟨5000 * t.val + p.val, hr⟩ k) * wl V c (ix2 k q))
      + ∑ k : Fin 128, own V c (ix2 ⟨5000 * t.val + p.val, hr⟩ k) * wr V c (ix2 k q)) + bias V c (ix2 0 q)
  rw [blk_bias V c t q]
  refine congrArg (· + bias V c (ix2 0 q)) (congrArg₂ (· + ·) (Finset.sum_congr rfl fun k _ => ?_) (Finset.sum_congr rfl fun k _ => ?_))
  · rw [blk_aggr V c t p k ⟨5000 * t.val + p.val, hr⟩ rfl, blk_wl V c t k q]
  · rw [blk_own V c t p k ⟨5000 * t.val + p.val, hr⟩ rfl, blk_wr V c t k q]

/-- An index of the output array is in point t's block iff each coordinate is in the block's range. -/
theorem mem_blk (t : Fin cfg3.N) (i : S30000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v71).slice (win3_5.rect t)).set ↔ _
  rw [View.set_slice_whole, Rect.mem_set_unit]
  exact Iff.rfl

/-- Row r of the output is written back by grid point r / 5000. -/
theorem covered (i : S30000x128.Idx) :
    ∃ t : Fin cfg3.N, (cfg3.win 5).flush t = true ∧ i ∈ ((cfg3.win 5).blk t).view.set := by
  have hi0 : (i 0).val < 30000 := (i 0).isLt
  have hi1 : (i 1).val < 128 := (i 1).isLt
  have hN : cfg3.N = 6 := N_3
  obtain ⟨t, ht⟩ : ∃ t : Fin cfg3.N, t.val = (i 0).val / 5000 := ⟨⟨(i 0).val / 5000, by rw [hN]; omega⟩, rfl⟩
  obtain ⟨-, -, -, -, -, -, -, -, -, -, e0, e1⟩ := idx_facts t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; rw [e0, ht]; omega
  | ⟨1, _⟩ => show win3_5.index t (1 : Fin 2) * 128 ≤ (i 1).val ∧ (i 1).val < win3_5.index t (1 : Fin 2) * 128 + 128; rw [e1]; omega

/-- The output array after the region: the dense step of the arrays the region found. -/
theorem final (c : Dev nD) : (Gen.dat3 (F := Ideal) V c).arrAt 5 cfg3.N
    = Cert.Sage.comb1 (V c main_v65) (V c main_v47) (V c main_arg20) (V c main_arg22) (V c main_v70) :=
  (dat3 V c).arrAt_eq_of_cover 5 (G V c) (fun t _ => flushed_eq V c t) (covered)

end Cert.KernelIdeal.Reg3

end
-- ==== Proof.KValue.lean ====
/-
  What each region of the kernel program finds at its entry, and what the run leaves in the two result buffers, as functions
  of the launch arguments. Between regions the host operations are straight-line code, so a buffer's contents at a region's
  entry is the composition of the operations that wrote it, read back to the launch memory or to an earlier region's output;
  a region leaves every buffer that is not one of its arrays as it found it, and its output array at the region's value.
  Layer one's two regions read neighbour means of the input features; layer two's read the same means of layer one's
  outputs. The typed references of the outlined row lookups transport contents along equal types: transports that vanish.
-/
import proofs.«402871_j61864708931626_1_alg».proof.Proof.Gen.KernelIdeal.Frame
import proofs.«402871_j61864708931626_1_alg».proof.Proof.KDefs
import proofs.«402871_j61864708931626_1_alg».proof.Proof.KSpec
import proofs.«402871_j61864708931626_1_alg».proof.Proof.KReg0
import proofs.«402871_j61864708931626_1_alg».proof.Proof.KReg1
import proofs.«402871_j61864708931626_1_alg».proof.Proof.KReg2
import proofs.«402871_j61864708931626_1_alg».proof.Proof.KReg3
import Idealize.ShloMosaic.Lib.StableHlo.Run

set_option maxRecDepth 16384

noncomputable section

namespace Cert.KernelIdeal.KVal

open Idealize.ShloMosaic Idealize.ShloMosaic.TcCoe Idealize.SL.Sem Idealize.ShloMosaic.StableHlo
open Cert.KernelIdeal Cert.KernelIdeal.Gen

/-- A [128] bias as the [1 × 128] row the regions read. -/
def rs {F : FTy → Type} [FloatOps F] (v : FVec F S128 .f32) : FVec F S1x128 .f32 := shapeCast S1x128 v shapeCasts_S128_S1x128

section Walk

variable {F : FTy → Type} [FloatOps F]
variable (m : (ℓ : Loc nD τ sig) → Buf (Elt F) ℓ) (ρ : Dev nD → PrngReg)

/-! ## Transports along equal types vanish -/

theorem ofBuf_toBuf {T : BufTy} (x : TRef sig T) (v : T.Contents (Elt F)) : x.ofBuf (x.toBuf v) = v := by
  obtain ⟨r, h, h2, h3⟩ := x
  subst h
  rfl

theorem ofBuf_arg0 (u : main_arg0.ty.Contents (Elt F)) : ((TRef.of main_arg0 : TRef sig ⟨S100000x128, .f32⟩).ofBuf u : FVec F S100000x128 .f32) = u := rfl
theorem ofBuf_arg1 (u : main_arg1.ty.Contents (Elt F)) : ((TRef.of main_arg1 : TRef sig ⟨S30000x128, .f32⟩).ofBuf u : FVec F S30000x128 .f32) = u := rfl
theorem ofBuf_arg2 (u : main_arg2.ty.Contents (Elt F)) : ((TRef.of main_arg2 : TRef sig ⟨S1600000, .i32⟩).ofBuf u : IVec S1600000 32) = u := rfl
theorem ofBuf_arg4 (u : main_arg4.ty.Contents (Elt F)) : ((TRef.of main_arg4 : TRef sig ⟨S1000000, .i32⟩).ofBuf u : IVec S1000000 32) = u := rfl
theorem ofBuf_arg6 (u : main_arg6.ty.Contents (Elt F)) : ((TRef.of main_arg6 : TRef sig ⟨S1000000, .i32⟩).ofBuf u : IVec S1000000 32) = u := rfl
theorem ofBuf_v45 (u : main_v45.ty.Contents (Elt F)) : ((TRef.of main_v45 : TRef sig ⟨S100000x128, .f32⟩).ofBuf u : FVec F S100000x128 .f32) = u := rfl
theorem ofBuf_v47 (u : main_v47.ty.Contents (Elt F)) : ((TRef.of main_v47 : TRef sig ⟨S30000x128, .f32⟩).ofBuf u : FVec F S30000x128 .f32) = u := rfl
theorem toBuf_v24 (v : FVec F S1600000x128 .f32) : ((TRef.of main_v24 : TRef sig ⟨S1600000x128, .f32⟩).toBuf (Val := Elt F) v : FVec F S1600000x128 .f32) = v := rfl
theorem toBuf_v30 (v : FVec F S1000000x128 .f32) : ((TRef.of main_v30 : TRef sig ⟨S1000000x128, .f32⟩).toBuf (Val := Elt F) v : FVec F S1000000x128 .f32) = v := rfl
theorem toBuf_v36 (v : FVec F S1000000x128 .f32) : ((TRef.of main_v36 : TRef sig ⟨S1000000x128, .f32⟩).toBuf (Val := Elt F) v : FVec F S1000000x128 .f32) = v := rfl
theorem toBuf_v48 (v : FVec F S1600000x128 .f32) : ((TRef.of main_v48 : TRef sig ⟨S1600000x128, .f32⟩).toBuf (Val := Elt F) v : FVec F S1600000x128 .f32) = v := rfl
theorem toBuf_v54 (v : FVec F S1000000x128 .f32) : ((TRef.of main_v54 : TRef sig ⟨S1000000x128, .f32⟩).toBuf (Val := Elt F) v : FVec F S1000000x128 .f32) = v := rfl
theorem toBuf_v60 (v : FVec F S1000000x128 .f32) : ((TRef.of main_v60 : TRef sig ⟨S1000000x128, .f32⟩).toBuf (Val := Elt F) v : FVec F S1000000x128 .f32) = v := rfl

/-! ## Across a region, a buffer that is not one of its arrays is unchanged -/

theorem W8_ne' (c : Dev nD) (b : Ref sig .tc) (hb : ∀ w, Pipeline.arrRef spec0 w ≠ b) :
    W8 m ρ c (no_index (Proc.devRef .tc b)) = W7 m ρ c (Proc.devRef .tc b) := W8_of_ne m ρ c b hb
theorem W10_ne' (c : Dev nD) (b : Ref sig .tc) (hb : ∀ w, Pipeline.arrRef spec1 w ≠ b) :
    W10 m ρ c (no_index (Proc.devRef .tc b)) = W9 m ρ c (Proc.devRef .tc b) := W10_of_ne m ρ c b hb
theorem W17_ne' (c : Dev nD) (b : Ref sig .tc) (hb : ∀ w, Pipeline.arrRef spec2 w ≠ b) :
    W17 m ρ c (no_index (Proc.devRef .tc b)) = W16 m ρ c (Proc.devRef .tc b) := W17_of_ne m ρ c b hb
theorem W19_ne' (c : Dev nD) (b : Ref sig .tc) (hb : ∀ w, Pipeline.arrRef spec3 w ≠ b) :
    W19 m ρ c (no_index (Proc.devRef .tc b)) = W18 m ρ c (Proc.devRef .tc b) := W19_of_ne m ρ c b hb

/-- Walk a buffer's contents at a boundary back through the host stretches and across the regions that do not write it,
    down to the launch memory or to a region's output; then drop the typed references' transports. -/
macro "kwalk" : tactic => `(tactic| (
  simp (disch := decide) only [V7, V9, V16, V18, W18, W16, W15, W14, W13, W12, W11, W9, W7, W6, W5, W4, W3, W2, W1,
    hostOps3, hostOps2_5, hostOps2_4, hostOps2_3, hostOps2_2, hostOps2_1, hostOps2, hostOps1,
    hostOps0_6, hostOps0_5, hostOps0_4, hostOps0_3, hostOps0_2, hostOps0_1, hostOps0,
    StableHlo.after_cons, StableHlo.after_nil,
    StableHlo.nullary_result', StableHlo.unary_result', StableHlo.binary_result', StableHlo.ternary_result', StableHlo.quaternary_result',
    StableHlo.reshape_result', StableHlo.nary4_result', StableHlo.nary_result', StableHlo.unaryIndexed_result', StableHlo.binaryIndexed_result',
    StableHlo.nullary_result_ne', StableHlo.unary_result_ne', StableHlo.binary_result_ne', StableHlo.ternary_result_ne',
    StableHlo.quaternary_result_ne', StableHlo.reshape_result_ne', StableHlo.nary_result_ne', StableHlo.unaryIndexed_result_ne',
    StableHlo.binaryIndexed_result_ne', W19_ne', W17_ne', W10_ne', W8_ne']
  try simp only [ofBuf_toBuf]
  try simp only [ofBuf_arg0, ofBuf_arg1, ofBuf_arg2, ofBuf_arg4, ofBuf_arg6, ofBuf_v45, ofBuf_v47,
    toBuf_v24, toBuf_v30, toBuf_v36, toBuf_v48, toBuf_v54, toBuf_v60]))

/-! ## Region 0's entry (layer one, first node type) -/

theorem w7_v29 (c : Dev nD) : W7 m ρ c (Proc.devRef .tc main_v29) = KV.mean_gg (F := F) (m ((c : Thread nD τ).loc main_arg0)) (m ((c : Thread nD τ).loc main_arg2)) (m ((c : Thread nD τ).loc main_arg3)) := by
  kwalk <;> (unfold KV.mean_gg KV.take_gg KV.cinv_gg KV.idx_gg; rfl)

theorem w7_v35 (c : Dev nD) : W7 m ρ c (Proc.devRef .tc main_v35) = KV.mean_dg (F := F) (m ((c : Thread nD τ).loc main_arg1)) (m ((c : Thread nD τ).loc main_arg6)) (m ((c : Thread nD τ).loc main_arg7)) := by
  kwalk <;> (unfold KV.mean_dg KV.take_dg KV.cinv_dg KV.idx_dg; rfl)

theorem w7_arg0 (c : Dev nD) : W7 m ρ c (Proc.devRef .tc main_arg0) = (m ((c : Thread nD τ).loc main_arg0)) := by
  kwalk <;> rfl

theorem w7_arg8 (c : Dev nD) : W7 m ρ c (Proc.devRef .tc main_arg8) = (m ((c : Thread nD τ).loc main_arg8)) := by
  kwalk <;> rfl

theorem w7_arg14 (c : Dev nD) : W7 m ρ c (Proc.devRef .tc main_arg14) = (m ((c : Thread nD τ).loc main_arg14)) := by
  kwalk <;> rfl

theorem w7_v42 (c : Dev nD) : W7 m ρ c (Proc.devRef .tc main_v42) = addf (m ((c : Thread nD τ).loc main_arg10)) (m ((c : Thread nD τ).loc main_arg16)) := by
  kwalk <;> rfl

theorem w7_v44 (c : Dev nD) : W7 m ρ c (Proc.devRef .tc main_v44) = rs (addf (m ((c : Thread nD τ).loc main_arg9)) (m ((c : Thread nD τ).loc main_arg15))) := by
  kwalk <;> rfl

/-! ## Region 1's entry (layer one, second node type) -/

theorem w9_v41 (c : Dev nD) : W9 m ρ c (Proc.devRef .tc main_v41) = KV.mean_gd (F := F) (m ((c : Thread nD τ).loc main_arg0)) (m ((c : Thread nD τ).loc main_arg4)) (m ((c : Thread nD τ).loc main_arg5)) := by
  kwalk <;> (unfold KV.mean_gd KV.take_gd KV.cinv_gd KV.idx_gd; rfl)

theorem w9_arg1 (c : Dev nD) : W9 m ρ c (Proc.devRef .tc main_arg1) = (m ((c : Thread nD τ).loc main_arg1)) := by
  kwalk <;> rfl

theorem w9_arg11 (c : Dev nD) : W9 m ρ c (Proc.devRef .tc main_arg11) = (m ((c : Thread nD τ).loc main_arg11)) := by
  kwalk <;> rfl

theorem w9_arg13 (c : Dev nD) : W9 m ρ c (Proc.devRef .tc main_arg13) = (m ((c : Thread nD τ).loc main_arg13)) := by
  kwalk <;> rfl

theorem w9_v46 (c : Dev nD) : W9 m ρ c (Proc.devRef .tc main_v46) = rs (m ((c : Thread nD τ).loc main_arg12)) := by
  kwalk <;> rfl

/-! ## Region 2's entry (layer two, first node type): the means of layer one's outputs -/

theorem w16_v53 (c : Dev nD) : W16 m ρ c (Proc.devRef .tc main_v53) = KV.mean_gg (F := F) (W8 m ρ c (Proc.devRef .tc main_v45)) (m ((c : Thread nD τ).loc main_arg2)) (m ((c : Thread nD τ).loc main_arg3)) := by
  kwalk <;> (unfold KV.mean_gg KV.take_gg KV.cinv_gg KV.idx_gg; rfl)

theorem w16_v59 (c : Dev nD) : W16 m ρ c (Proc.devRef .tc main_v59) = KV.mean_dg (F := F) (W10 m ρ c (Proc.devRef .tc main_v47)) (m ((c : Thread nD τ).loc main_arg6)) (m ((c : Thread nD τ).loc main_arg7)) := by
  kwalk <;> (unfold KV.mean_dg KV.take_dg KV.cinv_dg KV.idx_dg; rfl)

theorem w16_v45 (c : Dev nD) : W16 m ρ c (Proc.devRef .tc main_v45) = W8 m ρ c (Proc.devRef .tc main_v45) := by
  kwalk <;> rfl

theorem w16_arg17 (c : Dev nD) : W16 m ρ c (Proc.devRef .tc main_arg17) = (m ((c : Thread nD τ).loc main_arg17)) := by
  kwalk <;> rfl

theorem w16_arg23 (c : Dev nD) : W16 m ρ c (Proc.devRef .tc main_arg23) = (m ((c : Thread nD τ).loc main_arg23)) := by
  kwalk <;> rfl

theorem w16_v66 (c : Dev nD) : W16 m ρ c (Proc.devRef .tc main_v66) = addf (m ((c : Thread nD τ).loc main_arg19)) (m ((c : Thread nD τ).loc main_arg25)) := by
  kwalk <;> rfl

theorem w16_v68 (c : Dev nD) : W16 m ρ c (Proc.devRef .tc main_v68) = rs (addf (m ((c : Thread nD τ).loc main_arg18)) (m ((c : Thread nD τ).loc main_arg24))) := by
  kwalk <;> rfl

/-! ## Region 3's entry (layer two, second node type) -/

theorem w18_v65 (c : Dev nD) : W18 m ρ c (Proc.devRef .tc main_v65) = KV.mean_gd (F := F) (W8 m ρ c (Proc.devRef .tc main_v45)) (m ((c : Thread nD τ).loc main_arg4)) (m ((c : Thread nD τ).loc main_arg5)) := by
  kwalk <;> (unfold KV.mean_gd KV.take_gd KV.cinv_gd KV.idx_gd; rfl)

theorem w18_v47 (c : Dev nD) : W18 m ρ c (Proc.devRef .tc main_v47) = W10 m ρ c (Proc.devRef .tc main_v47) := by
  kwalk <;> rfl

theorem w18_arg20 (c : Dev nD) : W18 m ρ c (Proc.devRef .tc main_arg20) = (m ((c : Thread nD τ).loc main_arg20)) := by
  kwalk <;> rfl

theorem w18_arg22 (c : Dev nD) : W18 m ρ c (Proc.devRef .tc main_arg22) = (m ((c : Thread nD τ).loc main_arg22)) := by
  kwalk <;> rfl

theorem w18_v70 (c : Dev nD) : W18 m ρ c (Proc.devRef .tc main_v70) = rs (m ((c : Thread nD τ).loc main_arg21)) := by
  kwalk <;> rfl

/-! ## The first result is region 2's output: region 3 and the stretch before it leave it -/

theorem w19_v69 (c : Dev nD) : W19 m ρ c (Proc.devRef .tc main_v69) = W17 m ρ c (Proc.devRef .tc main_v69) := by
  kwalk <;> rfl

end Walk

/-! ## The regions' outputs, and the two results, at the ideal values -/

section Values

variable (m : (ℓ : Loc nD τ sig) → Buf (Elt Ideal) ℓ) (ρ : Dev nD → PrngReg)

/-- Region 0 leaves the first node type's hidden features. -/
theorem w8_v45 (c : Dev nD) : W8 m ρ c (Proc.devRef .tc main_v45)
    = KV.hGene (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg14)) (addf (m ((c : Thread nD τ).loc main_arg10)) (m ((c : Thread nD τ).loc main_arg16))) (rs (addf (m ((c : Thread nD τ).loc main_arg9)) (m ((c : Thread nD τ).loc main_arg15)))) := by
  refine (W8_arr m ρ c 7).trans ((Reg0.final (V7 m ρ) c).trans ?_)
  show Cert.Sage.relu (Cert.Sage.comb2 (W7 m ρ c (Proc.devRef .tc main_v29)) (W7 m ρ c (Proc.devRef .tc main_v35)) (W7 m ρ c (Proc.devRef .tc main_arg0)) (W7 m ρ c (Proc.devRef .tc main_arg8)) (W7 m ρ c (Proc.devRef .tc main_arg14)) (W7 m ρ c (Proc.devRef .tc main_v42)) (W7 m ρ c (Proc.devRef .tc main_v44))) = _
  rw [w7_v29, w7_v35, w7_arg0, w7_arg8, w7_arg14, w7_v42, w7_v44]
  rfl

/-- Region 1 leaves the second node type's hidden features. -/
theorem w10_v47 (c : Dev nD) : W10 m ρ c (Proc.devRef .tc main_v47)
    = KV.hDis (m ((c : Thread nD τ).loc main_arg0)) (m ((c : Thread nD τ).loc main_arg1)) (m ((c : Thread nD τ).loc main_arg4)) (m ((c : Thread nD τ).loc main_arg5)) (m ((c : Thread nD τ).loc main_arg11)) (m ((c : Thread nD τ).loc main_arg13)) (rs (m ((c : Thread nD τ).loc main_arg12))) := by
  refine (W10_arr m ρ c 5).trans ((Reg1.final (V9 m ρ) c).trans ?_)
  show Cert.Sage.relu (Cert.Sage.comb1 (W9 m ρ c (Proc.devRef .tc main_v41)) (W9 m ρ c (Proc.devRef .tc main_arg1)) (W9 m ρ c (Proc.devRef .tc main_arg11)) (W9 m ρ c (Proc.devRef .tc main_arg13)) (W9 m ρ c (Proc.devRef .tc main_v46))) = _
  rw [w9_v41, w9_arg1, w9_arg11, w9_arg13, w9_v46]
  rfl

/-- Region 2 leaves the first node type's output of the two hidden arrays. -/
theorem w17_v69 (c : Dev nD) : W17 m ρ c (Proc.devRef .tc main_v69)
    = KV.oGene (W8 m ρ c (Proc.devRef .tc main_v45)) (W10 m ρ c (Proc.devRef .tc main_v47)) (m ((c : Thread nD τ).loc main_arg2)) (m ((c : Thread nD τ).loc main_arg3)) (m ((c : Thread nD τ).loc main_arg6)) (m ((c : Thread nD τ).loc main_arg7)) (m ((c : Thread nD τ).loc main_arg17)) (m ((c : Thread nD τ).loc main_arg23)) (addf (m ((c : Thread nD τ).loc main_arg19)) (m ((c : Thread nD τ).loc main_arg25))) (rs (addf (m ((c : Thread nD τ).loc main_arg18)) (m ((c : Thread nD τ).loc main_arg24)))) := by
  refine (W17_arr m ρ c 7).trans ((Reg2.final (V16 m ρ) c).trans ?_)
  show Cert.Sage.comb2 (W16 m ρ c (Proc.devRef .tc main_v53)) (W16 m ρ c (Proc.devRef .tc main_v59)) (W16 m ρ c (Proc.devRef .tc main_v45)) (W16 m ρ c (Proc.devRef .tc main_arg17)) (W16 m ρ c (Proc.devRef .tc main_arg23)) (W16 m ρ c (Proc.devRef .tc main_v66)) (W16 m ρ c (Proc.devRef .tc main_v68)) = _
  rw [w16_v53, w16_v59, w16_v45, w16_arg17, w16_arg23, w16_v66, w16_v68]
  rfl

/-- Region 3 leaves the second node type's output. -/
theorem w19_v71 (c : Dev nD) : W19 m ρ c (Proc.devRef .tc main_v71)
    = KV.oDis (W8 m ρ c (Proc.devRef .tc main_v45)) (W10 m ρ c (Proc.devRef .tc main_v47)) (m ((c : Thread nD τ).loc main_arg4)) (m ((c : Thread nD τ).loc main_arg5)) (m ((c : Thread nD τ).loc main_arg20)) (m ((c : Thread nD τ).loc main_arg22)) (rs (m ((c : Thread nD τ).loc main_arg21))) := by
  refine (W19_arr m ρ c 5).trans ((Reg3.final (V18 m ρ) c).trans ?_)
  show Cert.Sage.comb1 (W18 m ρ c (Proc.devRef .tc main_v65)) (W18 m ρ c (Proc.devRef .tc main_v47)) (W18 m ρ c (Proc.devRef .tc main_arg20)) (W18 m ρ c (Proc.devRef .tc main_arg22)) (W18 m ρ c (Proc.devRef .tc main_v70)) = _
  rw [w18_v65, w18_v47, w18_arg20, w18_arg22, w18_v70]
  rfl

/-- The run's first result, of the launch arguments. -/
theorem res0 (c : Dev nD) : W19 m ρ c (Proc.devRef .tc main_v69)
    = KV.oGene (KV.hGene (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg14)) (addf (m ((c : Thread nD τ).loc main_arg10)) (m ((c : Thread nD τ).loc main_arg16))) (rs (addf (m ((c : Thread nD τ).loc main_arg9)) (m ((c : Thread nD τ).loc main_arg15)))))
        (KV.hDis (m ((c : Thread nD τ).loc main_arg0)) (m ((c : Thread nD τ).loc main_arg1)) (m ((c : Thread nD τ).loc main_arg4)) (m ((c : Thread nD τ).loc main_arg5)) (m ((c : Thread nD τ).loc main_arg11)) (m ((c : Thread nD τ).loc main_arg13)) (rs (m ((c : Thread nD τ).loc main_arg12))))
        (m ((c : Thread nD τ).loc main_arg2)) (m ((c : Thread nD τ).loc main_arg3)) (m ((c : Thread nD τ).loc main_arg6)) (m ((c : Thread nD τ).loc main_arg7)) (m ((c : Thread nD τ).loc main_arg17)) (m ((c : Thread nD τ).loc main_arg23)) (addf (m ((c : Thread nD τ).loc main_arg19)) (m ((c : Thread nD τ).loc main_arg25))) (rs (addf (m ((c : Thread nD τ).loc main_arg18)) (m ((c : Thread nD τ).loc main_arg24)))) := by
  rw [w19_v69, w17_v69, w8_v45, w10_v47]

/-- The run's second result, of the launch arguments. -/
theorem res1 (c : Dev nD) : W19 m ρ c (Proc.devRef .tc main_v71)
    = KV.oDis (KV.hGene (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg14)) (addf (m ((c : Thread nD τ).loc main_arg10)) (m ((c : Thread nD τ).loc main_arg16))) (rs (addf (m ((c : Thread nD τ).loc main_arg9)) (m ((c : Thread nD τ).loc main_arg15)))))
        (KV.hDis (m ((c : Thread nD τ).loc main_arg0)) (m ((c : Thread nD τ).loc main_arg1)) (m ((c : Thread nD τ).loc main_arg4)) (m ((c : Thread nD τ).loc main_arg5)) (m ((c : Thread nD τ).loc main_arg11)) (m ((c : Thread nD τ).loc main_arg13)) (rs (m ((c : Thread nD τ).loc main_arg12))))
        (m ((c : Thread nD τ).loc main_arg4)) (m ((c : Thread nD τ).loc main_arg5)) (m ((c : Thread nD τ).loc main_arg20)) (m ((c : Thread nD τ).loc main_arg22)) (rs (m ((c : Thread nD τ).loc main_arg21))) := by
  rw [w19_v71, w8_v45, w10_v47]

end Values

end Cert.KernelIdeal.KVal

end
-- ==== Proof.RDefs.lean ====
/-
  Names for the reference program's neighbour aggregation and per-relation term, as the program composes them: the
  wrapped source index, the (clamping) row lookup, the sum over the edges that share a destination, the quotient by the
  destination's edge count (a count below one taken as one); one relation's term (mean · Wl + bias) + self · Wr; and the
  clamp at zero.
-/
import proofs.«402871_j61864708931626_1_alg».proof.ReferenceIdeal
import proofs.«402871_j61864708931626_1_alg».proof.Proof.Gen.ReferenceIdeal

noncomputable section

namespace Cert.ReferenceIdeal.RV

open Idealize.ShloMosaic Cert.ReferenceIdeal Cert.ReferenceIdeal.Gen

variable {F : FTy → Type} [FloatOps F]

/-! ## Relation gg: a [100000 × 128] table, 1600000 edges, into 100000 destination rows -/

/-- The neighbour mean as the reference forms it: the sum of looked-up rows divided by the count. -/
def mean_gg (x : FVec F S100000x128 .f32) (src dst : IVec S1600000 32) : FVec F S100000x128 .f32 :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 x (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))))
    (broadcastInDim S100000x128 ![0, 1] bcast_S100000x1_S100000x128_0_1 (maximumf (Host.scatterAdd scatter_S100000x1_S1600000x1_S1600000x1_1_0_0_1 (broadcastInDim S100000x1 ![] bcast_S_S100000x1 (constant S_ .f32 0x00000000#32)) (broadcastInDim S1600000x1 ![0] bcast_S1600000_S1600000x1_0 dst) (broadcastInDim S1600000x1 ![] bcast_S_S1600000x1 (constant S_ .f32 0x3F800000#32))) (broadcastInDim S100000x1 ![] bcast_S_S100000x1 (constant S_ .f32 0x3F800000#32))))

/-! ## Relation dg: a [30000 × 128] table, 1000000 edges, into 100000 destination rows -/

/-- The neighbour mean as the reference forms it: the sum of looked-up rows divided by the count. -/
def mean_dg (x : FVec F S30000x128 .f32) (src dst : IVec S1000000 32) : FVec F S100000x128 .f32 :=
  Host.divf (Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 dst) (Host.gather gather_S30000x128_S1000000x1_S1000000x128_1_0_n_n_0_1_1128 x (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 30000#32))) src))))
    (broadcastInDim S100000x128 ![0, 1] bcast_S100000x1_S100000x128_0_1 (maximumf (Host.scatterAdd scatter_S100000x1_S1000000x1_S1000000x1_1_0_0_1 (broadcastInDim S100000x1 ![] bcast_S_S100000x1 (constant S_ .f32 0x00000000#32)) (broadcastInDim S1000000x1 ![0] bcast_S1000000_S1000000x1_0 dst) (broadcastInDim S1000000x1 ![] bcast_S_S1000000x1 (constant S_ .f32 0x3F800000#32))) (broadcastInDim S100000x1 ![] bcast_S_S100000x1 (constant S_ .f32 0x3F800000#32))))

/-! ## Relation gd: a [100000 × 128] table, 1000000 edges, into 30000 destination rows -/

/-- The neighbour mean as the reference forms it: the sum of looked-up rows divided by the count. -/
def mean_gd (x : FVec F S100000x128 .f32) (src dst : IVec S1000000 32) : FVec F S30000x128 .f32 :=
  Host.divf (Host.scatterAdd scatter_S30000x128_S1000000x1_S1000000x128_1_0_0_1 (broadcastInDim S30000x128 ![] bcast_S_S30000x128 (constant S_ .f32 0x00000000#32)) (broadcastInDim S1000000x1 ![0] bcast_S1000000_S1000000x1_0 dst) (Host.gather gather_S100000x128_S1000000x1_S1000000x128_1_0_n_n_0_1_1128 x (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 100000#32))) src))))
    (broadcastInDim S30000x128 ![0, 1] bcast_S30000x1_S30000x128_0_1 (maximumf (Host.scatterAdd scatter_S30000x1_S1000000x1_S1000000x1_1_0_0_1 (broadcastInDim S30000x1 ![] bcast_S_S30000x1 (constant S_ .f32 0x00000000#32)) (broadcastInDim S1000000x1 ![0] bcast_S1000000_S1000000x1_0 dst) (broadcastInDim S1000000x1 ![] bcast_S_S1000000x1 (constant S_ .f32 0x3F800000#32))) (broadcastInDim S30000x1 ![] bcast_S_S30000x1 (constant S_ .f32 0x3F800000#32))))

/-! ## Rows of the first node type (100000) -/

/-- One relation's term: (mean · Wl + bias) + self · Wr. -/
def sageG (mean self : FVec F S100000x128 .f32) (wl : FVec F S128x128 .f32) (bl : FVec F S128 .f32) (wr : FVec F S128x128 .f32) : FVec F S100000x128 .f32 :=
  addf (addf (Host.dotGeneral dot_S100000x128_S128x128_S100000x128_1_0_0_1_n_n none mean wl)
      (broadcastInDim S100000x128 ![0, 1] bcast_S1x128_S100000x128_0_1 (broadcastInDim S1x128 ![1] bcast_S128_S1x128_1 bl)))
    (Host.dotGeneral dot_S100000x128_S128x128_S100000x128_1_0_0_1_n_n none self wr)

/-- The clamp at zero. -/
def reluG (y : FVec F S100000x128 .f32) : FVec F S100000x128 .f32 :=
  maximumf y (broadcastInDim S100000x128 ![] bcast_S_S100000x128 (constant S_ .f32 0x00000000#32))

/-! ## Rows of the second node type (30000) -/

/-- One relation's term: (mean · Wl + bias) + self · Wr. -/
def sageD (mean self : FVec F S30000x128 .f32) (wl : FVec F S128x128 .f32) (bl : FVec F S128 .f32) (wr : FVec F S128x128 .f32) : FVec F S30000x128 .f32 :=
  addf (addf (Host.dotGeneral dot_S30000x128_S128x128_S30000x128_1_0_0_1_n_n none mean wl)
      (broadcastInDim S30000x128 ![0, 1] bcast_S1x128_S30000x128_0_1 (broadcastInDim S1x128 ![1] bcast_S128_S1x128_1 bl)))
    (Host.dotGeneral dot_S30000x128_S128x128_S30000x128_1_0_0_1_n_n none self wr)

/-- The clamp at zero. -/
def reluD (y : FVec F S30000x128 .f32) : FVec F S30000x128 .f32 :=
  maximumf y (broadcastInDim S30000x128 ![] bcast_S_S30000x128 (constant S_ .f32 0x00000000#32))

end Cert.ReferenceIdeal.RV

end
-- ==== Proof.RSpec.lean ====
/-
  The reference's two layers as compositions of its named pieces: the first node type's hidden features are the clamp of
  the sum of its two relations' terms, the second's the clamp of its one relation's term; the outputs apply the same terms
  to the hidden features, without the clamp.
-/
import proofs.«402871_j61864708931626_1_alg».proof.Proof.RDefs

noncomputable section

namespace Cert.ReferenceIdeal.RV

open Idealize.ShloMosaic Cert.ReferenceIdeal Cert.ReferenceIdeal.Gen

variable {F : FTy → Type} [FloatOps F]

/-- Hidden features of the first node type (two relations: gg from itself, dg from the second type). -/
def hGene (a0 : FVec F S100000x128 .f32) (a1 : FVec F S30000x128 .f32) (a2 a3 : IVec S1600000 32) (a6 a7 : IVec S1000000 32)
    (a8 : FVec F S128x128 .f32) (a9 : FVec F S128 .f32) (a10 a14 : FVec F S128x128 .f32) (a15 : FVec F S128 .f32) (a16 : FVec F S128x128 .f32) :
    FVec F S100000x128 .f32 :=
  reluG (addf (sageG (mean_gg a0 a2 a3) a0 a8 a9 a10) (sageG (mean_dg a1 a6 a7) a0 a14 a15 a16))

/-- Hidden features of the second node type (one relation: gd from the first type). -/
def hDis (a0 : FVec F S100000x128 .f32) (a1 : FVec F S30000x128 .f32) (a4 a5 : IVec S1000000 32)
    (a11 : FVec F S128x128 .f32) (a12 : FVec F S128 .f32) (a13 : FVec F S128x128 .f32) : FVec F S30000x128 .f32 :=
  reluD (sageD (mean_gd a0 a4 a5) a1 a11 a12 a13)

/-- Output of the first node type from the hidden features `H` (its own) and `Hd` (the second type's). -/
def oGene (H : FVec F S100000x128 .f32) (Hd : FVec F S30000x128 .f32) (a2 a3 : IVec S1600000 32) (a6 a7 : IVec S1000000 32)
    (a17 : FVec F S128x128 .f32) (a18 : FVec F S128 .f32) (a19 a23 : FVec F S128x128 .f32) (a24 : FVec F S128 .f32) (a25 : FVec F S128x128 .f32) :
    FVec F S100000x128 .f32 :=
  addf (sageG (mean_gg H a2 a3) H a17 a18 a19) (sageG (mean_dg Hd a6 a7) H a23 a24 a25)

/-- Output of the second node type. -/
def oDis (H : FVec F S100000x128 .f32) (Hd : FVec F S30000x128 .f32) (a4 a5 : IVec S1000000 32)
    (a20 : FVec F S128x128 .f32) (a21 : FVec F S128 .f32) (a22 : FVec F S128x128 .f32) : FVec F S30000x128 .f32 :=
  sageD (mean_gd H a4 a5) Hd a20 a21 a22

end Cert.ReferenceIdeal.RV

end
-- ==== Proof.RValue.lean ====
/-
  The reference program's two results as the two layers compose them: the first node type's hidden features are the
  clamp of the sum of its two relations' terms, the second's the clamp of its one relation's term; the outputs apply
  the same terms to the hidden features, without the clamp.
-/
import proofs.«402871_j61864708931626_1_alg».proof.Proof.Gen.ReferenceIdeal.Run
import proofs.«402871_j61864708931626_1_alg».proof.Proof.RSpec

set_option maxRecDepth 16384

noncomputable section

namespace Cert.ReferenceIdeal.RV

open Idealize.ShloMosaic Idealize.ShloMosaic.TcCoe Idealize.SL.Sem Cert.ReferenceIdeal Cert.ReferenceIdeal.Gen

variable {F : FTy → Type} [FloatOps F]

set_option quotPrecheck false in
local notation "A[" m "," c "," r "]" => m (((c).tc : Thread nD τ).loc r)

/-- The run's first result is the first node type's output of the launch arguments. -/
theorem res0_eq (m : (ℓ : Loc nD τ sig) → Buf (Elt F) ℓ) (c : Dev nD) :
    Cert.ReferenceIdeal.Value.res_main_v123 (F := F) m c
      = oGene (hGene A[m,c,main_arg0] A[m,c,main_arg1] A[m,c,main_arg2] A[m,c,main_arg3] A[m,c,main_arg6] A[m,c,main_arg7] A[m,c,main_arg8] A[m,c,main_arg9] A[m,c,main_arg10] A[m,c,main_arg14] A[m,c,main_arg15] A[m,c,main_arg16])
          (hDis A[m,c,main_arg0] A[m,c,main_arg1] A[m,c,main_arg4] A[m,c,main_arg5] A[m,c,main_arg11] A[m,c,main_arg12] A[m,c,main_arg13])
          A[m,c,main_arg2] A[m,c,main_arg3] A[m,c,main_arg6] A[m,c,main_arg7] A[m,c,main_arg17] A[m,c,main_arg18] A[m,c,main_arg19] A[m,c,main_arg23] A[m,c,main_arg24] A[m,c,main_arg25] := by
  rfl

/-- The run's second result is the second node type's output of the launch arguments. -/
theorem res1_eq (m : (ℓ : Loc nD τ sig) → Buf (Elt F) ℓ) (c : Dev nD) :
    Cert.ReferenceIdeal.Value.res_main_v147 (F := F) m c
      = oDis (hGene A[m,c,main_arg0] A[m,c,main_arg1] A[m,c,main_arg2] A[m,c,main_arg3] A[m,c,main_arg6] A[m,c,main_arg7] A[m,c,main_arg8] A[m,c,main_arg9] A[m,c,main_arg10] A[m,c,main_arg14] A[m,c,main_arg15] A[m,c,main_arg16])
          (hDis A[m,c,main_arg0] A[m,c,main_arg1] A[m,c,main_arg4] A[m,c,main_arg5] A[m,c,main_arg11] A[m,c,main_arg12] A[m,c,main_arg13])
          A[m,c,main_arg4] A[m,c,main_arg5] A[m,c,main_arg20] A[m,c,main_arg21] A[m,c,main_arg22] := by
  rfl

end Cert.ReferenceIdeal.RV

end
-- ==== Proof.LibSageAlgebra.lean ====
/-
  Arithmetic of the dense step on the extended reals. Addition of extended reals is commutative and associative
  without any side condition, so regrouping the summands of a dense step is free; what is NOT free is distributing a
  product over a sum (⊤ · (1 + (−1)) = 0 but ⊤ · 1 + ⊤ · (−1) = ⊥), and that is exactly what folding two root weights
  into one uses. It holds when the node's own features and both root weights are real numbers. The quotient by a count
  that is at least one is the product with the count's reciprocal, whatever the dividend.
-/
import proofs.«402871_j61864708931626_1_alg».proof.Proof.Spec
import Mathlib.Data.EReal.Basic
import Mathlib.Data.EReal.Operations
import Mathlib.Data.EReal.Inv

open scoped BigOperators

noncomputable section

namespace Cert.Sage

open Idealize.ShloMosaic Idealize.ShloMosaic.ValueIdx

/-! ## Real entries are closed under the operations of a dense step -/

theorem isFin_coe (r : ℝ) : IsFin (r : EReal) := ⟨r, rfl⟩
theorem isFin_zero : IsFin 0 := ⟨0, by simp⟩
theorem isFin_one : IsFin 1 := ⟨1, by simp⟩
theorem IsFin.add {x y : EReal} (hx : IsFin x) (hy : IsFin y) : IsFin (x + y) := by
  obtain ⟨a, rfl⟩ := hx; obtain ⟨b, rfl⟩ := hy
  exact ⟨a + b, (EReal.coe_add a b).symm⟩
theorem IsFin.mul {x y : EReal} (hx : IsFin x) (hy : IsFin y) : IsFin (x * y) := by
  obtain ⟨a, rfl⟩ := hx; obtain ⟨b, rfl⟩ := hy
  exact ⟨a * b, (EReal.coe_mul a b).symm⟩
theorem IsFin.max {x y : EReal} (hx : IsFin x) (hy : IsFin y) : IsFin (max x y) := by
  rcases le_total x y with h | h
  · rw [max_eq_right h]; exact hy
  · rw [max_eq_left h]; exact hx
theorem IsFin.sum {ι : Type*} (S : Finset ι) (f : ι → EReal) (h : ∀ i ∈ S, IsFin (f i)) : IsFin (∑ i ∈ S, f i) := by
  classical
  induction S using Finset.induction_on with
  | empty => simpa using isFin_zero
  | insert a S ha ih =>
    rw [Finset.sum_insert ha]
    exact (h a (Finset.mem_insert_self a S)).add (ih (fun i hi => h i (Finset.mem_insert_of_mem hi)))

/-- The zero word and the one word of f32 are the real numbers 0 and 1. -/
theorem ofBits_zero : Ideal.ofBits .f32 0x00000000#32 = 0 := by simp [Ideal.ofBits, Ideal.ieee]
theorem ofBits_one : Ideal.ofBits .f32 0x3F800000#32 = 1 := by
  simp [Ideal.ofBits, Ideal.ieee, -EReal.coe_mul]; norm_num

/-! ## A quotient by a count that is at least one -/

/-- The reciprocal of an extended real that is at least one is a real number (of [0, 1]; 0 at ⊤). -/
theorem isFin_div_one {c : EReal} (hc : 1 ≤ c) : IsFin (Ideal.div 1 c) := by
  have hc0 : c ≠ 0 := fun h => by rw [h] at hc; exact absurd hc (by norm_num)
  unfold Ideal.div
  rw [if_neg hc0, one_mul]
  induction c using EReal.rec with
  | bot => exact absurd (lt_of_lt_of_le zero_lt_one hc) not_lt_bot
  | top => rw [EReal.inv_top]; exact isFin_zero
  | coe r => rw [← EReal.coe_inv]; exact isFin_coe _
/-- Dividing by `c ≥ 1` is multiplying by its reciprocal, for EVERY dividend (the infinities included). -/
theorem div_eq_mul_div_one (s : EReal) {c : EReal} (hc : 1 ≤ c) : Ideal.div s c = s * Ideal.div 1 c := by
  have hc0 : c ≠ 0 := fun h => by rw [h] at hc; exact absurd hc (by norm_num)
  unfold Ideal.div
  rw [if_neg hc0, if_neg hc0, one_mul]

/-! ## Row times column -/

theorem dot_isFin {N : ℕ} (x : Rows N) (w : Wt) (p : Fin N) (q : Fin 128)
    (hx : ∀ k : Fin 128, IsFin (x (ix2 p k))) (hw : AllFin w) : IsFin (dot x w p q) := by
  unfold dot
  exact IsFin.sum _ _ (fun k _ => (hx k).mul (hw _))

/-- A real row distributes over the sum of two real weights. -/
theorem dot_add_wt {N : ℕ} (s : Rows N) (wa wb : Wt) (p : Fin N) (q : Fin 128)
    (hs : ∀ k : Fin 128, IsFin (s (ix2 p k))) (ha : AllFin wa) (hb : AllFin wb) :
    dot s (fun i => wa i + wb i) p q = dot s wa p q + dot s wb p q := by
  unfold dot
  rw [← Finset.sum_add_distrib]
  refine Finset.sum_congr rfl (fun k _ => ?_)
  obtain ⟨r, hr⟩ := hs k
  obtain ⟨a, ha'⟩ := ha (ix2 k q)
  obtain ⟨b, hb'⟩ := hb (ix2 k q)
  show s (ix2 p k) * (wa (ix2 k q) + wb (ix2 k q)) = _
  rw [hr, ha', hb', ← EReal.coe_add, ← EReal.coe_mul, ← EReal.coe_mul, ← EReal.coe_mul, ← EReal.coe_add, mul_add]

/-! ## The fused dense step against the reference's per-relation terms -/

/-- TWO relations: the fused step, with the two root weights and the two biases added up beforehand, is the sum of the
    reference's two per-relation terms — regrouping, and `dot_add_wt` for the node's own real row. The neighbour means
    `a1`, `a2` and the neighbour weights may be anything. -/
theorem comb2At_eq_sage_add {N : ℕ} (a1 a2 s : Rows N) (wl1 wl2 wra wrb wr : Wt) (ba bb : Bias) (b : BiasRow)
    (hwr : ∀ i, wr i = wra i + wrb i) (hb : ∀ q : Fin 128, b (ix2 0 q) = ba (ix1 q) + bb (ix1 q))
    (p : Fin N) (q : Fin 128) (hs : ∀ k : Fin 128, IsFin (s (ix2 p k))) (ha : AllFin wra) (hbb : AllFin wrb) :
    comb2At a1 a2 s wl1 wl2 wr b p q = sageAt a1 s wl1 ba wra p q + sageAt a2 s wl2 bb wrb p q := by
  have hdot : dot s wr p q = dot s (fun i => wra i + wrb i) p q := by
    unfold dot; simp only [hwr]
  unfold comb2At sageAt
  rw [hdot, dot_add_wt s wra wrb p q hs ha hbb, hb q]
  abel

/-- ONE relation: regrouping only, no side condition. -/
theorem comb1At_eq_sage {N : ℕ} (a s : Rows N) (wl wr : Wt) (bl : Bias) (b : BiasRow)
    (hb : ∀ q : Fin 128, b (ix2 0 q) = bl (ix1 q)) (p : Fin N) (q : Fin 128) :
    comb1At a s wl wr b p q = sageAt a s wl bl wr p q := by
  unfold comb1At sageAt
  rw [hb q]
  abel

/-- The fused two-relation step of real operands is real. -/
theorem comb2At_isFin {N : ℕ} (a1 a2 s : Rows N) (wl1 wl2 wr : Wt) (b : BiasRow) (p : Fin N) (q : Fin 128)
    (h1 : ∀ k : Fin 128, IsFin (a1 (ix2 p k))) (h2 : ∀ k : Fin 128, IsFin (a2 (ix2 p k)))
    (hs : ∀ k : Fin 128, IsFin (s (ix2 p k))) (hwl1 : AllFin wl1) (hwl2 : AllFin wl2) (hwr : AllFin wr)
    (hb : IsFin (b (ix2 0 q))) : IsFin (comb2At a1 a2 s wl1 wl2 wr b p q) := by
  unfold comb2At
  exact (((dot_isFin a1 wl1 p q h1 hwl1).add (dot_isFin a2 wl2 p q h2 hwl2)).add
    (dot_isFin s wr p q hs hwr)).add hb

end Cert.Sage

end
-- ==== Proof.KMeans.lean ====
/-
  Under the precondition's range of the source indices the kernel program's neighbour mean IS the reference's, as
  arrays, for each relation and for ANY table: an index in [0, height) is not wrapped, passes both bounds of the lookup's
  range test, so the lookup never yields its not-a-number row and is the plain row lookup; and the product with the
  reciprocal of a count that is at least one is the quotient by it. The sums over the edges are the same operation of
  the same operands on both sides and are never opened.
-/
import proofs.«402871_j61864708931626_1_alg».proof.Proof.Spec
import proofs.«402871_j61864708931626_1_alg».proof.Proof.LibSageAlgebra
import proofs.«402871_j61864708931626_1_alg».proof.Proof.KDefs
import proofs.«402871_j61864708931626_1_alg».proof.Proof.RDefs
import Idealize.ShloMosaic.Lib.ValueIdx
import Idealize.ShloMosaic.Lib.ReduceAll
import Idealize.ShloMosaic.Lib.StableHlo.Predicate

open scoped BigOperators

noncomputable section

namespace Cert.Sage.Means

open Idealize.ShloMosaic Idealize.ShloMosaic.ValueIdx Idealize.ShloMosaic.StableHlo.Predicate

/-! ## Signed comparisons of a 32-bit word known by its signed value -/

/-- A word whose signed value is not negative is not below zero … -/
theorem slt_zero_of_nonneg {a : BitVec 32} (h : 0 ≤ a.toInt) : IntOp.cmpi .slt a 0#32 = 0#1 := by
  have hb : a.slt 0#32 = false := by
    show decide (a.toInt < (0#32 : BitVec 32).toInt) = false
    rw [show (0#32 : BitVec 32).toInt = 0 from by decide]
    exact decide_eq_false (by omega)
  show BitVec.ofBool (a.slt 0#32) = 0#1
  rw [hb]; rfl

/-- … it is at least zero … -/
theorem sge_zero_of_nonneg {a : BitVec 32} (h : 0 ≤ a.toInt) : IntOp.cmpi .sge a 0#32 = 1#1 := by
  have hb : (0#32 : BitVec 32).sle a = true := by
    show decide ((0#32 : BitVec 32).toInt ≤ a.toInt) = true
    rw [show (0#32 : BitVec 32).toInt = 0 from by decide]
    exact decide_eq_true h
  show BitVec.ofBool ((0#32 : BitVec 32).sle a) = 1#1
  rw [hb]; rfl

/-- … and a word is at most another when its signed value is. -/
theorem sle_of_toInt_le {a b : BitVec 32} (h : a.toInt ≤ b.toInt) : IntOp.cmpi .sle a b = 1#1 := by
  have hb : a.sle b = true := by
    show decide (a.toInt ≤ b.toInt) = true
    exact decide_eq_true h
  show BitVec.ofBool (a.sle b) = 1#1
  rw [hb]; rfl

/-! ## The wrapped index of a non-negative index is the index -/

/-- "Where the index is below zero, the index plus the height, else the index" is the index when none is negative. -/
theorem wrap_eq {s : Shape} (src z w : IVec s 32) (hz : ∀ e, z e = 0#32) (hsrc : ∀ e, 0 ≤ (src e).toInt) :
    select (cmpi .slt src z) w src = src := by
  funext e
  show Scalar.select (IntOp.cmpi .slt (src e) (z e)) (w e) (src e) = src e
  rw [hz e, slt_zero_of_nonneg (hsrc e), select_zero]

/-- An [n × 1] index is (a row, 0). -/
theorem exists_ixP {n : Nat} (i : (⟨2, ![n, 1]⟩ : Shape).Idx) : ∃ p : Fin n, i = ixP p := by
  refine ⟨i 0, ?_⟩
  funext a
  match a with
  | ⟨0, _⟩ => rfl
  | ⟨1, _⟩ => exact Subsingleton.elim (α := Fin 1) _ _

/-- The two ways of writing a rank-1 index from its coordinate agree. -/
theorem ofFin_eq_ix1 {n : Nat} (k : Fin n) : (Shape.Idx.ofFin k : (⟨1, ![n]⟩ : Shape).Idx) = ix1 k := by
  funext a
  match a with
  | ⟨0, _⟩ => rfl

/-- A vector laid out as a column, read at any index of the column: the vector at the index's row. -/
theorem col_apply {α : Type} {n : Nat} (h : (⟨1, ![n]⟩ : Shape).BroadcastsInDim ⟨2, ![n, 1]⟩ ![0])
    (v : (⟨1, ![n]⟩ : Shape).Idx → α) (i : (⟨2, ![n, 1]⟩ : Shape).Idx) :
    broadcastInDim ⟨2, ![n, 1]⟩ ![0] h v i = v (ix1 (i 0)) := by
  obtain ⟨p, rfl⟩ := exists_ixP i
  rw [bcast_col1 h v p, ofFin_eq_ix1]
  rfl

/-- The wrapped source indices as a column, read at an index: the source index of that row. -/
theorem idx_col_apply {n : Nat} (h : (⟨1, ![n]⟩ : Shape).BroadcastsInDim ⟨2, ![n, 1]⟩ ![0])
    (src z w : IVec ⟨1, ![n]⟩ 32) (hz : ∀ e, z e = 0#32) (hsrc : ∀ e, 0 ≤ (src e).toInt)
    (i : (⟨2, ![n, 1]⟩ : Shape).Idx) :
    broadcastInDim ⟨2, ![n, 1]⟩ ![0] h (select (cmpi .slt src z) w src) i = src (ix1 (i 0)) := by
  rw [wrap_eq src z w hz hsrc]
  exact col_apply h src i

/-! ## The lookup's range test -/

/-- Both bounds hold at an index whose signed value lies between zero and the upper bound's. -/
theorem inrange_bit {s : Shape} (idx lo hi : IVec s 32) (i : s.Idx) (H : BitVec 32) (hlo : lo i = 0#32) (hhi : hi i = H)
    (h0 : 0 ≤ (idx i).toInt) (h1 : (idx i).toInt ≤ H.toInt) :
    andi (cmpi .sge idx lo) (cmpi .sle idx hi) i = 1#1 := by
  show IntOp.andi (IntOp.cmpi .sge (idx i) (lo i)) (IntOp.cmpi .sle (idx i) (hi i)) = 1#1
  rw [hlo, hhi, sge_zero_of_nonneg h0, sle_of_toInt_le h1]; rfl

/-- A left fold of the conjunction, from 1, over bits that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from rfl]
    exact foldl_andi_ones f hf l

/-- The conjunction-reduction, from 1, of a mask that is all ones is all ones, whatever axes are reduced. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x hx _

/-- A select on a mask that is all ones, laid along any axes, is its first operand. -/
theorem select_mask_eq {s t : Shape} {α : Type} (dims : Fin s.rank → Fin t.rank) (hb : s.BroadcastsInDim t dims)
    (mask : IVec s 1) (hmask : ∀ j, mask j = 1#1) (g nan : t.Idx → α) :
    select (broadcastInDim t dims hb mask) g nan = g := by
  funext i
  rw [select_apply]
  rw [show broadcastInDim t dims hb mask i = 1#1 from hmask _, select_one]

/-- THE LOOKUP. With every source index between zero and the upper bound H of the range test (the table's height less
    one), the select between the looked-up rows g and the not-a-number row, on the range test of the wrapped indices
    reduced along the column's one-entry axis and laid along the features, is g. -/
theorem take_eq {n : Nat} {t u m : Shape} {α : Type}
    (hb1 : (⟨1, ![n]⟩ : Shape).BroadcastsInDim ⟨2, ![n, 1]⟩ ![0])
    (src z w : IVec ⟨1, ![n]⟩ 32) (lo hi : IVec ⟨2, ![n, 1]⟩ 32) (H : BitVec 32)
    (hz : ∀ e, z e = 0#32) (hlo : ∀ i, lo i = 0#32) (hhi : ∀ i, hi i = H)
    (hsrc : ∀ e, 0 ≤ (src e).toInt ∧ (src e).toInt ≤ H.toInt)
    {axes : List (Fin (⟨2, ![n, 1]⟩ : Shape).rank)} (init : u.Idx → BitVec 1) (hinit : ∀ k, init k = 1#1)
    (hr : (⟨2, ![n, 1]⟩ : Shape).ReducesTo axes m) (hu : 0 < u.numel)
    (dims : Fin m.rank → Fin t.rank) (hb : m.BroadcastsInDim t dims) (g nan : t.Idx → α) :
    select (broadcastInDim t dims hb (Host.reduce IntOp.andi
        (andi (cmpi .sge (broadcastInDim ⟨2, ![n, 1]⟩ ![0] hb1 (select (cmpi .slt src z) w src)) lo)
          (cmpi .sle (broadcastInDim ⟨2, ![n, 1]⟩ ![0] hb1 (select (cmpi .slt src z) w src)) hi))
        init hr hu)) g nan = g := by
  refine select_mask_eq dims hb _ (fun j => reduce_andi_ones _ init hr hu (fun i => ?_) hinit j) g nan
  have hi' := idx_col_apply hb1 src z w hz (fun e => (hsrc e).1) i
  refine inrange_bit _ lo hi i H (hlo i) (hhi i) ?_ ?_
  · rw [hi']; exact (hsrc _).1
  · rw [hi']; exact (hsrc _).2

/-! ## The product with the reciprocal count is the quotient by the count -/

/-- With the count taken as at least one, multiplying the sums by the reciprocal count laid along the features is
    dividing them by the count laid along the features: at each element the count is at least one. -/
theorem mul_recip_eq_div {s t : Shape} (dims : Fin s.rank → Fin t.rank) (hb : s.BroadcastsInDim t dims)
    (S : FVec Ideal t .f32) (ones cnt : FVec Ideal s .f32) (hones : ∀ i, ones i = 1) :
    mulf S (broadcastInDim t dims hb (Host.divf ones (maximumf cnt ones)))
      = Host.divf S (broadcastInDim t dims hb (maximumf cnt ones)) := by
  funext i
  show S i * Ideal.div (ones _) (max (cnt _) (ones _)) = Ideal.div (S i) (max (cnt _) (ones _))
  rw [hones]
  exact (Cert.Sage.div_eq_mul_div_one (S i) (le_max_right _ _)).symm

/-! ## The three relations -/

theorem mean_gg_eq (x : FVec Ideal Cert.KernelIdeal.S100000x128 .f32) (src dst : IVec Cert.KernelIdeal.S1600000 32)
    (hsrc : ∀ e, 0 ≤ (src e).toInt ∧ (src e).toInt < 100000) :
    Cert.KernelIdeal.KV.mean_gg (F := Ideal) x src dst = Cert.ReferenceIdeal.RV.mean_gg (F := Ideal) x src dst := by
  have hH : (99999#32 : BitVec 32).toInt = 99999 := toInt_ofNat_small 99999 (by norm_num)
  have htake : Cert.KernelIdeal.KV.take_gg (F := Ideal) x src
      = Host.gather _ x (Cert.KernelIdeal.KV.idx_gg src) :=
    take_eq _ src _ _ _ _ 99999#32 (fun _ => rfl) (fun _ => rfl) (fun _ => rfl)
      (fun e => ⟨(hsrc e).1, by rw [hH]; have := (hsrc e).2; omega⟩) _ (fun _ => rfl) _ _ _ _ _ _
  unfold Cert.KernelIdeal.KV.mean_gg Cert.ReferenceIdeal.RV.mean_gg Cert.KernelIdeal.KV.cinv_gg
  rw [htake]
  exact mul_recip_eq_div _ _ _ _ _ (fun _ => Cert.Sage.ofBits_one)

theorem mean_dg_eq (x : FVec Ideal Cert.KernelIdeal.S30000x128 .f32) (src dst : IVec Cert.KernelIdeal.S1000000 32)
    (hsrc : ∀ e, 0 ≤ (src e).toInt ∧ (src e).toInt < 30000) :
    Cert.KernelIdeal.KV.mean_dg (F := Ideal) x src dst = Cert.ReferenceIdeal.RV.mean_dg (F := Ideal) x src dst := by
  have hH : (29999#32 : BitVec 32).toInt = 29999 := toInt_ofNat_small 29999 (by norm_num)
  have htake : Cert.KernelIdeal.KV.take_dg (F := Ideal) x src
      = Host.gather _ x (Cert.KernelIdeal.KV.idx_dg src) :=
    take_eq _ src _ _ _ _ 29999#32 (fun _ => rfl) (fun _ => rfl) (fun _ => rfl)
      (fun e => ⟨(hsrc e).1, by rw [hH]; have := (hsrc e).2; omega⟩) _ (fun _ => rfl) _ _ _ _ _ _
  unfold Cert.KernelIdeal.KV.mean_dg Cert.ReferenceIdeal.RV.mean_dg Cert.KernelIdeal.KV.cinv_dg
  rw [htake]
  exact mul_recip_eq_div _ _ _ _ _ (fun _ => Cert.Sage.ofBits_one)

theorem mean_gd_eq (x : FVec Ideal Cert.KernelIdeal.S100000x128 .f32) (src dst : IVec Cert.KernelIdeal.S1000000 32)
    (hsrc : ∀ e, 0 ≤ (src e).toInt ∧ (src e).toInt < 100000) :
    Cert.KernelIdeal.KV.mean_gd (F := Ideal) x src dst = Cert.ReferenceIdeal.RV.mean_gd (F := Ideal) x src dst := by
  have hH : (99999#32 : BitVec 32).toInt = 99999 := toInt_ofNat_small 99999 (by norm_num)
  have htake : Cert.KernelIdeal.KV.take_gd (F := Ideal) x src
      = Host.gather _ x (Cert.KernelIdeal.KV.idx_gd src) :=
    take_eq _ src _ _ _ _ 99999#32 (fun _ => rfl) (fun _ => rfl) (fun _ => rfl)
      (fun e => ⟨(hsrc e).1, by rw [hH]; have := (hsrc e).2; omega⟩) _ (fun _ => rfl) _ _ _ _ _ _
  unfold Cert.KernelIdeal.KV.mean_gd Cert.ReferenceIdeal.RV.mean_gd Cert.KernelIdeal.KV.cinv_gd
  rw [htake]
  exact mul_recip_eq_div _ _ _ _ _ (fun _ => Cert.Sage.ofBits_one)

end Cert.Sage.Means

end
-- ==== Proof.LibClamp.lean ====
/-
  The start index of a host gather, read as the operation reads it: the word taken as a signed integer and clamped
  into the table's rows 0 … N − 1 (a negative index reads row 0, one past the end reads the last row).
-/
import Mathlib.Data.BitVec
import Mathlib.Order.Basic

namespace Cert.LibClamp

/-- A word read signed and clamped into the rows 0 … N − 1 of a table with at least one row. -/
def clampTo {w : Nat} (N : Nat) (hN : 0 < N) (v : BitVec w) : Fin N := ⟨min v.toInt.toNat (N - 1), by omega⟩

end Cert.LibClamp
-- ==== Proof.LibGatherScatter.lean ====
/-
  The host's row gather and accumulating row scatter, read at one element, for abstract dimension records whose
  printed fields are given as hypotheses. A row gather over an [N × C] table with an [n × 1] column of start indices
  reads, at (e, j), the table's row named by the e-th index — taken as a signed integer and clamped into the rows
  0 … N − 1 — at column j. The accumulating row scatter adds, into element (c, j), column j of every update row
  whose index, taken signed and NOT clamped, is exactly c; an index that is negative or at least N adds nowhere. The
  same two readings are given for a rank-1 table.
-/
import Idealize.ShloMosaic.PureOps.Ideal
import Idealize.ShloMosaic.PureOps.Ideal.Laws
import Idealize.ShloMosaic.Lib.ValueIdx
import Idealize.ShloMosaic.Lib.StableHlo.Predicate
import proofs.«402871_j61864708931626_1_alg».proof.Proof.LibClamp

open scoped BigOperators

namespace Cert.LibGatherScatter

open Idealize.ShloMosaic Idealize.ShloMosaic.ValueIdx Idealize.ShloMosaic.StableHlo.Predicate
open Cert.LibClamp

/-! ## Where an update lands -/

/-- An update index lands at operand index `i` exactly when, on every operand axis, the window's start (read signed,
    not clamped) plus the window coordinate is `i`'s coordinate: inside the operand by being a coordinate of it. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show _ = (((d.start j idx a + (d.window j a : ℤ)).toNat : ℕ) : ℤ)
      omega
    · intro hi
      funext a
      apply Fin.ext
      have := hi a
      show (d.start j idx a + (d.window j a : ℤ)).toNat = (i a).val
      omega
  · next h =>
    constructor
    · intro hn; exact absurd hn (by simp)
    · intro hi
      exfalso
      apply h
      intro a
      have := hi a
      have := (i a).isLt
      omega

/-- The accumulating row scatter's dimension numbers, read at update index `(e, j')`: on the operand's row axis the
    window starts at the `e`-th scatter index and has no extent; on the column axis it starts at `0` and the update's
    column is the window coordinate. -/
theorem scatter_rows_coords {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) :
    d.start (ix2 e j') idx 0 = (idx (ixP e)).toInt ∧ d.start (ix2 e j') idx 1 = 0
    ∧ d.window (ix2 e j') 0 = 0 ∧ d.window (ix2 e j') 1 = j'.val := by
  obtain ⟨uw, iw, sd, ivd, wf⟩ := d
  simp only at huw hiw hsd hivd
  subst huw hiw hsd hivd
  refine ⟨?_, rfl, rfl, rfl⟩
  unfold ScatterDims.start
  rw [dif_pos (List.mem_singleton.mpr rfl)]
  congr 2
  funext b
  match b with
  | ⟨0, _⟩ => rfl
  | ⟨1, _⟩ => rfl

/-- Update `(e, j')` of the row scatter lands at operand element `(c, j)` exactly when it is in column `j` and the
    `e`-th scatter index, read signed, is the row `c`: a negative index, or one past the last row, lands nowhere. -/
theorem scatter_rows_resultIdx_iff {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) (c : Fin N) (j : Fin C) :
    d.resultIdx? (ix2 e j') idx = some (ix2 c j) ↔ j' = j ∧ (idx (ixP e)).toInt = (c.val : ℤ) := by
  obtain ⟨hs0, hs1, hw0, hw1⟩ := scatter_rows_coords d huw hiw hsd hivd idx e j'
  rw [resultIdx?_eq_some_iff]
  constructor
  · intro h
    have h0 := h 0
    have h1 := h 1
    rw [hs0, hw0] at h0
    rw [hs1, hw1] at h1
    have h0' : (idx (ixP e)).toInt + ((0 : ℕ) : ℤ) = (c.val : ℤ) := h0
    have h1' : (0 : ℤ) + (j'.val : ℤ) = (j.val : ℤ) := h1
    exact ⟨Fin.ext (by omega), by omega⟩
  · rintro ⟨rfl, hv⟩ a
    match a with
    | ⟨0, _⟩ =>
      show d.start (ix2 e j') idx 0 + (d.window (ix2 e j') 0 : ℤ) = (c.val : ℤ)
      rw [hs0, hw0]; omega
    | ⟨1, _⟩ =>
      show d.start (ix2 e j') idx 1 + (d.window (ix2 e j') 1 : ℤ) = (j'.val : ℤ)
      rw [hs1, hw1]; omega

/-! ## The accumulating row scatter at an element -/

/-- THE ROW SCATTER READ AT `(c, j)`. The accumulation of update rows into the rows of an [N × C] table, the scatter indices an
    [n × 1] column: element `(c, j)` is the operand's plus the sum of column `j` of the update rows `e` whose scatter
    index, read SIGNED and NOT clamped, is `c`. A row whose index is negative or at least `N` adds nowhere. -/
theorem scatterAdd_rows_apply {N C n w : Nat} {φ : FTy}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ)
    (c : Fin N) (j : Fin C) :
    Host.scatterAdd (F := Ideal) d x idx upd (ix2 c j)
      = x (ix2 c j) + ∑ e ∈ Finset.univ.filter (fun e : Fin n => (idx (ixP e)).toInt = (c.val : ℤ)), upd (ix2 e j) := by
  have hmem : ∀ i : (⟨2, ![n, C]⟩ : Shape).Idx,
      d.resultIdx? i idx = some (ix2 c j) ↔ i 1 = j ∧ (idx (ixP (i 0))).toInt = (c.val : ℤ) := fun i => by
    conv_lhs => rw [eq_ix2 i]
    exact scatter_rows_resultIdx_iff d huw hiw hsd hivd idx (i 0) (i 1) c j
  unfold Host.scatterAdd
  rw [Ideal.hostScatterAdd_def]
  unfold Ideal.hostScatterAdd
  congr 1
  refine Finset.sum_bij' (fun i _ => i 0) (fun e _ => ix2 e j) ?_ ?_ ?_ ?_ ?_
  · intro i hi
    exact Finset.mem_filter.2 ⟨Finset.mem_univ _, ((hmem i).1 (Finset.mem_filter.1 hi).2).2⟩
  · intro e he
    exact Finset.mem_filter.2 ⟨Finset.mem_univ _, (hmem (ix2 e j)).2 ⟨rfl, (Finset.mem_filter.1 he).2⟩⟩
  · intro i hi
    have h1 : i 1 = j := ((hmem i).1 (Finset.mem_filter.1 hi).2).1
    rw [← h1]; exact (eq_ix2 i).symm
  · intro e _; rfl
  · intro i hi
    have h1 : i 1 = j := ((hmem i).1 (Finset.mem_filter.1 hi).2).1
    rw [← h1]; exact congrArg upd (eq_ix2 i)

/-! ## The row gather at an element -/

/-- The row gather's dimension numbers, read at result index `(e, j)`: the operand's row is the `e`-th start index read
    signed and clamped into `0 … N − 1` (the slice is one row high), its column is `j` (the slice starts at column 0,
    and the result's second axis is the offset along it). -/
theorem gather_rows_coords {N C n w : Nat}
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (idx : IVec ⟨2, ![n, 1]⟩ w) (e : Fin n) (j : Fin C) :
    (d.operandIdx (ix2 e j) idx 0).val = min (idx (ixP e)).toInt.toNat (N - 1)
    ∧ (d.operandIdx (ix2 e j) idx 1).val = j.val := by
  have hsl : d.sliceSizes 0 = 1 := d.slice_collapsed 0 (by rw [hcoll]; exact List.mem_singleton.mpr rfl)
  obtain ⟨od, cd, ob, sb, sm, ivd, ss, wf⟩ := d
  simp only at hod hcoll hob hsim hivd hsl
  subst hod hcoll hob hsim hivd
  refine ⟨?_, ?_⟩
  swap
  · show GatherDims.start _ (ix2 e j) idx 1 + GatherDims.batchCoord _ (ix2 e j) 1 + GatherDims.offCoord _ (ix2 e j) 1 = _
    rw [GatherDims.batchCoord_eq_zero _ _ _ List.not_mem_nil]
    have hst : GatherDims.start ⟨[1], [0], [], sb, [0], 1, ss, wf⟩ (ix2 e j) idx 1 = 0 := rfl
    have hof : GatherDims.offCoord ⟨[1], [0], [], sb, [0], 1, ss, wf⟩ (ix2 e j) 1 = j.val := rfl
    rw [hst, hof]
    omega
  show GatherDims.start _ (ix2 e j) idx 0 + GatherDims.batchCoord _ (ix2 e j) 0 + GatherDims.offCoord _ (ix2 e j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- THE ROW GATHER READ AT `(e, j)`: the table's row named by the `e`-th start index, read SIGNED and CLAMPED into the rows
    `0 … N − 1` (a negative index reads row 0, one past the end reads the last row), at column `j`. -/
theorem gather_rows_apply {α : Type} {N C n w : Nat} (hN : 0 < N)
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (j : Fin C) :
    Host.gather d x idx (ix2 e j) = x (ix2 (clampTo N hN (idx (ixP e))) j) := by
  obtain ⟨h0, h1⟩ := gather_rows_coords d hod hcoll hob hsim hivd idx e j
  unfold Host.gather
  congr 1
  funext a
  apply Fin.ext
  match a with
  | ⟨0, _⟩ => exact h0
  | ⟨1, _⟩ => exact h1

/-! ## The accumulating scatter into a rank-1 table at an element -/

/-- The rank-1 scatter's dimension numbers, read at update index `e`: on the operand's one axis the window starts at
    the `e`-th scatter index and has no extent. -/
theorem scatter_vec_coords {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) :
    d.start (ix1 e) idx 0 = (idx (ixP e)).toInt ∧ d.window (ix1 e) 0 = 0 := by
  obtain ⟨uw, iw, sd, ivd, wf⟩ := d
  simp only at huw hiw hsd hivd
  subst huw hiw hsd hivd
  refine ⟨?_, rfl⟩
  unfold ScatterDims.start
  rw [dif_pos (List.mem_singleton.mpr rfl)]
  congr 2
  funext b
  match b with
  | ⟨0, _⟩ => rfl
  | ⟨1, _⟩ => rfl

/-- Update `e` of the rank-1 scatter lands at operand element `q` exactly when the `e`-th scatter index, read signed, is
    `q`: a negative index, or one past the last entry, lands nowhere. -/
theorem scatter_vec_resultIdx_iff {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (q : Fin G) :
    d.resultIdx? (ix1 e) idx = some (ix1 q) ↔ (idx (ixP e)).toInt = (q.val : ℤ) := by
  obtain ⟨hs0, hw0⟩ := scatter_vec_coords d huw hiw hsd hivd idx e
  rw [resultIdx?_eq_some_iff]
  constructor
  · intro h
    have h0 := h 0
    rw [hs0, hw0] at h0
    have h0' : (idx (ixP e)).toInt + ((0 : ℕ) : ℤ) = (q.val : ℤ) := h0
    omega
  · intro hv a
    match a with
    | ⟨0, _⟩ =>
      show d.start (ix1 e) idx 0 + (d.window (ix1 e) 0 : ℤ) = (q.val : ℤ)
      rw [hs0, hw0]; omega

/-- THE RANK-1 SCATTER READ AT `q`. The accumulation of scalar updates into a table of `G` entries, the scatter indices an
    [n × 1] column: entry `q` is the operand's plus the sum of the updates `e` whose scatter index, read SIGNED and NOT
    clamped, is `q`. An update whose index is negative or at least `G` adds nowhere. -/
theorem scatterAdd_vec_apply {G n w : Nat} {φ : FTy}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![G]⟩ φ) (idx : IVec ⟨2, ![n, 1]⟩ w) (upd : FVec Ideal ⟨1, ![n]⟩ φ) (q : Fin G) :
    Host.scatterAdd (F := Ideal) d x idx upd (ix1 q)
      = x (ix1 q) + ∑ e ∈ Finset.univ.filter (fun e : Fin n => (idx (ixP e)).toInt = (q.val : ℤ)), upd (ix1 e) := by
  have hmem : ∀ i : (⟨1, ![n]⟩ : Shape).Idx,
      d.resultIdx? i idx = some (ix1 q) ↔ (idx (ixP (i 0))).toInt = (q.val : ℤ) := fun i => by
    conv_lhs => rw [eq_ix1 i]
    exact scatter_vec_resultIdx_iff d huw hiw hsd hivd idx (i 0) q
  unfold Host.scatterAdd
  rw [Ideal.hostScatterAdd_def]
  unfold Ideal.hostScatterAdd
  congr 1
  refine Finset.sum_bij' (fun i _ => i 0) (fun e _ => ix1 e) ?_ ?_ ?_ ?_ ?_
  · intro i hi
    exact Finset.mem_filter.2 ⟨Finset.mem_univ _, (hmem i).1 (Finset.mem_filter.1 hi).2⟩
  · intro e he
    exact Finset.mem_filter.2 ⟨Finset.mem_univ _, (hmem (ix1 e)).2 (Finset.mem_filter.1 he).2⟩
  · intro i _; exact (eq_ix1 i).symm
  · intro e _; rfl
  · intro i _; exact congrArg upd (eq_ix1 i)

/-! ## The rank-1 gather at an element -/

/-- A rank-1 index built from its coordinate is the same index however it is written. -/
theorem ofFin_eq_ix1 {n : Nat} (k : Fin n) : (Shape.Idx.ofFin k : (⟨1, ![n]⟩ : Shape).Idx) = ix1 k := by
  funext a
  match a with
  | ⟨0, _⟩ => rfl

/-- THE RANK-1 GATHER READ AT `e`: the table's entry named by the `e`-th start index, read SIGNED and CLAMPED into the
    positions `0 … N − 1` (a negative index reads entry 0, one past the end reads the last). -/
theorem gather_vec_apply {α : Type} {N n w : Nat} (hN : 0 < N)
    (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) :
    Host.gather d x idx (ix1 e) = x (ix1 (clampTo N hN (idx (ixP e)))) := by
  rw [← ofFin_eq_ix1 e, gather_take d hcoll hob hsim hivd x idx e hN, ofFin_eq_ix1]
  rfl

end Cert.LibGatherScatter
-- ==== Proof.MeanFin.lean ====
/-
  The reference's neighbour mean of a table of real numbers is an array of real numbers: an entry of the sum over the
  edges is a finite sum of looked-up table entries (each lookup reads a row of the table, the index clamped into it),
  and the count it is divided by is at least one.
-/
import proofs.«402871_j61864708931626_1_alg».proof.Proof.Spec
import proofs.«402871_j61864708931626_1_alg».proof.Proof.LibSageAlgebra
import proofs.«402871_j61864708931626_1_alg».proof.Proof.RDefs
import proofs.«402871_j61864708931626_1_alg».proof.Proof.LibGatherScatter
import Idealize.ShloMosaic.Lib.ValueIdx
import Idealize.ShloMosaic.Lib.StableHlo.Predicate

open scoped BigOperators

noncomputable section

namespace Cert.Sage.Means

open Idealize.ShloMosaic Idealize.ShloMosaic.ValueIdx

/-! ## The pieces: a real dividend over a divisor that is at least one; the zero table; the count clamped at one -/

/-- A real number divided by an extended real that is at least one is a real number: the product of the dividend with
    the divisor's reciprocal, which lies in [0, 1]. -/
theorem isFin_div_of_one_le {s c : EReal} (hs : IsFin s) (hc : 1 ≤ c) : IsFin (Ideal.div s c) := by
  rw [div_eq_mul_div_one s hc]
  exact hs.mul (isFin_div_one hc)

/-- The scalar zero spread over any shape is an array of real numbers (every entry is the scalar, which is 0). -/
theorem bcast_zero_allFin {T : Shape} (h : (⟨0, ![]⟩ : Shape).BroadcastsInDim T ![]) :
    AllFin (broadcastInDim T ![] h (constant (F := Ideal) ⟨0, ![]⟩ .f32 0x00000000#32)) := by
  intro i
  show IsFin (Ideal.ofBits .f32 0x00000000#32)
  rw [ofBits_zero]
  exact isFin_zero

/-- A [G × 1] column of counts, clamped below at the scalar one and then spread along the rows of a [G × C] array, is at
    least one at every entry: an entry of the spread array is an entry max(count, 1) of the clamped column. -/
theorem one_le_bcast_max_one {G C : Nat}
    (h₂ : (⟨2, ![G, 1]⟩ : Shape).BroadcastsInDim ⟨2, ![G, C]⟩ ![0, 1])
    (h : (⟨0, ![]⟩ : Shape).BroadcastsInDim ⟨2, ![G, 1]⟩ ![])
    (cnt : FVec Ideal ⟨2, ![G, 1]⟩ .f32) (i : (⟨2, ![G, C]⟩ : Shape).Idx) :
    (1 : EReal) ≤ broadcastInDim ⟨2, ![G, C]⟩ ![0, 1] h₂
      (maximumf cnt (broadcastInDim ⟨2, ![G, 1]⟩ ![] h (constant (F := Ideal) ⟨0, ![]⟩ .f32 0x3F800000#32))) i := by
  show (1 : EReal) ≤ max _ (Ideal.ofBits .f32 0x3F800000#32)
  rw [ofBits_one]
  exact le_max_right _ _

/-! ## The mean of a real table, for any row counts -/

/-- THE NEIGHBOUR MEAN OF A REAL TABLE IS REAL. Rows of an [N × C] table of real numbers are looked up at n indices (each
    clamped into the table), added into the rows of a [G × C] array of real numbers at n destinations, and the result is
    divided entry by entry by an array that is at least one everywhere. Entry (p, q) of the dividend is the starting
    entry plus a finite sum, over the edges whose destination is p, of table entries at column q: a real number. -/
theorem mean_fin {N G C n w w' : Nat} (hN : 0 < N)
    (sd : ScatterDims ⟨2, ![G, C]⟩ ⟨2, ![n, 1]⟩ ⟨2, ![n, C]⟩)
    (huw : sd.updateWindowDims = [1]) (hiw : sd.insertedWindowDims = [0])
    (hsd : sd.scatterDimsToOperandDims = [0]) (hsivd : sd.indexVectorDim = 1)
    (gd : GatherDims ⟨2, ![N, C]⟩ ⟨2, ![n, 1]⟩ ⟨2, ![n, C]⟩)
    (hod : gd.offsetDims = [1]) (hcoll : gd.collapsedSliceDims = [0]) (hob : gd.operandBatchingDims = [])
    (hsim : gd.startIndexMap = [0]) (hgivd : gd.indexVectorDim = 1)
    (x : FVec Ideal ⟨2, ![N, C]⟩ .f32) (hx : AllFin x)
    (z : FVec Ideal ⟨2, ![G, C]⟩ .f32) (hz : AllFin z)
    (di : IVec ⟨2, ![n, 1]⟩ w) (gi : IVec ⟨2, ![n, 1]⟩ w')
    (cb : FVec Ideal ⟨2, ![G, C]⟩ .f32) (hcb : ∀ i, (1 : EReal) ≤ cb i) :
    AllFin (Host.divf (Host.scatterAdd (F := Ideal) sd z di (Host.gather gd x gi)) cb) := by
  intro i
  obtain ⟨p, q, rfl⟩ : ∃ (p : Fin G) (q : Fin C), i = ix2 p q := ⟨i 0, i 1, eq_ix2 i⟩
  show IsFin (Ideal.div _ _)
  refine isFin_div_of_one_le ?_ (hcb _)
  rw [Cert.LibGatherScatter.scatterAdd_rows_apply sd huw hiw hsd hsivd]
  refine (hz _).add (IsFin.sum _ _ (fun e _ => ?_))
  rw [Cert.LibGatherScatter.gather_rows_apply hN gd hod hcoll hob hsim hgivd]
  exact hx _

/-! ## The two relations into the first node type -/

theorem mean_gg_fin (x : FVec Ideal Cert.ReferenceIdeal.S100000x128 .f32) (src dst : IVec Cert.ReferenceIdeal.S1600000 32)
    (hx : AllFin x) : AllFin (Cert.ReferenceIdeal.RV.mean_gg (F := Ideal) x src dst) := by
  unfold Cert.ReferenceIdeal.RV.mean_gg
  exact mean_fin (by decide) _ rfl rfl rfl rfl _ rfl rfl rfl rfl rfl x hx _ (bcast_zero_allFin _) _ _ _
    (one_le_bcast_max_one _ _ _)

theorem mean_dg_fin (x : FVec Ideal Cert.ReferenceIdeal.S30000x128 .f32) (src dst : IVec Cert.ReferenceIdeal.S1000000 32)
    (hx : AllFin x) : AllFin (Cert.ReferenceIdeal.RV.mean_dg (F := Ideal) x src dst) := by
  unfold Cert.ReferenceIdeal.RV.mean_dg
  exact mean_fin (by decide) _ rfl rfl rfl rfl _ rfl rfl rfl rfl rfl x hx _ (bcast_zero_allFin _) _ _ _
    (one_le_bcast_max_one _ _ _)

end Cert.Sage.Means

end
-- ==== Proof.Combine.lean ====
/-
  The fused dense step against the reference's per-relation terms, as arrays. The reference's matrix product on the host,
  read at (p, q), is the row-times-column sum over the 128 features; its bias, broadcast twice, is the bias at column q.
  For the first node type (two relations) the fused step with the two root weights and the two biases added beforehand is
  the sum of the reference's two terms when the node's own features and the two root weights are real numbers; for the
  second (one relation) it is a regrouping. The clamp at zero is the maximum with the zero array. Real operands give a
  real result.
-/
import proofs.«402871_j61864708931626_1_alg».proof.Proof.Spec
import proofs.«402871_j61864708931626_1_alg».proof.Proof.LibSageAlgebra
import proofs.«402871_j61864708931626_1_alg».proof.Proof.RDefs
import Idealize.ShloMosaic.Lib.ValueIdx
import Idealize.ShloMosaic.Lib.Pipeline.Value
import Idealize.ShloMosaic.PureOps.Ideal.Laws

open scoped BigOperators

noncomputable section

namespace Cert.Sage.Combine

open Idealize.ShloMosaic Idealize.ShloMosaic.ValueIdx Cert.ReferenceIdeal Cert.ReferenceIdeal.Gen

/-! ## The host's matrix product of a [100000 × 128] array and a [128 × 128] weight, read at (p, q) -/

/-- The left operand is read at the result's row … -/
theorem lhsG_0 (i : S100000x128.Idx) (c : dot_S100000x128_S128x128_S100000x128_1_0_0_1_n_n.contr.Idx) :
    (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl
/-- … and at the contracted feature; -/
theorem lhsG_1 (i : S100000x128.Idx) (c : dot_S100000x128_S128x128_S100000x128_1_0_0_1_n_n.contr.Idx) :
    (dot_S100000x128_S128x128_S100000x128_1_0_0_1_n_n.lhsIdx i c 1).val = (c ⟨0, by decide⟩).val :=
  dot_S100000x128_S128x128_S100000x128_1_0_0_1_n_n.lhsIdx_val_of_single rfl i c
/-- the right operand at the contracted feature … -/
theorem rhsG_0 (i : S100000x128.Idx) (c : dot_S100000x128_S128x128_S100000x128_1_0_0_1_n_n.contr.Idx) :
    (dot_S100000x128_S128x128_S100000x128_1_0_0_1_n_n.rhsIdx i c 0).val = (c ⟨0, by decide⟩).val :=
  dot_S100000x128_S128x128_S100000x128_1_0_0_1_n_n.rhsIdx_val_of_single rfl i c
/-- … and at the result's column. -/
theorem rhsG_1 (i : S100000x128.Idx) (c : dot_S100000x128_S128x128_S100000x128_1_0_0_1_n_n.contr.Idx) :
    (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The product at (p, q) is row p times column q. -/
theorem dotG_apply (y : FVec Ideal S100000x128 .f32) (w : FVec Ideal S128x128 .f32) (p : Fin 100000) (q : Fin 128) :
    Host.dotGeneral dot_S100000x128_S128x128_S100000x128_1_0_0_1_n_n none y w (ix2 p q) = Cert.Sage.dot y w p q := by
  simp only [Host.dotGeneral]
  rw [Ideal.dotGeneral_apply, ← Equiv.sum_comp (contrEquiv1 dot_S100000x128_S128x128_S100000x128_1_0_0_1_n_n 128 rfl rfl).symm]
  unfold Cert.Sage.dot
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q)
      ((contrEquiv1 dot_S100000x128_S128x128_S100000x128_1_0_0_1_n_n 128 rfl rfl).symm k) = ix2 p k := funext fun a => Fin.ext (by
    match a with
    | ⟨0, _⟩ => exact lhsG_0 _ _
    | ⟨1, _⟩ => exact (lhsG_1 _ _).trans hk)
  have er : dot_S100000x128_S128x128_S100000x128_1_0_0_1_n_n.rhsIdx (ix2 p q)
      ((contrEquiv1 dot_S100000x128_S128x128_S100000x128_1_0_0_1_n_n 128 rfl rfl).symm k) = ix2 k q := funext fun a => Fin.ext (by
    match a with
    | ⟨0, _⟩ => exact (rhsG_0 _ _).trans hk
    | ⟨1, _⟩ => exact rhsG_1 _ _)
  rw [el, er]

/-- The bias, broadcast to a row and then down the 100000 rows, read at (p, q), is the bias at column q. -/
theorem biasG_apply (bl : FVec Ideal S128 .f32) (p : Fin 100000) (q : Fin 128) :
    broadcastInDim S100000x128 ![0, 1] bcast_S1x128_S100000x128_0_1 (broadcastInDim S1x128 ![1] bcast_S128_S1x128_1 bl) (ix2 p q)
      = bl (ix1 q) := by
  rw [broadcastInDim_apply _ bcast_S1x128_S100000x128_0_1 _ (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact broadcastInDim_apply _ bcast_S128_S1x128_1 bl (ix2 0 q) (ix1 q) (fun a => match a with
    | ⟨0, _⟩ => by show q.val = if (128 : Nat) = 1 then 0 else q.val; rw [if_neg (by decide)])

/-- The zero word broadcast over the [100000 × 128] array is the real number 0 at every entry. -/
theorem zeroG_apply (i : S100000x128.Idx) :
    broadcastInDim S100000x128 ![] bcast_S_S100000x128 (constant (F := Ideal) S_ .f32 0x00000000#32) i = 0 := by
  rw [broadcastInDim_apply _ bcast_S_S100000x128 _ i (fun a => a.elim0) (fun a => a.elim0), constant_apply, Cert.Sage.ofBits_zero]

/-! ## The host's matrix product of a [30000 × 128] array and a [128 × 128] weight, read at (p, q) -/

/-- The left operand is read at the result's row … -/
theorem lhsD_0 (i : S30000x128.Idx) (c : dot_S30000x128_S128x128_S30000x128_1_0_0_1_n_n.contr.Idx) :
    (dot_S30000x128_S128x128_S30000x128_1_0_0_1_n_n.lhsIdx i c 0).val = (i 0).val := by
  unfold DotDims.lhsIdx
  rw [dif_neg (show ¬(0 : Fin S30000x128.rank) ∈ dot_S30000x128_S128x128_S30000x128_1_0_0_1_n_n.lhsBatch by decide),
    dif_pos (show (0 : Fin S30000x128.rank) ∈ dot_S30000x128_S128x128_S30000x128_1_0_0_1_n_n.lhsNonContracting by decide)]
  rfl
/-- … and at the contracted feature; -/
theorem lhsD_1 (i : S30000x128.Idx) (c : dot_S30000x128_S128x128_S30000x128_1_0_0_1_n_n.contr.Idx) :
    (dot_S30000x128_S128x128_S30000x128_1_0_0_1_n_n.lhsIdx i c 1).val = (c ⟨0, by decide⟩).val :=
  dot_S30000x128_S128x128_S30000x128_1_0_0_1_n_n.lhsIdx_val_of_single rfl i c
/-- the right operand at the contracted feature … -/
theorem rhsD_0 (i : S30000x128.Idx) (c : dot_S30000x128_S128x128_S30000x128_1_0_0_1_n_n.contr.Idx) :
    (dot_S30000x128_S128x128_S30000x128_1_0_0_1_n_n.rhsIdx i c 0).val = (c ⟨0, by decide⟩).val :=
  dot_S30000x128_S128x128_S30000x128_1_0_0_1_n_n.rhsIdx_val_of_single rfl i c
/-- … and at the result's column. -/
theorem rhsD_1 (i : S30000x128.Idx) (c : dot_S30000x128_S128x128_S30000x128_1_0_0_1_n_n.contr.Idx) :
    (dot_S30000x128_S128x128_S30000x128_1_0_0_1_n_n.rhsIdx i c 1).val = (i 1).val := by
  unfold DotDims.rhsIdx
  rw [dif_neg (show ¬(1 : Fin S128x128.rank) ∈ dot_S30000x128_S128x128_S30000x128_1_0_0_1_n_n.rhsBatch by decide),
    dif_pos (show (1 : Fin S128x128.rank) ∈ dot_S30000x128_S128x128_S30000x128_1_0_0_1_n_n.rhsNonContracting by decide)]
  rfl

/-- The product at (p, q) is row p times column q. -/
theorem dotD_apply (y : FVec Ideal S30000x128 .f32) (w : FVec Ideal S128x128 .f32) (p : Fin 30000) (q : Fin 128) :
    Host.dotGeneral dot_S30000x128_S128x128_S30000x128_1_0_0_1_n_n none y w (ix2 p q) = Cert.Sage.dot y w p q := by
  simp only [Host.dotGeneral]
  rw [Ideal.dotGeneral_apply, ← Equiv.sum_comp (contrEquiv1 dot_S30000x128_S128x128_S30000x128_1_0_0_1_n_n 128 rfl rfl).symm]
  unfold Cert.Sage.dot
  refine Finset.sum_congr rfl fun k _ => ?_
  have hk := contrEquiv1_symm_val dot_S30000x128_S128x128_S30000x128_1_0_0_1_n_n 128 rfl rfl k
  have el : dot_S30000x128_S128x128_S30000x128_1_0_0_1_n_n.lhsIdx (ix2 p q)
      ((contrEquiv1 dot_S30000x128_S128x128_S30000x128_1_0_0_1_n_n 128 rfl rfl).symm k) = ix2 p k := funext fun a => Fin.ext (by
    match a with
    | ⟨0, _⟩ => exact lhsD_0 _ _
    | ⟨1, _⟩ => exact (lhsD_1 _ _).trans hk)
  have er : dot_S30000x128_S128x128_S30000x128_1_0_0_1_n_n.rhsIdx (ix2 p q)
      ((contrEquiv1 dot_S30000x128_S128x128_S30000x128_1_0_0_1_n_n 128 rfl rfl).symm k) = ix2 k q := funext fun a => Fin.ext (by
    match a with
    | ⟨0, _⟩ => exact (rhsD_0 _ _).trans hk
    | ⟨1, _⟩ => exact rhsD_1 _ _)
  rw [el, er]

/-- The bias, broadcast to a row and then down the 30000 rows, read at (p, q), is the bias at column q. -/
theorem biasD_apply (bl : FVec Ideal S128 .f32) (p : Fin 30000) (q : Fin 128) :
    broadcastInDim S30000x128 ![0, 1] bcast_S1x128_S30000x128_0_1 (broadcastInDim S1x128 ![1] bcast_S128_S1x128_1 bl) (ix2 p q)
      = bl (ix1 q) := by
  rw [broadcastInDim_apply _ bcast_S1x128_S30000x128_0_1 _ (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact broadcastInDim_apply _ bcast_S128_S1x128_1 bl (ix2 0 q) (ix1 q) (fun a => match a with
    | ⟨0, _⟩ => by show q.val = if (128 : Nat) = 1 then 0 else q.val; rw [if_neg (by decide)])

/-- The zero word broadcast over the [30000 × 128] array is the real number 0 at every entry. -/
theorem zeroD_apply (i : S30000x128.Idx) :
    broadcastInDim S30000x128 ![] bcast_S_S30000x128 (constant (F := Ideal) S_ .f32 0x00000000#32) i = 0 := by
  rw [broadcastInDim_apply _ bcast_S_S30000x128 _ i (fun a => a.elim0) (fun a => a.elim0), constant_apply, Cert.Sage.ofBits_zero]

/-! ## The dense steps and the clamp, as arrays -/

theorem comb2_eq_sageG (m1 m2 s : FVec Ideal S100000x128 .f32) (wl1 wl2 wra wrb wr : FVec Ideal S128x128 .f32)
    (ba bb : FVec Ideal S128 .f32) (b : FVec Ideal S1x128 .f32)
    (hwr : ∀ i, wr i = wra i + wrb i) (hb : ∀ q : Fin 128, b (ix2 0 q) = ba (ix1 q) + bb (ix1 q))
    (hs : AllFin s) (ha : AllFin wra) (hbb : AllFin wrb) :
    Cert.Sage.comb2 m1 m2 s wl1 wl2 wr b = addf (RV.sageG (F := Ideal) m1 s wl1 ba wra) (RV.sageG (F := Ideal) m2 s wl2 bb wrb) := by
  funext i
  obtain ⟨p, q, rfl⟩ : ∃ p q, i = ix2 p q := ⟨i 0, i 1, eq_ix2 i⟩
  show Cert.Sage.comb2At m1 m2 s wl1 wl2 wr b p q = _
  rw [Cert.Sage.comb2At_eq_sage_add m1 m2 s wl1 wl2 wra wrb wr ba bb b hwr hb p q (fun k => hs _) ha hbb]
  unfold RV.sageG Cert.Sage.sageAt
  simp only [addf_apply, dotG_apply]
  rw [biasG_apply ba p q, biasG_apply bb p q]

theorem comb1_eq_sageD (m s : FVec Ideal S30000x128 .f32) (wl wr : FVec Ideal S128x128 .f32)
    (bl : FVec Ideal S128 .f32) (b : FVec Ideal S1x128 .f32) (hb : ∀ q : Fin 128, b (ix2 0 q) = bl (ix1 q)) :
    Cert.Sage.comb1 m s wl wr b = RV.sageD (F := Ideal) m s wl bl wr := by
  funext i
  obtain ⟨p, q, rfl⟩ : ∃ p q, i = ix2 p q := ⟨i 0, i 1, eq_ix2 i⟩
  show Cert.Sage.comb1At m s wl wr b p q = _
  rw [Cert.Sage.comb1At_eq_sage m s wl wr bl b hb p q]
  unfold RV.sageD Cert.Sage.sageAt
  simp only [addf_apply, dotD_apply]
  rw [biasD_apply bl p q]

theorem relu_eq_reluG (y : FVec Ideal S100000x128 .f32) : Cert.Sage.relu y = RV.reluG (F := Ideal) y := by
  funext i
  unfold RV.reluG Cert.Sage.relu
  rw [maximumf_apply, zeroG_apply]

theorem relu_eq_reluD (y : FVec Ideal S30000x128 .f32) : Cert.Sage.relu y = RV.reluD (F := Ideal) y := by
  funext i
  unfold RV.reluD Cert.Sage.relu
  rw [maximumf_apply, zeroD_apply]

/-- The first node type's layer output of real operands is real. -/
theorem relu_comb2_fin (m1 m2 s : FVec Ideal S100000x128 .f32) (wl1 wl2 wr : FVec Ideal S128x128 .f32) (b : FVec Ideal S1x128 .f32)
    (h1 : AllFin m1) (h2 : AllFin m2) (hs : AllFin s) (hwl1 : AllFin wl1) (hwl2 : AllFin wl2) (hwr : AllFin wr) (hb : AllFin b) :
    AllFin (Cert.Sage.relu (Cert.Sage.comb2 m1 m2 s wl1 wl2 wr b)) := by
  intro i
  unfold Cert.Sage.relu Cert.Sage.comb2
  exact (Cert.Sage.comb2At_isFin m1 m2 s wl1 wl2 wr b (i 0) (i 1) (fun k => h1 _) (fun k => h2 _) (fun k => hs _)
    hwl1 hwl2 hwr (hb _)).max Cert.Sage.isFin_zero

end Cert.Sage.Combine

end
-- ==== Proof.Bridge.lean ====
/-
  The two programs' layers are the same functions of the inputs, under the precondition's facts. Layer one: the kernel's
  neighbour means are the reference's (source indices in range), and the fused step with the root weights and biases added
  beforehand is the reference's sum of per-relation terms because the first node type's input features and root weights
  are real numbers. Its result, the first node type's hidden features, is then an array of real numbers, which is what
  layer two's fused step needs of ITS own-features operand; the second node type has one relation and needs nothing.
-/
import proofs.«402871_j61864708931626_1_alg».proof.Proof.Spec
import proofs.«402871_j61864708931626_1_alg».proof.Proof.LibSageAlgebra
import proofs.«402871_j61864708931626_1_alg».proof.Proof.KSpec
import proofs.«402871_j61864708931626_1_alg».proof.Proof.RSpec
import proofs.«402871_j61864708931626_1_alg».proof.Proof.KMeans
import proofs.«402871_j61864708931626_1_alg».proof.Proof.MeanFin
import proofs.«402871_j61864708931626_1_alg».proof.Proof.Combine
import Idealize.ShloMosaic.Lib.ValueIdx

noncomputable section

namespace Cert.Sage.Bridge

open Idealize.ShloMosaic Idealize.ShloMosaic.ValueIdx Cert.ReferenceIdeal

variable (a0 : FVec Ideal S100000x128 .f32) (a1 : FVec Ideal S30000x128 .f32)
  (a2 a3 : IVec S1600000 32) (a4 a5 a6 a7 : IVec S1000000 32)
  (a8 : FVec Ideal S128x128 .f32) (a9 : FVec Ideal S128 .f32) (a10 a11 : FVec Ideal S128x128 .f32) (a12 : FVec Ideal S128 .f32)
  (a13 a14 : FVec Ideal S128x128 .f32) (a15 : FVec Ideal S128 .f32) (a16 a17 : FVec Ideal S128x128 .f32) (a18 : FVec Ideal S128 .f32)
  (a19 a20 : FVec Ideal S128x128 .f32) (a21 : FVec Ideal S128 .f32) (a22 a23 : FVec Ideal S128x128 .f32) (a24 : FVec Ideal S128 .f32)
  (a25 : FVec Ideal S128x128 .f32)

/-- Layer one, first node type. `wr`, `b` are the kernel's pre-added root weight and bias row. -/
theorem hGene_eq (hfin0 : AllFin a0) (hfin10 : AllFin a10) (hfin16 : AllFin a16)
    (hgg : ∀ e, 0 ≤ (a2 e).toInt ∧ (a2 e).toInt < 100000) (hdg : ∀ e, 0 ≤ (a6 e).toInt ∧ (a6 e).toInt < 30000)
    (wr : FVec Ideal S128x128 .f32) (b : FVec Ideal S1x128 .f32)
    (hwr : ∀ i, wr i = a10 i + a16 i) (hb : ∀ q : Fin 128, b (ix2 0 q) = a9 (ix1 q) + a15 (ix1 q)) :
    Cert.KernelIdeal.KV.hGene a0 a1 a2 a3 a6 a7 a8 a14 wr b = Cert.ReferenceIdeal.RV.hGene (F := Ideal) a0 a1 a2 a3 a6 a7 a8 a9 a10 a14 a15 a16 := by
  unfold Cert.KernelIdeal.KV.hGene Cert.ReferenceIdeal.RV.hGene
  rw [Cert.Sage.Means.mean_gg_eq a0 a2 a3 hgg, Cert.Sage.Means.mean_dg_eq a1 a6 a7 hdg,
    Cert.Sage.Combine.comb2_eq_sageG _ _ a0 a8 a14 a10 a16 wr a9 a15 b hwr hb hfin0 hfin10 hfin16]
  exact Cert.Sage.Combine.relu_eq_reluG _

/-- Layer one, second node type. -/
theorem hDis_eq (hgd : ∀ e, 0 ≤ (a4 e).toInt ∧ (a4 e).toInt < 100000)
    (b : FVec Ideal S1x128 .f32) (hb : ∀ q : Fin 128, b (ix2 0 q) = a12 (ix1 q)) :
    Cert.KernelIdeal.KV.hDis a0 a1 a4 a5 a11 a13 b = Cert.ReferenceIdeal.RV.hDis (F := Ideal) a0 a1 a4 a5 a11 a12 a13 := by
  unfold Cert.KernelIdeal.KV.hDis Cert.ReferenceIdeal.RV.hDis
  rw [Cert.Sage.Means.mean_gd_eq a0 a4 a5 hgd, Cert.Sage.Combine.comb1_eq_sageD _ a1 a11 a13 a12 b hb]
  exact Cert.Sage.Combine.relu_eq_reluD _

/-- The first node type's hidden features are real numbers. -/
theorem hGene_fin (hfin0 : AllFin a0) (hfin1 : AllFin a1) (hfin8 : AllFin a8) (hfin9 : AllFin a9) (hfin10 : AllFin a10)
    (hfin14 : AllFin a14) (hfin15 : AllFin a15) (hfin16 : AllFin a16)
    (hgg : ∀ e, 0 ≤ (a2 e).toInt ∧ (a2 e).toInt < 100000) (hdg : ∀ e, 0 ≤ (a6 e).toInt ∧ (a6 e).toInt < 30000) :
    AllFin (Cert.ReferenceIdeal.RV.hGene (F := Ideal) a0 a1 a2 a3 a6 a7 a8 a9 a10 a14 a15 a16) := by
  -- the reference's sum of two terms is the fused step with the root weights and the biases added entry by entry
  unfold Cert.ReferenceIdeal.RV.hGene
  rw [← Cert.Sage.Combine.relu_eq_reluG,
    ← Cert.Sage.Combine.comb2_eq_sageG (RV.mean_gg (F := Ideal) a0 a2 a3) (RV.mean_dg (F := Ideal) a1 a6 a7) a0 a8 a14 a10 a16
      (fun i => a10 i + a16 i) a9 a15 (fun i => a9 (ix1 (i 1)) + a15 (ix1 (i 1)))
      (fun _ => rfl) (fun _ => rfl) hfin0 hfin10 hfin16]
  exact Cert.Sage.Combine.relu_comb2_fin _ _ a0 a8 a14 _ _
    (Cert.Sage.Means.mean_gg_fin a0 a2 a3 hfin0) (Cert.Sage.Means.mean_dg_fin a1 a6 a7 hfin1) hfin0 hfin8 hfin14
    (fun i => (hfin10 i).add (hfin16 i)) (fun i => (hfin9 _).add (hfin15 _))

/-- Layer two, first node type, for ANY hidden features `H` (real) and `Hd`. -/
theorem oGene_eq (H : FVec Ideal S100000x128 .f32) (Hd : FVec Ideal S30000x128 .f32) (hH : AllFin H)
    (hfin19 : AllFin a19) (hfin25 : AllFin a25)
    (hgg : ∀ e, 0 ≤ (a2 e).toInt ∧ (a2 e).toInt < 100000) (hdg : ∀ e, 0 ≤ (a6 e).toInt ∧ (a6 e).toInt < 30000)
    (wr : FVec Ideal S128x128 .f32) (b : FVec Ideal S1x128 .f32)
    (hwr : ∀ i, wr i = a19 i + a25 i) (hb : ∀ q : Fin 128, b (ix2 0 q) = a18 (ix1 q) + a24 (ix1 q)) :
    Cert.KernelIdeal.KV.oGene H Hd a2 a3 a6 a7 a17 a23 wr b = Cert.ReferenceIdeal.RV.oGene (F := Ideal) H Hd a2 a3 a6 a7 a17 a18 a19 a23 a24 a25 := by
  unfold Cert.KernelIdeal.KV.oGene Cert.ReferenceIdeal.RV.oGene
  rw [Cert.Sage.Means.mean_gg_eq H a2 a3 hgg, Cert.Sage.Means.mean_dg_eq Hd a6 a7 hdg]
  exact Cert.Sage.Combine.comb2_eq_sageG _ _ H a17 a23 a19 a25 wr a18 a24 b hwr hb hH hfin19 hfin25

/-- Layer two, second node type. -/
theorem oDis_eq (H : FVec Ideal S100000x128 .f32) (Hd : FVec Ideal S30000x128 .f32)
    (hgd : ∀ e, 0 ≤ (a4 e).toInt ∧ (a4 e).toInt < 100000)
    (b : FVec Ideal S1x128 .f32) (hb : ∀ q : Fin 128, b (ix2 0 q) = a21 (ix1 q)) :
    Cert.KernelIdeal.KV.oDis H Hd a4 a5 a20 a22 b = Cert.ReferenceIdeal.RV.oDis (F := Ideal) H Hd a4 a5 a20 a21 a22 := by
  unfold Cert.KernelIdeal.KV.oDis Cert.ReferenceIdeal.RV.oDis
  rw [Cert.Sage.Means.mean_gd_eq H a4 a5 hgd]
  exact Cert.Sage.Combine.comb1_eq_sageD _ Hd a20 a22 a21 b hb

end Cert.Sage.Bridge

end
-- ==== Proof.PreFacts.lean ====
/-
  What the precondition says, read back entry by entry: every entry of every float input is a real number, and every
  source index of the three relations names a row of the table it is used to index: it lies in [0, 100000) for the two
  relations whose sources are the first node type and in [0, 30000) for the relation whose sources are the second.
-/
import proofs.«402871_j61864708931626_1_alg».proof.Pre_finite_inputs
import proofs.«402871_j61864708931626_1_alg».proof.Proof.Gen.Pre_finite_inputs
import proofs.«402871_j61864708931626_1_alg».proof.Proof.Spec
import Idealize.ShloMosaic.Lib.ReduceAll
import Idealize.ShloMosaic.Lib.StableHlo.Predicate
import Idealize.ShloMosaic.Lib.ValueIdx

noncomputable section

namespace Cert.Sage

open Idealize.ShloMosaic Cert.Pre_finite_inputs Cert.Pre_finite_inputs.Gen

/-- The rank-0 shape has one index. -/
instance : Subsingleton S_.Idx := ⟨fun a b => funext fun d => d.elim0⟩

/-- An extended real whose absolute value is below +∞ is a real number. -/
theorem isFin_of_abs_lt (x : EReal)
    (h : Ideal.cmp .olt (max x (-x)) (Ideal.ofBits .f32 0x7F800000#32) = 1#1) : IsFin x := by
  have ht : Ideal.ofBits .f32 0x7F800000#32 = (⊤ : EReal) := by simp [Ideal.ofBits, Ideal.ieee]
  rw [ht] at h
  induction x using EReal.rec with
  | bot => exact absurd h (by simp [Ideal.cmp])
  | coe r => exact ⟨r, rfl⟩
  | top => exact absurd h (by simp [Ideal.cmp])

/-- "All |x| < +∞", reduced by ∧ to one bit that is 1: every entry of x is a real number. -/
theorem allFin_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi (cmpf .olt (Host.absf x) (broadcastInDim s ![] hb (constant S_ .f32 0x7F800000#32)))
      init hr hu ValueIdx.ix0 = 1#1) : AllFin x := by
  intro i
  have hi := Host.reduce_andi_all _ _ hr hu _ e i
  exact isFin_of_abs_lt (x i) hi

/-- "All a ≥ 0", reduced by ∧ to one bit that is 1: every entry is nonnegative as a signed integer. -/
theorem nonneg_of_all {s : Shape} {axes : List (Fin s.rank)} (a : IVec s 32)
    (hb : S_.BroadcastsInDim s (![] : Fin 0 → Fin s.rank)) (hr : s.ReducesTo axes S_) (hu : 0 < S_.numel)
    (init : IVec S_ 1)
    (e : Host.reduce IntOp.andi (cmpi .sge a (broadcastInDim s ![] hb (constantI S_ 32 0#32)))
      init hr hu ValueIdx.ix0 = 1#1) (i : s.Idx) : 0 ≤ (a i).toInt := by
  have hi := Host.reduce_andi_all _ _ hr hu _ e i
  have h0 : IntOp.cmpi .sge (a i) 0#32 = 1#1 := hi
  have := IntOp.cmpi_sge.1 h0
  simpa using this

/-- "All a < n", reduced by ∧ to one bit that is 1: every entry is below n as a signed integer. -/
theorem lt_of_all {s : Shape} {axes : List (Fin s.rank)} (a : IVec s 32) (n : BitVec 32) (N : Int) (hn : n.toInt = N)
    (hb : S_.BroadcastsInDim s (![] : Fin 0 → Fin s.rank)) (hr : s.ReducesTo axes S_) (hu : 0 < S_.numel)
    (init : IVec S_ 1)
    (e : Host.reduce IntOp.andi (cmpi .slt a (broadcastInDim s ![] hb (constantI S_ 32 n)))
      init hr hu ValueIdx.ix0 = 1#1) (i : s.Idx) : (a i).toInt < N := by
  have hi := Host.reduce_andi_all _ _ hr hu _ e i
  have h0 : IntOp.cmpi .slt (a i) n = 1#1 := hi
  exact hn ▸ IntOp.cmpi_slt.1 h0

/-- A conjunction of two bits, read at an index, that is 1: both are. -/
theorem andi_at {s : Shape} (x y : IVec s 1) (i : s.Idx) (h : andi x y i = 1#1) : x i = 1#1 ∧ y i = 1#1 :=
  IntOp.andi_eq_one.1 h

/-- The facts the precondition gives about the 26 inputs (float inputs: all entries real; the three source-index inputs:
    every index in range of the table it indexes, as a signed integer). -/
structure InputFacts (a0 : FVec Ideal S100000x128 .f32) (a1 : FVec Ideal S30000x128 .f32) (a2 : IVec S1600000 32) (a3 : IVec S1600000 32) (a4 : IVec S1000000 32) (a5 : IVec S1000000 32) (a6 : IVec S1000000 32) (a7 : IVec S1000000 32) (a8 : FVec Ideal S128x128 .f32) (a9 : FVec Ideal S128 .f32) (a10 : FVec Ideal S128x128 .f32) (a11 : FVec Ideal S128x128 .f32) (a12 : FVec Ideal S128 .f32) (a13 : FVec Ideal S128x128 .f32) (a14 : FVec Ideal S128x128 .f32) (a15 : FVec Ideal S128 .f32) (a16 : FVec Ideal S128x128 .f32) (a17 : FVec Ideal S128x128 .f32) (a18 : FVec Ideal S128 .f32) (a19 : FVec Ideal S128x128 .f32) (a20 : FVec Ideal S128x128 .f32) (a21 : FVec Ideal S128 .f32) (a22 : FVec Ideal S128x128 .f32) (a23 : FVec Ideal S128x128 .f32) (a24 : FVec Ideal S128 .f32) (a25 : FVec Ideal S128x128 .f32) : Prop where
  fin0 : AllFin a0
  fin1 : AllFin a1
  fin8 : AllFin a8
  fin9 : AllFin a9
  fin10 : AllFin a10
  fin11 : AllFin a11
  fin12 : AllFin a12
  fin13 : AllFin a13
  fin14 : AllFin a14
  fin15 : AllFin a15
  fin16 : AllFin a16
  fin17 : AllFin a17
  fin18 : AllFin a18
  fin19 : AllFin a19
  fin20 : AllFin a20
  fin21 : AllFin a21
  fin22 : AllFin a22
  fin23 : AllFin a23
  fin24 : AllFin a24
  fin25 : AllFin a25
  src_gg : ∀ e, 0 ≤ (a2 e).toInt ∧ (a2 e).toInt < 100000
  src_gd : ∀ e, 0 ≤ (a4 e).toInt ∧ (a4 e).toInt < 100000
  src_dg : ∀ e, 0 ≤ (a6 e).toInt ∧ (a6 e).toInt < 30000

/-- The printed precondition, all ones, gives the facts. -/
theorem inputFacts_of_pre (a0 : FVec Ideal S100000x128 .f32) (a1 : FVec Ideal S30000x128 .f32) (a2 : IVec S1600000 32) (a3 : IVec S1600000 32) (a4 : IVec S1000000 32) (a5 : IVec S1000000 32) (a6 : IVec S1000000 32) (a7 : IVec S1000000 32) (a8 : FVec Ideal S128x128 .f32) (a9 : FVec Ideal S128 .f32) (a10 : FVec Ideal S128x128 .f32) (a11 : FVec Ideal S128x128 .f32) (a12 : FVec Ideal S128 .f32) (a13 : FVec Ideal S128x128 .f32) (a14 : FVec Ideal S128x128 .f32) (a15 : FVec Ideal S128 .f32) (a16 : FVec Ideal S128x128 .f32) (a17 : FVec Ideal S128x128 .f32) (a18 : FVec Ideal S128 .f32) (a19 : FVec Ideal S128x128 .f32) (a20 : FVec Ideal S128x128 .f32) (a21 : FVec Ideal S128 .f32) (a22 : FVec Ideal S128x128 .f32) (a23 : FVec Ideal S128x128 .f32) (a24 : FVec Ideal S128 .f32) (a25 : FVec Ideal S128x128 .f32)
    (h : Cert.Pre_finite_inputs.fn (F := Ideal) a0 a1 a2 a3 a4 a5 a6 a7 a8 a9 a10 a11 a12 a13 a14 a15 a16 a17 a18 a19 a20 a21 a22 a23 a24 a25 = fun _ => 1#1) :
    InputFacts a0 a1 a2 a3 a4 a5 a6 a7 a8 a9 a10 a11 a12 a13 a14 a15 a16 a17 a18 a19 a20 a21 a22 a23 a24 a25 := by
  have e := congrFun h ValueIdx.ix0
  unfold Cert.Pre_finite_inputs.fn Cert.Pre_finite_inputs.fn_part1 Cert.Pre_finite_inputs.fn_part2
    Cert.Pre_finite_inputs.fn_part3 Cert.Pre_finite_inputs.fn_part4 Cert.Pre_finite_inputs.fn_part5
    Cert.Pre_finite_inputs.fn_part6 Cert.Pre_finite_inputs.fn_part7 at e
  dsimp only at e
  -- the 26 bits, peeled from the outermost conjunction inwards
  obtain ⟨e, h6lt⟩ := andi_at _ _ _ e
  obtain ⟨e, h6ge⟩ := andi_at _ _ _ e
  obtain ⟨e, h4lt⟩ := andi_at _ _ _ e
  obtain ⟨e, h4ge⟩ := andi_at _ _ _ e
  obtain ⟨e, h2lt⟩ := andi_at _ _ _ e
  obtain ⟨e, h2ge⟩ := andi_at _ _ _ e
  obtain ⟨e, f25⟩ := andi_at _ _ _ e
  obtain ⟨e, f24⟩ := andi_at _ _ _ e
  obtain ⟨e, f23⟩ := andi_at _ _ _ e
  obtain ⟨e, f22⟩ := andi_at _ _ _ e
  obtain ⟨e, f21⟩ := andi_at _ _ _ e
  obtain ⟨e, f20⟩ := andi_at _ _ _ e
  obtain ⟨e, f19⟩ := andi_at _ _ _ e
  obtain ⟨e, f18⟩ := andi_at _ _ _ e
  obtain ⟨e, f17⟩ := andi_at _ _ _ e
  obtain ⟨e, f16⟩ := andi_at _ _ _ e
  obtain ⟨e, f15⟩ := andi_at _ _ _ e
  obtain ⟨e, f14⟩ := andi_at _ _ _ e
  obtain ⟨e, f13⟩ := andi_at _ _ _ e
  obtain ⟨e, f12⟩ := andi_at _ _ _ e
  obtain ⟨e, f11⟩ := andi_at _ _ _ e
  obtain ⟨e, f10⟩ := andi_at _ _ _ e
  obtain ⟨e, f9⟩ := andi_at _ _ _ e
  obtain ⟨e, f8⟩ := andi_at _ _ _ e
  obtain ⟨f0, f1⟩ := andi_at _ _ _ e
  have n100000 : (100000#32 : BitVec 32).toInt = 100000 := by decide
  have n30000 : (30000#32 : BitVec 32).toInt = 30000 := by decide
  exact
    { fin0 := allFin_of_all _ _ _ _ _ f0
      fin1 := allFin_of_all _ _ _ _ _ f1
      fin8 := allFin_of_all _ _ _ _ _ f8
      fin9 := allFin_of_all _ _ _ _ _ f9
      fin10 := allFin_of_all _ _ _ _ _ f10
      fin11 := allFin_of_all _ _ _ _ _ f11
      fin12 := allFin_of_all _ _ _ _ _ f12
      fin13 := allFin_of_all _ _ _ _ _ f13
      fin14 := allFin_of_all _ _ _ _ _ f14
      fin15 := allFin_of_all _ _ _ _ _ f15
      fin16 := allFin_of_all _ _ _ _ _ f16
      fin17 := allFin_of_all _ _ _ _ _ f17
      fin18 := allFin_of_all _ _ _ _ _ f18
      fin19 := allFin_of_all _ _ _ _ _ f19
      fin20 := allFin_of_all _ _ _ _ _ f20
      fin21 := allFin_of_all _ _ _ _ _ f21
      fin22 := allFin_of_all _ _ _ _ _ f22
      fin23 := allFin_of_all _ _ _ _ _ f23
      fin24 := allFin_of_all _ _ _ _ _ f24
      fin25 := allFin_of_all _ _ _ _ _ f25
      src_gg := fun i => ⟨nonneg_of_all _ _ _ _ _ h2ge i, lt_of_all _ _ _ n100000 _ _ _ _ h2lt i⟩
      src_gd := fun i => ⟨nonneg_of_all _ _ _ _ _ h4ge i, lt_of_all _ _ _ n100000 _ _ _ _ h4lt i⟩
      src_dg := fun i => ⟨nonneg_of_all _ _ _ _ _ h6ge i, lt_of_all _ _ _ n30000 _ _ _ _ h6lt i⟩ }

end Cert.Sage

end
-- ==== Proof.Final.lean ====
/-
  The two programs' compositions of the launch arguments are one function, given the precondition's facts: layer one's
  hidden features agree (and the first node type's are real numbers), hence layer two's outputs agree. The kernel side
  enters with its pre-added root weights and its bias rows as the program forms them: the sum of two weights entry by
  entry, and a [128] bias recast as a [1 × 128] row, whose entry at column q is the bias at q.
-/
import proofs.«402871_j61864708931626_1_alg».proof.Proof.Bridge
import proofs.«402871_j61864708931626_1_alg».proof.Proof.KValue
import proofs.«402871_j61864708931626_1_alg».proof.Proof.PreFacts
import Idealize.ShloMosaic.Lib.ValueLayout

noncomputable section

namespace Cert.Sage.Final

open Idealize.ShloMosaic Idealize.ShloMosaic.ValueIdx

/-- The bias row the regions read, at column q, is the bias at q. -/
theorem rs_apply (v : FVec Ideal Cert.KernelIdeal.S128 .f32) (q : Fin 128) : Cert.KernelIdeal.KVal.rs (F := Ideal) v (ix2 0 q) = v (ix1 q) :=
  shapeCast_a_1a_apply v _ 0 q

variable (a0 : FVec Ideal Cert.KernelIdeal.S100000x128 .f32) (a1 : FVec Ideal Cert.KernelIdeal.S30000x128 .f32)
  (a2 a3 : IVec Cert.KernelIdeal.S1600000 32) (a4 a5 a6 a7 : IVec Cert.KernelIdeal.S1000000 32)
  (a8 : FVec Ideal Cert.KernelIdeal.S128x128 .f32) (a9 : FVec Ideal Cert.KernelIdeal.S128 .f32) (a10 a11 : FVec Ideal Cert.KernelIdeal.S128x128 .f32) (a12 : FVec Ideal Cert.KernelIdeal.S128 .f32)
  (a13 a14 : FVec Ideal Cert.KernelIdeal.S128x128 .f32) (a15 : FVec Ideal Cert.KernelIdeal.S128 .f32) (a16 a17 : FVec Ideal Cert.KernelIdeal.S128x128 .f32) (a18 : FVec Ideal Cert.KernelIdeal.S128 .f32)
  (a19 a20 : FVec Ideal Cert.KernelIdeal.S128x128 .f32) (a21 : FVec Ideal Cert.KernelIdeal.S128 .f32) (a22 a23 : FVec Ideal Cert.KernelIdeal.S128x128 .f32) (a24 : FVec Ideal Cert.KernelIdeal.S128 .f32)
  (a25 : FVec Ideal Cert.KernelIdeal.S128x128 .f32)

/-- The first result. -/
theorem res0 (hF : Cert.Sage.InputFacts a0 a1 a2 a3 a4 a5 a6 a7 a8 a9 a10 a11 a12 a13 a14 a15 a16 a17 a18 a19 a20 a21 a22 a23 a24 a25) :
    Cert.ReferenceIdeal.RV.oGene (F := Ideal) (Cert.ReferenceIdeal.RV.hGene (F := Ideal) a0 a1 a2 a3 a6 a7 a8 a9 a10 a14 a15 a16) (Cert.ReferenceIdeal.RV.hDis (F := Ideal) a0 a1 a4 a5 a11 a12 a13) a2 a3 a6 a7 a17 a18 a19 a23 a24 a25
      = Cert.KernelIdeal.KV.oGene (Cert.KernelIdeal.KV.hGene a0 a1 a2 a3 a6 a7 a8 a14 (addf a10 a16) (Cert.KernelIdeal.KVal.rs (addf a9 a15))) (Cert.KernelIdeal.KV.hDis a0 a1 a4 a5 a11 a13 (Cert.KernelIdeal.KVal.rs a12)) a2 a3 a6 a7 a17 a23 (addf a19 a25) (Cert.KernelIdeal.KVal.rs (addf a18 a24)) := by
  have hH : (Cert.KernelIdeal.KV.hGene a0 a1 a2 a3 a6 a7 a8 a14 (addf a10 a16) (Cert.KernelIdeal.KVal.rs (addf a9 a15))) = (Cert.ReferenceIdeal.RV.hGene (F := Ideal) a0 a1 a2 a3 a6 a7 a8 a9 a10 a14 a15 a16) :=
    Cert.Sage.Bridge.hGene_eq a0 a1 a2 a3 a6 a7 a8 a9 a10 a14 a15 a16 hF.fin0 hF.fin10 hF.fin16 hF.src_gg hF.src_dg
      (addf a10 a16) (Cert.KernelIdeal.KVal.rs (addf a9 a15)) (fun _ => rfl) (fun q => rs_apply _ q)
  have hD : (Cert.KernelIdeal.KV.hDis a0 a1 a4 a5 a11 a13 (Cert.KernelIdeal.KVal.rs a12)) = (Cert.ReferenceIdeal.RV.hDis (F := Ideal) a0 a1 a4 a5 a11 a12 a13) :=
    Cert.Sage.Bridge.hDis_eq a0 a1 a4 a5 a11 a12 a13 hF.src_gd (Cert.KernelIdeal.KVal.rs a12) (fun q => rs_apply _ q)
  have hfin : AllFin (Cert.ReferenceIdeal.RV.hGene (F := Ideal) a0 a1 a2 a3 a6 a7 a8 a9 a10 a14 a15 a16) :=
    Cert.Sage.Bridge.hGene_fin a0 a1 a2 a3 a6 a7 a8 a9 a10 a14 a15 a16 hF.fin0 hF.fin1 hF.fin8 hF.fin9 hF.fin10 hF.fin14 hF.fin15 hF.fin16
      hF.src_gg hF.src_dg
  rw [hH, hD]
  exact (Cert.Sage.Bridge.oGene_eq a2 a3 a6 a7 a17 a18 a19 a23 a24 a25 (Cert.ReferenceIdeal.RV.hGene (F := Ideal) a0 a1 a2 a3 a6 a7 a8 a9 a10 a14 a15 a16) (Cert.ReferenceIdeal.RV.hDis (F := Ideal) a0 a1 a4 a5 a11 a12 a13) hfin hF.fin19 hF.fin25 hF.src_gg hF.src_dg
    (addf a19 a25) (Cert.KernelIdeal.KVal.rs (addf a18 a24)) (fun _ => rfl) (fun q => rs_apply _ q)).symm

/-- The second result. -/
theorem res1 (hF : Cert.Sage.InputFacts a0 a1 a2 a3 a4 a5 a6 a7 a8 a9 a10 a11 a12 a13 a14 a15 a16 a17 a18 a19 a20 a21 a22 a23 a24 a25) :
    Cert.ReferenceIdeal.RV.oDis (F := Ideal) (Cert.ReferenceIdeal.RV.hGene (F := Ideal) a0 a1 a2 a3 a6 a7 a8 a9 a10 a14 a15 a16) (Cert.ReferenceIdeal.RV.hDis (F := Ideal) a0 a1 a4 a5 a11 a12 a13) a4 a5 a20 a21 a22
      = Cert.KernelIdeal.KV.oDis (Cert.KernelIdeal.KV.hGene a0 a1 a2 a3 a6 a7 a8 a14 (addf a10 a16) (Cert.KernelIdeal.KVal.rs (addf a9 a15))) (Cert.KernelIdeal.KV.hDis a0 a1 a4 a5 a11 a13 (Cert.KernelIdeal.KVal.rs a12)) a4 a5 a20 a22 (Cert.KernelIdeal.KVal.rs a21) := by
  have hH : (Cert.KernelIdeal.KV.hGene a0 a1 a2 a3 a6 a7 a8 a14 (addf a10 a16) (Cert.KernelIdeal.KVal.rs (addf a9 a15))) = (Cert.ReferenceIdeal.RV.hGene (F := Ideal) a0 a1 a2 a3 a6 a7 a8 a9 a10 a14 a15 a16) :=
    Cert.Sage.Bridge.hGene_eq a0 a1 a2 a3 a6 a7 a8 a9 a10 a14 a15 a16 hF.fin0 hF.fin10 hF.fin16 hF.src_gg hF.src_dg
      (addf a10 a16) (Cert.KernelIdeal.KVal.rs (addf a9 a15)) (fun _ => rfl) (fun q => rs_apply _ q)
  have hD : (Cert.KernelIdeal.KV.hDis a0 a1 a4 a5 a11 a13 (Cert.KernelIdeal.KVal.rs a12)) = (Cert.ReferenceIdeal.RV.hDis (F := Ideal) a0 a1 a4 a5 a11 a12 a13) :=
    Cert.Sage.Bridge.hDis_eq a0 a1 a4 a5 a11 a12 a13 hF.src_gd (Cert.KernelIdeal.KVal.rs a12) (fun q => rs_apply _ q)
  rw [hH, hD]
  exact (Cert.Sage.Bridge.oDis_eq a4 a5 a20 a21 a22 (Cert.ReferenceIdeal.RV.hGene (F := Ideal) a0 a1 a2 a3 a6 a7 a8 a9 a10 a14 a15 a16) (Cert.ReferenceIdeal.RV.hDis (F := Ideal) a0 a1 a4 a5 a11 a12 a13) hF.src_gd (Cert.KernelIdeal.KVal.rs a21) (fun q => rs_apply _ q)).symm

end Cert.Sage.Final

end
-- ==== Proof.lean ====
/-
  Two layers of mean-aggregating graph convolution over two node types: the kernel program against the reference, at the
  ideal values, under the precondition that every float input is real and every source index names a row of the table it
  indexes. Outside that range the two programs' row lookups differ (one clamps, one yields a not-a-number row), so the range
  is part of the statement. Inside it: the neighbour means agree as arrays; the kernel's fused dense step, with the two
  relations' root weights and biases added beforehand, is the reference's sum of per-relation terms because the node's own
  features and the root weights are real — for layer two that is the reality of layer one's output, which follows from
  the reality of the inputs. Each region's value is a whole-array function of what it finds, each stretch of host
  operations is read back to the launch arguments, and the reference's run is read as the same composition.
-/
import proofs.«402871_j61864708931626_1_alg».proof.Defs
import proofs.«402871_j61864708931626_1_alg».proof.Proof.Gen.Kernel
import proofs.«402871_j61864708931626_1_alg».proof.Proof.Gen.Kernel.Skeleton
import proofs.«402871_j61864708931626_1_alg».proof.Proof.Gen.Kernel.Launch
import proofs.«402871_j61864708931626_1_alg».proof.Proof.Gen.Kernel.Points
import proofs.«402871_j61864708931626_1_alg».proof.Proof.Gen.Kernel.Frame
import proofs.«402871_j61864708931626_1_alg».proof.Proof.Gen.KernelIdeal
import proofs.«402871_j61864708931626_1_alg».proof.Proof.Gen.KernelIdeal.Skeleton
import proofs.«402871_j61864708931626_1_alg».proof.Proof.Gen.KernelIdeal.Launch
import proofs.«402871_j61864708931626_1_alg».proof.Proof.Gen.KernelIdeal.Points
import proofs.«402871_j61864708931626_1_alg».proof.Proof.Gen.KernelIdeal.Frame
import proofs.«402871_j61864708931626_1_alg».proof.Proof.Gen.ReferenceIdeal
import proofs.«402871_j61864708931626_1_alg».proof.Proof.Gen.ReferenceIdeal.Run
import proofs.«402871_j61864708931626_1_alg».proof.Proof.Gen.Pre_finite_inputs
import proofs.«402871_j61864708931626_1_alg».proof.Proof.KRun
import proofs.«402871_j61864708931626_1_alg».proof.Proof.KValue
import proofs.«402871_j61864708931626_1_alg».proof.Proof.RValue
import proofs.«402871_j61864708931626_1_alg».proof.Proof.Final
import proofs.«402871_j61864708931626_1_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_p : Cert.frame_Kernel := fun m ρ _ => Cert.Kernel.Gen.frame m ρ
theorem frame_pi : Cert.frame_KernelIdeal := fun m ρ _ => Cert.KernelIdeal.Gen.frame m ρ
/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs run, with equal results: the kernel's two result buffers end at its layers' composition of the launch
    arguments, the reference's at its own, and the two compositions are one function under the precondition's facts. -/
theorem algebraic : Cert.algebraic_KernelIdeal_ReferenceIdeal := by
  intro m g m' g' hpre hagree
  refine ⟨fun c => Cert.KernelIdeal.Gen.W19 m g c (Proc.devRef .tc Cert.KernelIdeal.main_v69), fun c => Cert.KernelIdeal.Gen.W19 m g c (Proc.devRef .tc Cert.KernelIdeal.main_v71),
    Cert.KernelIdeal.Run.run (F := Ideal) m g, ?_⟩
  refine (θ_run Cert.ReferenceIdeal.defs _ _).mono (fun r h c => ?_) (Cert.ReferenceIdeal.Value.run (F := Ideal) m' g')
  obtain ⟨h0, h1, hargs⟩ := h c
  have hF := Cert.Sage.inputFacts_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (hpre c)
  obtain ⟨e0, e1, e2, e3, e4, e5, e6, e7, e8, e9, e10, e11, e12, e13, e14, e15, e16, e17, e18, e19, e20, e21, e22, e23, e24, e25⟩ := hagree c
  refine ⟨h0.trans ?_, h1.trans ?_, hargs⟩
  · rw [Cert.ReferenceIdeal.RV.res0_eq m' c, e0, e1, e2, e3, e4, e5, e6, e7, e8, e9, e10, e11, e12, e13, e14, e15, e16, e17, e18, e19, e23, e24, e25]
    exact (Cert.Sage.Final.res0 _ _ _ _ _ _ _ _ _ _ _ _ _ _ _ _ _ _ _ _ _ _ _ _ _ _ hF).trans (Cert.KernelIdeal.KVal.res0 m g c).symm
  · rw [Cert.ReferenceIdeal.RV.res1_eq m' c, e0, e1, e2, e3, e4, e5, e6, e7, e8, e9, e10, e11, e12, e13, e14, e15, e16, e20, e21, e22]
    exact (Cert.Sage.Final.res1 _ _ _ _ _ _ _ _ _ _ _ _ _ _ _ _ _ _ _ _ _ _ _ _ _ _ hF).trans (Cert.KernelIdeal.KVal.res1 m g c).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
